-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg1 : IVec S2x640000 32) (main_arg15 : FVec F S40 .f32) (main_v63 : IVec S_ 1) (main_v67 : IVec S_ 1) : IVec S_ 1 :=
  let main_v68 : IVec S_ 1 := andi main_v63 main_v67
  let main_v69 : FVec F S40 .f32 := Host.absf main_arg15
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  let main_c_28 : IVec S_ 32 := constantI S_ 32 0#32
  let main_v74 : IVec S2x640000 32 := broadcastInDim S2x640000 ![] bcast_S_S2x640000 main_c_28
  let main_v75 : IVec S2x640000 1 := cmpi .sge main_arg1 main_v74
  let main_c_29 : IVec S_ 32 := constantI S_ 32 10000#32
  let main_v76 : IVec S2x640000 32 := broadcastInDim S2x640000 ![] bcast_S_S2x640000 main_c_29
  let main_v77 : IVec S2x640000 1 := cmpi .slt main_arg1 main_v76
  let main_v78 : IVec S2x640000 1 := andi main_v75 main_v77
  let main_c_30 : IVec S_ 1 := constantI S_ 1 1#1
  let main_v79 : IVec S_ 1 := (fun x v => Host.reduce IntOp.andi x v reducesTo_S2x640000_S_d0_1 h_S_) main_v78 main_c_30
  let main_v80 : IVec S_ 1 := andi main_v73 main_v79
  main_v80

def fn_part3 {F : FTy → Type} [FloatOps F] (main_arg1 : IVec S2x640000 32) (main_arg12 : FVec F S128x128 .f32) (main_arg13 : FVec F S128 .f32) (main_arg14 : FVec F S128x40 .f32) (main_arg15 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x40 .f32 := Host.absf main_arg14
  let main_cst_24 : FVec F S_ .f32 := constant S_ .f32 0x7F800000#32
  let main_v65 : FVec F S128x40 .f32 := broadcastInDim S128x40 ![] bcast_S_S128x40 main_cst_24
  let main_v66 : IVec S128x40 1 := cmpf .olt main_v64 main_v65
  let main_c_25 : IVec S_ 1 := constantI S_ 1 1#1
  let main_v67 : IVec S_ 1 := (fun x v => Host.reduce IntOp.andi x v reducesTo_S128x40_S_d0_1 h_S_) main_v66 main_c_25
  fn_part4 (F := F) main_arg1 main_arg15 main_v63 main_v67

def fn_part2 {F : FTy → Type} [FloatOps F] (main_arg1 : IVec S2x640000 32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x40 .f32) (main_arg15 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x40 .f32) (main_arg15 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S10000x128 .f32) (main_arg1 : IVec S2x640000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x40 .f32) (main_arg15 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S10000x10000 : Shape := ⟨2, ![10000, 10000]⟩
abbrev S640000x1 : Shape := ⟨2, ![640000, 1]⟩
abbrev S640000x2 : Shape := ⟨2, ![640000, 2]⟩
abbrev S1x128 : Shape := ⟨2, ![1, 128]⟩
abbrev S400x10000 : Shape := ⟨2, ![400, 10000]⟩
abbrev S400x128 : Shape := ⟨2, ![400, 128]⟩
abbrev S1x40 : Shape := ⟨2, ![1, 40]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 117
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x40, .f32⟩
  | .hbm, ⟨15, _⟩ => ⟨S40, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .f32⟩
  | .hbm, ⟨21, _⟩ => ⟨S10000x10000, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x1, .i32⟩
  | .hbm, ⟨38, _⟩ => ⟨S640000x2, .i32⟩
  | .hbm, ⟨39, _⟩ => ⟨S_, .f32⟩
  | .hbm, ⟨40, _⟩ => ⟨S640000, .f32⟩
  | .hbm, ⟨41, _⟩ => ⟨S10000x10000, .f32⟩
  | .hbm, ⟨42, _⟩ => ⟨S10000x10000, .bf16⟩
  | .hbm, ⟨43, _⟩ => ⟨S1x128, .f32⟩
  | .hbm, ⟨44, _⟩ => ⟨S10000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S10000x128, .f32⟩
  | .hbm, ⟨79, _⟩ => ⟨S1x128, .f32⟩
  | .hbm, ⟨80, _⟩ => ⟨S10000x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S10000x128, .f32⟩
  | .hbm, ⟨94, _⟩ => ⟨S10000x128, .f32⟩
  | .hbm, ⟨95, _⟩ => ⟨S10000x128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S10000x128, .f32⟩
  | .hbm, ⟨115, _⟩ => ⟨S1x40, .f32⟩
  | .hbm, ⟨116, _⟩ => ⟨S10000x40, .f32⟩
  | .local _ .vmem, ⟨0, _⟩ => ⟨S400x10000, .bf16⟩
  | .local _ .vmem, ⟨1, _⟩ => ⟨S400x10000, .bf16⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S400x128, .f32⟩
  | .local _ .vmem, ⟨16, _⟩ => ⟨S400x128, .f32⟩
  | .local _ .vmem, ⟨17, _⟩ => ⟨S400x10000, .bf16⟩
  | .local _ .vmem, ⟨18, _⟩ => ⟨S400x10000, .bf16⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S400x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S400x128, .f32⟩
  | .local _ .vmem, ⟨33, _⟩ => ⟨S400x128, .f32⟩
  | .local _ .vmem, ⟨34, _⟩ => ⟨S400x128, .f32⟩
  | .local _ .vmem, ⟨35, _⟩ => ⟨S400x128, .f32⟩
  | .local _ .vmem, ⟨36, _⟩ => ⟨S128x40, .f32⟩
  | .local _ .vmem, ⟨37, _⟩ => ⟨S1x40, .f32⟩
  | .local _ .vmem, ⟨38, _⟩ => ⟨S400x40, .f32⟩
  | .local _ .vmem, ⟨39, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_7 : Ref sig .tc := ⟨.hbm, 81, rfl⟩
abbrev main_v35 : Ref sig .tc := ⟨.hbm, 82, rfl⟩
abbrev main_cst_8 : Ref sig .tc := ⟨.hbm, 83, rfl⟩
abbrev main_v36 : Ref sig .tc := ⟨.hbm, 84, rfl⟩
abbrev main_v37 : Ref sig .tc := ⟨.hbm, 85, rfl⟩
abbrev main_c_9 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_cst_3 : Ref sig .tc := ⟨.hbm, 103, rfl⟩
abbrev main_call1_v12 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨1, ![25], ![false]⟩

def k0_mult1 (i : grid0.Coords) : BitVec 32 :=
  let arg0 : BitVec 32 := BitVec.ofNat 32 (i 0).val
  let c400_i32 : BitVec 32 := 400#32
  let v0 : BitVec 32 := Scalar.muli arg0 c400_i32
  v0
def k0_off1 (i : grid0.Coords) : Fin 2 → Nat :=
  let arg0 : BitVec 32 := BitVec.ofNat 32 (i 0).val
  let c400_i32 : BitVec 32 := 400#32
  let v0 : BitVec 32 := Scalar.muli arg0 c400_i32
  let v1 : BitVec 32 := v0
  let v7 : Index := Scalar.indexCast v1
  let c0_3 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def k2_mult1 (i : grid2.Coords) : BitVec 32 :=
  let arg0 : BitVec 32 := BitVec.ofNat 32 (i 0).val
  let c400_i32 : BitVec 32 := 400#32
  let v0 : BitVec 32 := Scalar.muli arg0 c400_i32
  v0
def k2_off1 (i : grid2.Coords) : Fin 2 → Nat :=
  let arg0 : BitVec 32 := BitVec.ofNat 32 (i 0).val
  let c400_i32 : BitVec 32 := 400#32
  let v0 : BitVec 32 := Scalar.muli arg0 c400_i32
  let v1 : BitVec 32 := v0
  let v8 : Index := Scalar.indexCast v1
  let c0_3 : Index := 0#32
  ![v8.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000x10000 : S_.BroadcastsInDim S10000x10000 (![] : Fin 0 → Fin S10000x10000.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  shapeCasts_S400x128_S400x128 : S400x128.ShapeCasts S400x128
  shapeCasts_S10000x128_S10000x128 : S10000x128.ShapeCasts S10000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  scatter_S10000x10000_S640000x2_S640000_n_01_01_1_wf : ScatterDims.WF S10000x10000 S640000x2 S640000 [] [0, 1] [0, 1] 1
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x40_S400x40_1_0_0_1_n_n_wf : DotDims.WF S400x128 S128x40 S400x40 [1] [0] [0] [1] [] []
  hrank0 : 0 < grid0.rank
  k0_mult1_dvd : ∀ i : grid0.Coords, 400 ∣ (k0_mult1 i).toNat
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x128.size a ≤ S10000x128.size a
  hwx1_0 : ∀ i : grid1.Coords, EltTy.bits .f32 = 32 ∨ (Rect.block (s := S10000x128) S400x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)
  hrank2 : 0 < grid2.rank
  k2_mult1_dvd : ∀ i : grid2.Coords, 400 ∣ (k2_mult1 i).toNat
  k2_off1_inb : ∀ i : grid2.Coords, ∀ a, (k2_off1 i) a + S400x128.size a ≤ S10000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x128.size a ≤ S10000x128.size a
  hwx3_0 : ∀ i : grid3.Coords, EltTy.bits .f32 = 32 ∨ (Rect.block (s := S10000x128) S400x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x128.size a ≤ S10000x128.size a
  hwx3_7 : ∀ i : grid3.Coords, EltTy.bits .f32 = 32 ∨ (Rect.block (s := S10000x128) S400x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x128.size a ≤ S10000x128.size a
  hwx4_0 : ∀ i : grid4.Coords, EltTy.bits .f32 = 32 ∨ (Rect.block (s := S10000x128) S400x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x40.size a ≤ S10000x40.size a
  hwx4_3 : ∀ i : grid4.Coords, EltTy.bits .f32 = 32 ∨ (Rect.block (s := S10000x40) S400x40.size (cc4_transform_3 i) (hinb4_3 i)).WholeWords (EltTy.packing .f32)

variable [Facts₀]

def scatter_S10000x10000_S640000x2_S640000_n_01_01_1 : ScatterDims S10000x10000 S640000x2 S640000 where
  updateWindowDims := []
  insertedWindowDims := [0, 1]
  scatterDimsToOperandDims := [0, 1]
  indexVectorDim := 1
  wf := scatter_S10000x10000_S640000x2_S640000_n_01_01_1_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf

abbrev win0_0 : Pipeline.Window sig grid0 :=
  Pipeline.Window.ofSpec (Memref.whole main_v20) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v34) S400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v44) S400x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v44) S400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S400x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 187
  | .vmem => 0
  | .smem => 0
  | _ => 0

abbrev hbmTy0_0 (i : Nat) : BufTy := match i % 128 with
  | 0 => ⟨S10000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x40, .f32⟩
  | 15 => ⟨S40, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .f32⟩
  | 30 => ⟨S10000x128, .f32⟩
  | 31 => ⟨S640000x1, .i32⟩
  | 32 => ⟨S10000x128, .f32⟩
  | 33 => ⟨S10000x128, .f32⟩
  | 34 => ⟨S10000x128, .f32⟩
  | 35 => ⟨S1x128, .f32⟩
  | 36 => ⟨S10000x128, .f32⟩
  | 37 => ⟨S10000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S10000x128, .f32⟩
  | 51 => ⟨S10000x128, .f32⟩
  | 52 => ⟨S10000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S10000x128, .f32⟩
  | 68 => ⟨S10000x128, .f32⟩
  | 69 => ⟨S_, .f32⟩
  | 70 => ⟨S128, .f32⟩
  | 71 => ⟨S128, .f32⟩
  | 72 => ⟨S128, .f32⟩
  | 73 => ⟨S1x128, .f32⟩
  | 74 => ⟨S10000x128, .f32⟩
  | 75 => ⟨S10000x128, .f32⟩
  | 76 => ⟨S1x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x128, .f32⟩
  | 86 => ⟨S1x128, .f32⟩
  | 87 => ⟨S10000x128, .f32⟩
  | 88 => ⟨S10000x128, .f32⟩
  | 89 => ⟨S_, .f32⟩
  | 90 => ⟨S10000x128, .f32⟩
  | 91 => ⟨S10000x128, .f32⟩
  | 92 => ⟨S1x640000, .i32⟩
  | 93 => ⟨S640000, .i32⟩
  | 94 => ⟨S1x640000, .i32⟩
  | 95 => ⟨S640000, .i32⟩
  | 96 => ⟨S_, .i32⟩
  | 97 => ⟨S640000, .i32⟩
  | 98 => ⟨S640000, .i1⟩
  | 99 => ⟨S_, .i32⟩
  | 100 => ⟨S640000, .i32⟩
  | 101 => ⟨S640000, .i32⟩
  | 102 => ⟨S640000, .i32⟩
  | 103 => ⟨S640000x1, .i32⟩
  | 104 => ⟨S640000x128, .f32⟩
  | 105 => ⟨S_, .f32⟩
  | 106 => ⟨S10000x128, .f32⟩
  | 107 => ⟨S640000x1, .i32⟩
  | 108 => ⟨S10000x128, .f32⟩
  | 109 => ⟨S10000x128, .f32⟩
  | 110 => ⟨S10000x128, .f32⟩
  | 111 => ⟨S1x128, .f32⟩
  | 112 => ⟨S10000x128, .f32⟩
  | 113 => ⟨S10000x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S10000x128, .f32⟩
  | 127 => ⟨S10000x128, .f32⟩
  | _ => ⟨S10000x128, .f32⟩

abbrev hbmTy0_1 (i : Nat) : BufTy := match i % 128 with
  | 0 => ⟨S10000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S10000x128, .f32⟩
  | 16 => ⟨S10000x128, .f32⟩
  | 17 => ⟨S_, .f32⟩
  | 18 => ⟨S128, .f32⟩
  | 19 => ⟨S128, .f32⟩
  | 20 => ⟨S128, .f32⟩
  | 21 => ⟨S1x128, .f32⟩
  | 22 => ⟨S10000x128, .f32⟩
  | 23 => ⟨S10000x128, .f32⟩
  | 24 => ⟨S1x128, .f32⟩
  | 25 => ⟨S10000x128, .f32⟩
  | 26 => ⟨S10000x128, .f32⟩
  | 27 => ⟨S1x128, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S10000x128, .f32⟩
  | 34 => ⟨S1x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S10000x40, .f32⟩
  | 41 => ⟨S1x40, .f32⟩
  | 42 => ⟨S10000x40, .f32⟩
  | 43 => ⟨S10000x40, .f32⟩
  | 44 => ⟨S_, .f32⟩
  | 45 => ⟨S10000, .f32⟩
  | 46 => ⟨S_, .f32⟩
  | 47 => ⟨S10000, .f32⟩
  | 48 => ⟨S10000, .f32⟩
  | 49 => ⟨S10000x1, .f32⟩
  | 50 => ⟨S10000x40, .f32⟩
  | 51 => ⟨S10000x40, .f32⟩
  | 52 => ⟨S10000x40, .f32⟩
  | 53 => ⟨S_, .f32⟩
  | 54 => ⟨S10000, .f32⟩
  | 55 => ⟨S10000x1, .f32⟩
  | 56 => ⟨S10000x1, .f32⟩
  | 57 => ⟨S10000x40, .f32⟩
  | 58 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_cst_3 : Ref sig .tc := ⟨.hbm, 60, rfl⟩
abbrev main_call0_v12 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_4 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_call1_cst : Ref sig .tc := ⟨.hbm, 82, rfl⟩
abbrev main_call1_v0 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_call2_cst : Ref sig .tc := ⟨.hbm, 89, rfl⟩
abbrev main_call2_v0 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_5 : Ref sig .tc := ⟨.hbm, 96, rfl⟩
abbrev main_v48 : Ref sig .tc := ⟨.hbm, 97, rfl⟩
abbrev main_v49 : Ref sig .tc := ⟨.hbm, 98, rfl⟩
abbrev main_c_6 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_7 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_8 : Ref sig .tc := ⟨.hbm, 114, rfl⟩
abbrev main_v63 : Ref sig .tc := ⟨.hbm, 115, rfl⟩
abbrev main_cst_9 : Ref sig .tc := ⟨.hbm, 116, rfl⟩
abbrev main_v64 : Ref sig .tc := ⟨.hbm, 117, rfl⟩
abbrev main_v65 : Ref sig .tc := ⟨.hbm, 118, rfl⟩
abbrev main_c_10 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_cst_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_v7 : Ref sig .tc := ⟨.hbm, 129, rfl⟩
abbrev main_call3_cst_1 : Ref sig .tc := ⟨.hbm, 130, rfl⟩
abbrev main_call3_v8 : Ref sig .tc := ⟨.hbm, 131, rfl⟩
abbrev main_call3_cst_2 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_cst_3 : Ref sig .tc := ⟨.hbm, 136, rfl⟩
abbrev main_call3_v12 : Ref sig .tc := ⟨.hbm, 137, rfl⟩
abbrev main_call3_cst_4 : Ref sig .tc := ⟨.hbm, 138, rfl⟩
abbrev main_call3_call0_v0 : Ref sig .tc := ⟨.hbm, 139, rfl⟩
abbrev main_call3_call0_v1 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_cst_11 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_call4_cst : Ref sig .tc := ⟨.hbm, 158, rfl⟩
abbrev main_call4_v0 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_call5_cst : Ref sig .tc := ⟨.hbm, 165, rfl⟩
abbrev main_call5_v0 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_call6_cst : Ref sig .tc := ⟨.hbm, 172, rfl⟩
abbrev main_call6_v0 : Ref sig .tc := ⟨.hbm, 173, rfl⟩
abbrev main_call6_cst_0 : Ref sig .tc := ⟨.hbm, 174, rfl⟩
abbrev main_call6_v1 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_v6 : Ref sig .tc := ⟨.hbm, 180, rfl⟩
abbrev main_call6_cst_1 : Ref sig .tc := ⟨.hbm, 181, rfl⟩
abbrev main_call6_v7 : Ref sig .tc := ⟨.hbm, 182, rfl⟩
abbrev main_call6_v8 : Ref sig .tc := ⟨.hbm, 183, rfl⟩
abbrev main_call6_v9 : Ref sig .tc := ⟨.hbm, 184, rfl⟩
abbrev main_call6_v10 : Ref sig .tc := ⟨.hbm, 185, rfl⟩
abbrev main_v92 : Ref sig .tc := ⟨.hbm, 186, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.Spec.lean ====
/-
  The mathematics both programs compute, index by index over the extended reals.

  A two-layer graph network on 10000 nodes with 128 features.  One layer takes node features `h`, adds to every
  node the sum of its in-neighbours' features (one term per edge, repeated edges counted), applies an affine map,
  normalises every column by its batch mean and variance, applies `max · 0`, a second affine map and `max · 0`
  again.  After two layers an affine map to 40 classes and a row-wise log-softmax.

  * `agg ei h` : the neighbour sum, one term per edge whose destination is the row.
  * `matA A h` : the same sum written as a product with a 10000 × 10000 matrix of edge multiplicities.
  * `LIN`, `GA` : neighbour sum plus self, then the first affine map.
  * `GB`       : normalisation by given column statistics, `max · 0`, affine map, `max · 0`.
  * `GC`       : affine map to 40 classes, then `x - max - log ∑ exp (x - max)` along each row.
  * `OUT`      : the whole network, the column statistics given as two functions of the array they summarise.
-/
import Idealize.ShloMosaic.PureOps.Ideal
import Idealize.ShloMosaic.Lib.ValueIdx

noncomputable section

open scoped BigOperators

namespace Cert.Gin

open Idealize.ShloMosaic Idealize.ShloMosaic.ValueIdx

abbrev SNN : Shape := ⟨2, ![10000, 10000]⟩
abbrev SND : Shape := ⟨2, ![10000, 128]⟩
abbrev SDD : Shape := ⟨2, ![128, 128]⟩
abbrev SDC : Shape := ⟨2, ![128, 40]⟩
abbrev SNC : Shape := ⟨2, ![10000, 40]⟩
abbrev S1D : Shape := ⟨2, ![1, 128]⟩
abbrev S1C : Shape := ⟨2, ![1, 40]⟩
abbrev SD : Shape := ⟨1, ![128]⟩
abbrev SC : Shape := ⟨1, ![40]⟩
abbrev SE2 : Shape := ⟨2, ![2, 640000]⟩

/-- Every endpoint of every edge is a node number: `0 ≤ · < 10000`, the words read as signed integers. -/
def InRange (ei : IVec SE2 32) : Prop := ∀ i : SE2.Idx, 0 ≤ (ei i).toInt ∧ (ei i).toInt < 10000

/-- The source node of edge `e` (row 0 of the edge list). -/
def srcN (ei : IVec SE2 32) (e : Fin 640000) : ℕ := (ei (ix2 (0 : Fin 2) e)).toNat
/-- The destination node of edge `e` (row 1 of the edge list). -/
def dstN (ei : IVec SE2 32) (e : Fin 640000) : ℕ := (ei (ix2 (1 : Fin 2) e)).toNat

/-- Row `r`, column `k` of the neighbour sum: over the edges that end at `r`, the source's feature `k`. -/
def aggAt (ei : IVec SE2 32) (h : SND.Idx → EReal) (r : Fin 10000) (k : Fin 128) : EReal :=
  ∑ e : Fin 640000, if dstN ei e = r.val then (if hs : srcN ei e < 10000 then h (ix2 (⟨srcN ei e, hs⟩ : Fin 10000) k) else 0) else 0

def agg (ei : IVec SE2 32) (h : SND.Idx → EReal) : SND.Idx → EReal := fun i => aggAt ei h (i 0) (i 1)

/-- The product of a 10000 × 10000 matrix with the features. -/
def matA (A : SNN.Idx → EReal) (h : SND.Idx → EReal) : SND.Idx → EReal :=
  fun i => ∑ s : Fin 10000, A (ix2 (i 0 : Fin 10000) s) * h (ix2 s (i 1 : Fin 128))

/-- `(a + h) · W + b`, the bias a one-row array. -/
def LINat (a h : SND.Idx → EReal) (W : SDD.Idx → EReal) (b2 : S1D.Idx → EReal) (r : Fin 10000) (k : Fin 128) : EReal :=
  (∑ j : Fin 128, (a (ix2 r j) + h (ix2 r j)) * W (ix2 j k)) + b2 (ix2 (0 : Fin 1) k)

def LIN (a h : SND.Idx → EReal) (W : SDD.Idx → EReal) (b2 : S1D.Idx → EReal) : SND.Idx → EReal :=
  fun i => LINat a h W b2 (i 0) (i 1)

/-- The first stage with the neighbour sum as a matrix product. -/
def GA (A : SNN.Idx → EReal) (h : SND.Idx → EReal) (W : SDD.Idx → EReal) (b2 : S1D.Idx → EReal) : SND.Idx → EReal :=
  LIN (matA A h) h W b2

/-- The variance's guard `1e-5` as the float it is. -/
def eps : EReal := Ideal.ofBits .f32 0x3727C5AC#32
/-- The float zero. -/
def zeroF : EReal := Ideal.ofBits .f32 0x00000000#32
/-- The float minus infinity. -/
def negInfF : EReal := Ideal.ofBits .f32 0xFF800000#32

/-- One normalised, rectified entry: `max ((x - μ) · rsqrt (σ² + ε) · γ + β) 0`. -/
def bnAt (lin : SND.Idx → EReal) (mu2 var2 g2 be2 : S1D.Idx → EReal) (r : Fin 10000) (j : Fin 128) : EReal :=
  max ((((lin (ix2 r j) - mu2 (ix2 (0 : Fin 1) j)) * Ideal.rsqrt (var2 (ix2 (0 : Fin 1) j) + eps)) * g2 (ix2 (0 : Fin 1) j))
      + be2 (ix2 (0 : Fin 1) j)) zeroF

def GBat (lin : SND.Idx → EReal) (mu2 var2 g2 be2 : S1D.Idx → EReal) (Wb : SDD.Idx → EReal) (bb2 : S1D.Idx → EReal)
    (r : Fin 10000) (k : Fin 128) : EReal :=
  max ((∑ j : Fin 128, bnAt lin mu2 var2 g2 be2 r j * Wb (ix2 j k)) + bb2 (ix2 (0 : Fin 1) k)) zeroF

def GB (lin : SND.Idx → EReal) (mu2 var2 g2 be2 : S1D.Idx → EReal) (Wb : SDD.Idx → EReal) (bb2 : S1D.Idx → EReal) :
    SND.Idx → EReal := fun i => GBat lin mu2 var2 g2 be2 Wb bb2 (i 0) (i 1)

/-- One class score. -/
def logitAt (h : SND.Idx → EReal) (Wfc : SDC.Idx → EReal) (bfc2 : S1C.Idx → EReal) (r : Fin 10000) (c : Fin 40) : EReal :=
  (∑ j : Fin 128, h (ix2 r j) * Wfc (ix2 j c)) + bfc2 (ix2 (0 : Fin 1) c)

/-- The largest score of a row (from minus infinity). -/
def rowMax (h : SND.Idx → EReal) (Wfc : SDC.Idx → EReal) (bfc2 : S1C.Idx → EReal) (r : Fin 10000) : EReal :=
  (Finset.univ : Finset (Fin 40)).fold max negInfF (fun c => logitAt h Wfc bfc2 r c)

def GCat (h : SND.Idx → EReal) (Wfc : SDC.Idx → EReal) (bfc2 : S1C.Idx → EReal) (r : Fin 10000) (c : Fin 40) : EReal :=
  (logitAt h Wfc bfc2 r c - rowMax h Wfc bfc2 r)
    - Ideal.log (∑ c' : Fin 40, Ideal.exp (logitAt h Wfc bfc2 r c' - rowMax h Wfc bfc2 r))

def GC (h : SND.Idx → EReal) (Wfc : SDC.Idx → EReal) (bfc2 : S1C.Idx → EReal) : SNC.Idx → EReal :=
  fun i => GCat h Wfc bfc2 (i 0) (i 1)

/-- A length-128 vector as a one-row array. -/
def rs128 (v : SD.Idx → EReal) : S1D.Idx → EReal := fun i => v (ix1 (i 1 : Fin 128))
/-- A length-40 vector as a one-row array. -/
def rs40 (v : SC.Idx → EReal) : S1C.Idx → EReal := fun i => v (ix1 (i 1 : Fin 40))

/-- One layer: `a` is the neighbour-sum operator, `MU` and `VAR` the column statistics. -/
def layer (MU VAR : (SND.Idx → EReal) → SD.Idx → EReal) (a : (SND.Idx → EReal) → SND.Idx → EReal)
    (h : SND.Idx → EReal) (Wa : SDD.Idx → EReal) (ba g be : SD.Idx → EReal) (Wb : SDD.Idx → EReal) (bb : SD.Idx → EReal) :
    SND.Idx → EReal :=
  GB (LIN (a h) h Wa (rs128 ba)) (rs128 (MU (LIN (a h) h Wa (rs128 ba)))) (rs128 (VAR (LIN (a h) h Wa (rs128 ba))))
    (rs128 g) (rs128 be) Wb (rs128 bb)

/-- The whole network. -/
def OUT (MU VAR : (SND.Idx → EReal) → SD.Idx → EReal) (ei : IVec SE2 32) (x : SND.Idx → EReal)
    (W1a : SDD.Idx → EReal) (b1a g1 be1 : SD.Idx → EReal) (W1b : SDD.Idx → EReal) (b1b : SD.Idx → EReal)
    (W2a : SDD.Idx → EReal) (b2a g2 be2 : SD.Idx → EReal) (W2b : SDD.Idx → EReal) (b2b : SD.Idx → EReal)
    (Wfc : SDC.Idx → EReal) (bfc : SC.Idx → EReal) : SNC.Idx → EReal :=
  GC (layer MU VAR (agg ei) (layer MU VAR (agg ei) x W1a b1a g1 be1 W1b b1b) W2a b2a g2 be2 W2b b2b) Wfc (rs40 bfc)

end Cert.Gin

end
-- ==== Proof.KTerms.lean ====
/-
  The kernel program's host-side values as pure terms of its arguments: the 10000 × 10000 matrix of edge
  multiplicities it builds by a scatter of ones at (destination, source), and the column mean and variance it takes of
  a 10000 × 128 array between two pallas_calls.
-/
import proofs.«423809_j45028437131840_1_alg».proof.Proof.Gen.KernelIdeal
import Idealize.ShloMosaic.PureOps.Ideal

noncomputable section

namespace Cert.KernelIdeal.KV

open Cert.KernelIdeal Cert.KernelIdeal.Facts₀ Cert.KernelIdeal.Facts Idealize.ShloMosaic

/-- Row 0 of the edge list (the sources) as a vector. -/
def srcRow (ei : IVec S2x640000 32) : IVec S640000 32 :=
  fun i => shapeCast S640000 (extractStridedSlice S1x640000 ![0, 0] ei slices_S2x640000_S1x640000_0_0) shapeCasts_S1x640000_S640000 i
/-- Row 1 of the edge list (the destinations) as a vector. -/
def dstRow (ei : IVec S2x640000 32) : IVec S640000 32 :=
  fun i => shapeCast S640000 (extractStridedSlice S1x640000 ![1, 0] ei slices_S2x640000_S1x640000_1_0) shapeCasts_S1x640000_S640000 i
/-- A negative index counted from the end: `v < 0 ? v + 10000 : v`. -/
def wrap (v : IVec S640000 32) : IVec S640000 32 :=
  select (cmpi .slt v (broadcastInDim S640000 ![] bcast_S_S640000 (constantI S_ 32 0#32)))
    (addi v (broadcastInDim S640000 ![] bcast_S_S640000 (constantI S_ 32 10000#32))) v
/-- The scatter's index pairs (destination, source). -/
def idx2 (ei : IVec S2x640000 32) : IVec S640000x2 32 :=
  concatenate S640000x2 1 [⟨S640000x1, broadcastInDim S640000x1 ![0] bcast_S640000_S640000x1_0 (wrap (dstRow ei))⟩,
    ⟨S640000x1, broadcastInDim S640000x1 ![0] bcast_S640000_S640000x1_0 (wrap (srcRow ei))⟩] concatenates_S640000x1_S640000x1_S640000x2_d1
/-- The multiplicity matrix: ones added at (destination, source), then narrowed. -/
def AK (ei : IVec S2x640000 32) : FVec Ideal S10000x10000 .bf16 :=
  truncf .bf16 (Host.scatterAdd scatter_S10000x10000_S640000x2_S640000_n_01_01_1
      (broadcastInDim S10000x10000 ![] bcast_S_S10000x10000 (constant S_ .f32 0x00000000#32)) (idx2 ei)
      (broadcastInDim S640000 ![] bcast_S_S640000 (constant S_ .f32 0x3F800000#32))) bitsLt_bf16_f32

/-- The column mean: the column sums divided by 10000. -/
def MUk (lin : FVec Ideal S10000x128 .f32) : FVec Ideal S128 .f32 :=
  Host.divf (Host.reduceAdd lin (constant S_ .f32 0x00000000#32) reducesTo_S10000x128_S128_d0 h_S_)
    (broadcastInDim S128 ![] bcast_S_S128 (constant S_ .f32 0x461C4000#32))

/-- The count the variance divides by: `10000 - 0`. -/
def cntK : FVec Ideal S_ .f32 := subf (constant S_ .f32 0x461C4000#32) (sitofp .f32 (constantI S_ 32 0#32))

/-- The column variance (no degree of freedom removed): the mean of the squared deviations from the column mean,
    guarded by "the count is positive". -/
def VARk (lin : FVec Ideal S10000x128 .f32) : FVec Ideal S128 .f32 :=
  select (broadcastInDim S128 ![] bcast_S_S128 (cmpf .ogt cntK (constant S_ .f32 0x00000000#32)))
    (Host.divf
      (Host.reduceAdd
        (mulf
          (subf lin (broadcastInDim S10000x128 ![0, 1] bcast_S1x128_S10000x128_0_1
            (Host.divf (broadcastInDim S1x128 ![1] bcast_S128_S1x128_1
                (Host.reduceAdd lin (constant S_ .f32 0x00000000#32) reducesTo_S10000x128_S128_d0 h_S_))
              (broadcastInDim S1x128 ![] bcast_S_S1x128 (constant S_ .f32 0x461C4000#32)))))
          (subf lin (broadcastInDim S10000x128 ![0, 1] bcast_S1x128_S10000x128_0_1
            (Host.divf (broadcastInDim S1x128 ![1] bcast_S128_S1x128_1
                (Host.reduceAdd lin (constant S_ .f32 0x00000000#32) reducesTo_S10000x128_S128_d0 h_S_))
              (broadcastInDim S1x128 ![] bcast_S_S1x128 (constant S_ .f32 0x461C4000#32))))))
        (constant S_ .f32 0x00000000#32) reducesTo_S10000x128_S128_d0 h_S_)
      (broadcastInDim S128 ![] bcast_S_S128 cntK))
    (broadcastInDim S128 ![] bcast_S_S128 (id (constant S_ .f32 0x7FC00000#32)))

end Cert.KernelIdeal.KV

end
-- ==== Proof.KHost01.lean ====
/-
  What the first two pallas_calls of the kernel program find in their input arrays: each array is either an argument of the
  program, untouched since the launch, or the result of the host operations before the call, stated as a pure term
  of the arguments (the multiplicity matrix, the column mean and variance, a vector read as a one-row array).
-/
import proofs.«423809_j45028437131840_1_alg».proof.Proof.Gen.KernelIdeal.Frame
import proofs.«423809_j45028437131840_1_alg».proof.Proof.KTerms
import proofs.«423809_j45028437131840_1_alg».proof.Proof.Spec
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable (m : (ℓ : Loc nD τ sig) → Buf (Elt Ideal) ℓ) (ρ : Dev nD → PrngReg)

namespace HostVals

section HostOps
variable (W : Valuation τ sig (Elt Ideal))

/-! ## The host operations before the first call, from any contents -/

theorem ops0_arg0 : StableHlo.after hostOps0 W (Proc.devRef .tc main_arg0) = W (Proc.devRef .tc main_arg0) := by
  after_results_simp
theorem ops0_arg2 : StableHlo.after hostOps0 W (Proc.devRef .tc main_arg2) = W (Proc.devRef .tc main_arg2) := by
  after_results_simp
theorem ops0_arg4 : StableHlo.after hostOps0 W (Proc.devRef .tc main_arg4) = W (Proc.devRef .tc main_arg4) := by
  after_results_simp
theorem ops0_arg5 : StableHlo.after hostOps0 W (Proc.devRef .tc main_arg5) = W (Proc.devRef .tc main_arg5) := by
  after_results_simp
theorem ops0_arg6 : StableHlo.after hostOps0 W (Proc.devRef .tc main_arg6) = W (Proc.devRef .tc main_arg6) := by
  after_results_simp
theorem ops0_arg7 : StableHlo.after hostOps0 W (Proc.devRef .tc main_arg7) = W (Proc.devRef .tc main_arg7) := by
  after_results_simp
/-- A length-128 vector reshaped to one row reads, at `(u, j)`, the vector at `j`. -/
theorem reshape_rs128 (v : Cert.Gin.SD.Idx → EReal) (h : S128.ShapeCasts S1x128) :
    (fun i => shapeCast S1x128 v h i) = Cert.Gin.rs128 v := by
  funext i
  rw [ValueIdx.eq_ix2 i]
  exact shapeCast_a_1a_apply v h (i 0) (i 1)
theorem ops0_v21 : StableHlo.after hostOps0 W (Proc.devRef .tc main_v21) = Cert.Gin.rs128 (W (Proc.devRef .tc main_arg3)) := by
  after_results_simp
  exact reshape_rs128 _ _

/-! ## The column mean, the variance and the five reshapes between the two calls -/

theorem ops1_v22 : StableHlo.after hostOps1 W (Proc.devRef .tc main_v22) = W (Proc.devRef .tc main_v22) := by
  after_results_simp
theorem ops1_v25 : StableHlo.after hostOps1 W (Proc.devRef .tc main_v25) = KV.MUk (W (Proc.devRef .tc main_v22)) := by
  after_results_simp
  rfl
theorem ops1_c6 : StableHlo.after hostOps1 W (Proc.devRef .tc main_c_6) = (constantI S_ 32 0#32 : IVec S_ 32) := by
  after_results_simp
theorem ops1_arg4 : StableHlo.after hostOps1 W (Proc.devRef .tc main_arg4) = W (Proc.devRef .tc main_arg4) := by
  after_results_simp
theorem ops1_arg5 : StableHlo.after hostOps1 W (Proc.devRef .tc main_arg5) = W (Proc.devRef .tc main_arg5) := by
  after_results_simp
theorem ops1_arg6 : StableHlo.after hostOps1 W (Proc.devRef .tc main_arg6) = W (Proc.devRef .tc main_arg6) := by
  after_results_simp
theorem ops1_arg7 : StableHlo.after hostOps1 W (Proc.devRef .tc main_arg7) = W (Proc.devRef .tc main_arg7) := by
  after_results_simp

theorem ops11_v22 : StableHlo.after hostOps1_1 W (Proc.devRef .tc main_v22) = W (Proc.devRef .tc main_v22) := by
  after_results_simp
theorem ops11_v25 : StableHlo.after hostOps1_1 W (Proc.devRef .tc main_v25) = W (Proc.devRef .tc main_v25) := by
  after_results_simp
theorem ops11_arg4 : StableHlo.after hostOps1_1 W (Proc.devRef .tc main_arg4) = W (Proc.devRef .tc main_arg4) := by
  after_results_simp
theorem ops11_arg5 : StableHlo.after hostOps1_1 W (Proc.devRef .tc main_arg5) = W (Proc.devRef .tc main_arg5) := by
  after_results_simp
theorem ops11_arg6 : StableHlo.after hostOps1_1 W (Proc.devRef .tc main_arg6) = W (Proc.devRef .tc main_arg6) := by
  after_results_simp
theorem ops11_arg7 : StableHlo.after hostOps1_1 W (Proc.devRef .tc main_arg7) = W (Proc.devRef .tc main_arg7) := by
  after_results_simp

theorem ops12_v22 : StableHlo.after hostOps1_2 W (Proc.devRef .tc main_v22) = W (Proc.devRef .tc main_v22) := by
  after_results_simp
theorem ops12_arg6 : StableHlo.after hostOps1_2 W (Proc.devRef .tc main_arg6) = W (Proc.devRef .tc main_arg6) := by
  after_results_simp
theorem ops12_v27 : StableHlo.after hostOps1_2 W (Proc.devRef .tc main_v27) = Cert.Gin.rs128 (W (Proc.devRef .tc main_v25)) := by
  after_results_simp
  exact reshape_rs128 _ _
theorem ops12_v28 : StableHlo.after hostOps1_2 W (Proc.devRef .tc main_v28) = Cert.Gin.rs128 (W (Proc.devRef .tc main_v26)) := by
  after_results_simp
  exact reshape_rs128 _ _
theorem ops12_v29 : StableHlo.after hostOps1_2 W (Proc.devRef .tc main_v29) = Cert.Gin.rs128 (W (Proc.devRef .tc main_arg4)) := by
  after_results_simp
  exact reshape_rs128 _ _
theorem ops12_v30 : StableHlo.after hostOps1_2 W (Proc.devRef .tc main_v30) = Cert.Gin.rs128 (W (Proc.devRef .tc main_arg5)) := by
  after_results_simp
  exact reshape_rs128 _ _
theorem ops12_v31 : StableHlo.after hostOps1_2 W (Proc.devRef .tc main_v31) = Cert.Gin.rs128 (W (Proc.devRef .tc main_arg7)) := by
  after_results_simp
  exact reshape_rs128 _ _

/-! ## The multiplicity matrix: the scatter's two index columns are computed by the first 22 operations, the scatter and
    the narrowing by the last 6 -/

theorem ops0_v20 : StableHlo.after hostOps0 W (Proc.devRef .tc main_v20) = KV.AK (W (Proc.devRef .tc main_arg1)) := by
  have hsplit : (hostOps0 : List (HloOp τ sig (Elt Ideal))) = hostOps0.take 22 ++ hostOps0.drop 22 :=
    (List.take_append_drop 22 _).symm
  rw [hsplit, StableHlo.after_append]
  have e4 : StableHlo.after ((hostOps0 : List (HloOp τ sig (Elt Ideal))).take 22) W (Proc.devRef .tc main_v4)
      = broadcastInDim S10000x10000 ![] bcast_S_S10000x10000 (constant (F := Ideal) S_ .f32 0x00000000#32) := by
    simp only [hostOps0, List.take]
    after_results_simp
  have e15 : StableHlo.after ((hostOps0 : List (HloOp τ sig (Elt Ideal))).take 22) W (Proc.devRef .tc main_v15)
      = broadcastInDim S640000x1 ![0] bcast_S640000_S640000x1_0 (KV.wrap (KV.dstRow (W (Proc.devRef .tc main_arg1)))) := by
    simp only [hostOps0, List.take]
    after_results_simp
    rfl
  have e16 : StableHlo.after ((hostOps0 : List (HloOp τ sig (Elt Ideal))).take 22) W (Proc.devRef .tc main_v16)
      = broadcastInDim S640000x1 ![0] bcast_S640000_S640000x1_0 (KV.wrap (KV.srcRow (W (Proc.devRef .tc main_arg1)))) := by
    simp only [hostOps0, List.take]
    after_results_simp
    rfl
  generalize StableHlo.after ((hostOps0 : List (HloOp τ sig (Elt Ideal))).take 22) W = W' at e4 e15 e16 ⊢
  simp only [hostOps0, List.drop]
  after_results_simp
  rw [e4, e15, e16]
  rfl

/-! ## The column variance: the outlined function's operations after the column mean's (they read the integer zero the
    latter leave) -/

theorem ops1_11_v26 : StableHlo.after hostOps1_1 (StableHlo.after hostOps1 W) (Proc.devRef .tc main_v26)
    = KV.VARk (W (Proc.devRef .tc main_v22)) := by
  after_results_simp
  rfl

end HostOps

end HostVals

open HostVals

/-! ## What region 0 finds -/

theorem V1_a0 (c : Dev nD) : V1 m ρ c main_v20 = KV.AK (m ((c : Thread nD τ).loc main_arg1)) :=
  ops0_v20 (W0 m ρ c)
theorem V1_a1 (c : Dev nD) : V1 m ρ c main_arg0 = m ((c : Thread nD τ).loc main_arg0) :=
  ops0_arg0 (W0 m ρ c)
theorem V1_a2 (c : Dev nD) : V1 m ρ c main_arg2 = m ((c : Thread nD τ).loc main_arg2) :=
  ops0_arg2 (W0 m ρ c)
theorem V1_a3 (c : Dev nD) : V1 m ρ c main_v21 = Cert.Gin.rs128 (m ((c : Thread nD τ).loc main_arg3)) :=
  ops0_v21 (W0 m ρ c)

/-! ## What region 1 finds -/

theorem V5_a0 (c : Dev nD) : V5 m ρ c main_v22 = (dat0 (V1 m ρ) c).arrAt 4 cfg0.N :=
  calc V5 m ρ c main_v22
    _ = W4 m ρ c (Proc.devRef .tc main_v22) := ops12_v22 (W4 m ρ c)
    _ = W3 m ρ c (Proc.devRef .tc main_v22) := ops11_v22 (W3 m ρ c)
    _ = W2 m ρ c (Proc.devRef .tc main_v22) := ops1_v22 (W2 m ρ c)
    _ = _ := W2_arr m ρ c 4
theorem V5_a1 (c : Dev nD) : V5 m ρ c main_v27 = Cert.Gin.rs128 (KV.MUk ((dat0 (V1 m ρ) c).arrAt 4 cfg0.N)) :=
  calc V5 m ρ c main_v27
    _ = Cert.Gin.rs128 (W4 m ρ c (Proc.devRef .tc main_v25)) := ops12_v27 (W4 m ρ c)
    _ = Cert.Gin.rs128 (W3 m ρ c (Proc.devRef .tc main_v25)) := congrArg Cert.Gin.rs128 (ops11_v25 (W3 m ρ c))
    _ = Cert.Gin.rs128 (KV.MUk (W2 m ρ c (Proc.devRef .tc main_v22))) := congrArg Cert.Gin.rs128 (ops1_v25 (W2 m ρ c))
    _ = _ := congrArg (fun x => Cert.Gin.rs128 (KV.MUk x)) (W2_arr m ρ c 4)
theorem V5_a2 (c : Dev nD) : V5 m ρ c main_v28 = Cert.Gin.rs128 (KV.VARk ((dat0 (V1 m ρ) c).arrAt 4 cfg0.N)) :=
  calc V5 m ρ c main_v28
    _ = Cert.Gin.rs128 (W4 m ρ c (Proc.devRef .tc main_v26)) := ops12_v28 (W4 m ρ c)
    _ = Cert.Gin.rs128 (KV.VARk (W2 m ρ c (Proc.devRef .tc main_v22))) := congrArg Cert.Gin.rs128 (ops1_11_v26 (W2 m ρ c))
    _ = _ := congrArg (fun x => Cert.Gin.rs128 (KV.VARk x)) (W2_arr m ρ c 4)
theorem V5_a3 (c : Dev nD) : V5 m ρ c main_v29 = Cert.Gin.rs128 (m ((c : Thread nD τ).loc main_arg4)) :=
  calc V5 m ρ c main_v29
    _ = Cert.Gin.rs128 (W4 m ρ c (Proc.devRef .tc main_arg4)) := ops12_v29 (W4 m ρ c)
    _ = Cert.Gin.rs128 (W3 m ρ c (Proc.devRef .tc main_arg4)) := congrArg Cert.Gin.rs128 (ops11_arg4 (W3 m ρ c))
    _ = Cert.Gin.rs128 (W2 m ρ c (Proc.devRef .tc main_arg4)) := congrArg Cert.Gin.rs128 (ops1_arg4 (W2 m ρ c))
    _ = Cert.Gin.rs128 (W1 m ρ c (Proc.devRef .tc main_arg4)) := congrArg Cert.Gin.rs128 (W2_of_ne m ρ c main_arg4 (by decide))
    _ = Cert.Gin.rs128 (W0 m ρ c (Proc.devRef .tc main_arg4)) := congrArg Cert.Gin.rs128 (ops0_arg4 (W0 m ρ c))
    _ = _ := rfl
theorem V5_a4 (c : Dev nD) : V5 m ρ c main_v30 = Cert.Gin.rs128 (m ((c : Thread nD τ).loc main_arg5)) :=
  calc V5 m ρ c main_v30
    _ = Cert.Gin.rs128 (W4 m ρ c (Proc.devRef .tc main_arg5)) := ops12_v30 (W4 m ρ c)
    _ = Cert.Gin.rs128 (W3 m ρ c (Proc.devRef .tc main_arg5)) := congrArg Cert.Gin.rs128 (ops11_arg5 (W3 m ρ c))
    _ = Cert.Gin.rs128 (W2 m ρ c (Proc.devRef .tc main_arg5)) := congrArg Cert.Gin.rs128 (ops1_arg5 (W2 m ρ c))
    _ = Cert.Gin.rs128 (W1 m ρ c (Proc.devRef .tc main_arg5)) := congrArg Cert.Gin.rs128 (W2_of_ne m ρ c main_arg5 (by decide))
    _ = Cert.Gin.rs128 (W0 m ρ c (Proc.devRef .tc main_arg5)) := congrArg Cert.Gin.rs128 (ops0_arg5 (W0 m ρ c))
    _ = _ := rfl
theorem V5_a5 (c : Dev nD) : V5 m ρ c main_arg6 = m ((c : Thread nD τ).loc main_arg6) :=
  calc V5 m ρ c main_arg6
    _ = W4 m ρ c (Proc.devRef .tc main_arg6) := ops12_arg6 (W4 m ρ c)
    _ = W3 m ρ c (Proc.devRef .tc main_arg6) := ops11_arg6 (W3 m ρ c)
    _ = W2 m ρ c (Proc.devRef .tc main_arg6) := ops1_arg6 (W2 m ρ c)
    _ = W1 m ρ c (Proc.devRef .tc main_arg6) := W2_of_ne m ρ c main_arg6 (by decide)
    _ = W0 m ρ c (Proc.devRef .tc main_arg6) := ops0_arg6 (W0 m ρ c)
    _ = _ := rfl
theorem V5_a6 (c : Dev nD) : V5 m ρ c main_v31 = Cert.Gin.rs128 (m ((c : Thread nD τ).loc main_arg7)) :=
  calc V5 m ρ c main_v31
    _ = Cert.Gin.rs128 (W4 m ρ c (Proc.devRef .tc main_arg7)) := ops12_v31 (W4 m ρ c)
    _ = Cert.Gin.rs128 (W3 m ρ c (Proc.devRef .tc main_arg7)) := congrArg Cert.Gin.rs128 (ops11_arg7 (W3 m ρ c))
    _ = Cert.Gin.rs128 (W2 m ρ c (Proc.devRef .tc main_arg7)) := congrArg Cert.Gin.rs128 (ops1_arg7 (W2 m ρ c))
    _ = Cert.Gin.rs128 (W1 m ρ c (Proc.devRef .tc main_arg7)) := congrArg Cert.Gin.rs128 (W2_of_ne m ρ c main_arg7 (by decide))
    _ = Cert.Gin.rs128 (W0 m ρ c (Proc.devRef .tc main_arg7)) := congrArg Cert.Gin.rs128 (ops0_arg7 (W0 m ρ c))
    _ = _ := rfl

end Cert.KernelIdeal.Gen

end
-- ==== Proof.KHost23.lean ====
/-
  What the third and fourth kernel calls of the program find in their input arrays, as pure terms of the program's
  arguments and of the arrays the preceding calls leave: every operation between the calls is a reshape of an
  argument vector to one row, or one of the column statistics (mean, variance) of the array the preceding call
  wrote; the multiplicity matrix is the one built before the first call, untouched since.
-/
import proofs.«423809_j45028437131840_1_alg».proof.Proof.Gen.KernelIdeal.Frame
import proofs.«423809_j45028437131840_1_alg».proof.Proof.KTerms
import proofs.«423809_j45028437131840_1_alg».proof.Proof.Spec
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.ShloMosaic.ValueIdx

variable (m : (ℓ : Loc nD τ sig) → Buf (Elt Ideal) ℓ) (ρ : Dev nD → PrngReg)

/-- A stretch of host operations leaves a buffer none of them writes as it was. -/
local macro "host_keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A length-128 vector cast to one row reads, at `(0, k)`, the vector at `k`. -/
private theorem shapeCast_rs128 (v : (⟨1, ![128]⟩ : Shape).Idx → EReal) (h : (⟨1, ![128]⟩ : Shape).ShapeCasts ⟨2, ![1, 128]⟩) :
    shapeCast ⟨2, ![1, 128]⟩ v h = Cert.Gin.rs128 v := by
  funext i
  obtain ⟨p, q, rfl⟩ : ∃ (p : Fin 1) (q : Fin 128), i = ix2 p q := ⟨i 0, i 1, eq_ix2 i⟩
  rw [shapeCast_a_1a_apply]
  rfl

/-! ## The arguments are as launched when the two calls are entered -/

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1_2
    _ = W3 m ρ c (Proc.devRef .tc main_arg8) := by host_keeps hostOps1_1
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_keeps hostOps1_2
    _ = W3 m ρ c (Proc.devRef .tc main_arg9) := by host_keeps hostOps1_1
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := by host_keeps hostOps3_1
    _ = W8 m ρ c (Proc.devRef .tc main_arg10) := by host_keeps hostOps3
    _ = W7 m ρ c (Proc.devRef .tc main_arg10) := W8_of_ne m ρ c main_arg10 (by decide)
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1_2
    _ = W3 m ρ c (Proc.devRef .tc main_arg10) := by host_keeps hostOps1_1
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := by host_keeps hostOps3_1
    _ = W8 m ρ c (Proc.devRef .tc main_arg11) := by host_keeps hostOps3
    _ = W7 m ρ c (Proc.devRef .tc main_arg11) := W8_of_ne m ρ c main_arg11 (by decide)
    _ = W6 m ρ c (Proc.devRef .tc main_arg11) := by host_keeps hostOps2
    _ = W5 m ρ c (Proc.devRef .tc main_arg11) := W6_of_ne m ρ c main_arg11 (by decide)
    _ = W4 m ρ c (Proc.devRef .tc main_arg11) := by host_keeps hostOps1_2
    _ = W3 m ρ c (Proc.devRef .tc main_arg11) := by host_keeps hostOps1_1
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

theorem W10_main_arg13 (c : Dev nD) : W10 m ρ c (Proc.devRef .tc main_arg13) = m ((c : Thread nD τ).loc main_arg13) :=
  calc W10 m ρ c (Proc.devRef .tc main_arg13)
    _ = W9 m ρ c (Proc.devRef .tc main_arg13) := by host_keeps hostOps3_1
    _ = W8 m ρ c (Proc.devRef .tc main_arg13) := by host_keeps hostOps3
    _ = W7 m ρ c (Proc.devRef .tc main_arg13) := W8_of_ne m ρ c main_arg13 (by decide)
    _ = W6 m ρ c (Proc.devRef .tc main_arg13) := by host_keeps hostOps2
    _ = W5 m ρ c (Proc.devRef .tc main_arg13) := W6_of_ne m ρ c main_arg13 (by decide)
    _ = W4 m ρ c (Proc.devRef .tc main_arg13) := by host_keeps hostOps1_2
    _ = W3 m ρ c (Proc.devRef .tc main_arg13) := by host_keeps hostOps1_1
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

theorem W11_main_arg12 (c : Dev nD) : W11 m ρ c (Proc.devRef .tc main_arg12) = m ((c : Thread nD τ).loc main_arg12) :=
  calc W11 m ρ c (Proc.devRef .tc main_arg12)
    _ = W10 m ρ c (Proc.devRef .tc main_arg12) := by host_keeps hostOps3_2
    _ = W9 m ρ c (Proc.devRef .tc main_arg12) := by host_keeps hostOps3_1
    _ = W8 m ρ c (Proc.devRef .tc main_arg12) := by host_keeps hostOps3
    _ = W7 m ρ c (Proc.devRef .tc main_arg12) := W8_of_ne m ρ c main_arg12 (by decide)
    _ = W6 m ρ c (Proc.devRef .tc main_arg12) := by host_keeps hostOps2
    _ = W5 m ρ c (Proc.devRef .tc main_arg12) := W6_of_ne m ρ c main_arg12 (by decide)
    _ = W4 m ρ c (Proc.devRef .tc main_arg12) := by host_keeps hostOps1_2
    _ = W3 m ρ c (Proc.devRef .tc main_arg12) := by host_keeps hostOps1_1
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

/-! ## The multiplicity matrix: built before the first call, read by the first and third, written by none -/

/-- The operations before the first call leave, in the matrix's buffer, the scatter of ones narrowed. -/
theorem W1_main_v20 (c : Dev nD) : W1 m ρ c (Proc.devRef .tc main_v20) = KV.AK (m ((c : Thread nD τ).loc main_arg1)) := by
  show StableHlo.after hostOps0 (W0 m ρ c) (Proc.devRef .tc main_v20) = _
  simp only [hostOps0]
  after_results_simp
  rfl

theorem W7_main_v20 (c : Dev nD) : W7 m ρ c (Proc.devRef .tc main_v20) = KV.AK (m ((c : Thread nD τ).loc main_arg1)) :=
  calc W7 m ρ c (Proc.devRef .tc main_v20)
    _ = W6 m ρ c (Proc.devRef .tc main_v20) := by host_keeps hostOps2
    _ = W5 m ρ c (Proc.devRef .tc main_v20) := W6_of_ne m ρ c main_v20 (by decide)
    _ = W4 m ρ c (Proc.devRef .tc main_v20) := by host_keeps hostOps1_2
    _ = W3 m ρ c (Proc.devRef .tc main_v20) := by host_keeps hostOps1_1
    _ = W2 m ρ c (Proc.devRef .tc main_v20) := by host_keeps hostOps1
    _ = W1 m ρ c (Proc.devRef .tc main_v20) := (W2_arr m ρ c 0).trans (((dat0 (V1 m ρ) c).arrAt_in 0 rfl _).trans (A_eq0 (V1 m ρ) c 0))
    _ = KV.AK (m ((c : Thread nD τ).loc main_arg1)) := W1_main_v20 m ρ c

/-! ## What the third call finds -/

theorem V7_a0 (c : Dev nD) : V7 m ρ c main_v20 = KV.AK (m ((c : Thread nD τ).loc main_arg1)) :=
  W7_main_v20 m ρ c

theorem V7_a1 (c : Dev nD) : V7 m ρ c main_v32 = (dat1 (V5 m ρ) c).arrAt 7 cfg1.N :=
  calc W7 m ρ c (Proc.devRef .tc main_v32)
    _ = W6 m ρ c (Proc.devRef .tc main_v32) := by host_keeps hostOps2
    _ = (dat1 (V5 m ρ) c).arrAt 7 cfg1.N := W6_arr m ρ c 7

theorem V7_a2 (c : Dev nD) : V7 m ρ c main_arg8 = m ((c : Thread nD τ).loc main_arg8) :=
  W7_main_arg8 m ρ c

/-- The one operation between the second and third calls: a bias vector as one row. -/
theorem hostOps2_v33 (X : Valuation τ sig (Elt Ideal)) :
    StableHlo.after hostOps2 X (Proc.devRef .tc main_v33) = Cert.Gin.rs128 (X (Proc.devRef .tc main_arg9)) := by
  simp only [hostOps2]
  after_results
  exact shapeCast_rs128 _ _

theorem V7_a3 (c : Dev nD) : V7 m ρ c main_v33 = Cert.Gin.rs128 (m ((c : Thread nD τ).loc main_arg9)) :=
  (hostOps2_v33 (W6 m ρ c)).trans (congrArg Cert.Gin.rs128 (W6_main_arg9 m ρ c))

/-! ## What the fourth call finds -/

theorem V11_a0 (c : Dev nD) : V11 m ρ c main_v34 = (dat2 (V7 m ρ) c).arrAt 4 cfg2.N :=
  calc W11 m ρ c (Proc.devRef .tc main_v34)
    _ = W10 m ρ c (Proc.devRef .tc main_v34) := by host_keeps hostOps3_2
    _ = W9 m ρ c (Proc.devRef .tc main_v34) := by host_keeps hostOps3_1
    _ = W8 m ρ c (Proc.devRef .tc main_v34) := by host_keeps hostOps3
    _ = (dat2 (V7 m ρ) c).arrAt 4 cfg2.N := W8_arr m ρ c 4

/-- The operations between the third and fourth calls leave the column mean of the third call's array, as one row. -/
theorem stats_v39 (X : Valuation τ sig (Elt Ideal)) :
    StableHlo.after hostOps3_2 (StableHlo.after hostOps3_1 (StableHlo.after hostOps3 X)) (Proc.devRef .tc main_v39)
      = Cert.Gin.rs128 (KV.MUk (X (Proc.devRef .tc main_v34))) := by
  simp only [hostOps3_2, hostOps3_1, hostOps3]
  after_results_simp
  exact shapeCast_rs128 _ _

/-- And its column variance, as one row. -/
theorem stats_v40 (X : Valuation τ sig (Elt Ideal)) :
    StableHlo.after hostOps3_2 (StableHlo.after hostOps3_1 (StableHlo.after hostOps3 X)) (Proc.devRef .tc main_v40)
      = Cert.Gin.rs128 (KV.VARk (X (Proc.devRef .tc main_v34))) := by
  simp only [hostOps3_2, hostOps3_1, hostOps3]
  after_results_simp
  exact shapeCast_rs128 _ _

theorem V11_a1 (c : Dev nD) : V11 m ρ c main_v39 = Cert.Gin.rs128 (KV.MUk ((dat2 (V7 m ρ) c).arrAt 4 cfg2.N)) :=
  (stats_v39 (W8 m ρ c)).trans (congrArg (fun a => Cert.Gin.rs128 (KV.MUk a)) (W8_arr m ρ c 4))

theorem V11_a2 (c : Dev nD) : V11 m ρ c main_v40 = Cert.Gin.rs128 (KV.VARk ((dat2 (V7 m ρ) c).arrAt 4 cfg2.N)) :=
  (stats_v40 (W8 m ρ c)).trans (congrArg (fun a => Cert.Gin.rs128 (KV.VARk a)) (W8_arr m ρ c 4))

/-- The last five operations before the fourth call: vectors as one row. -/
theorem hostOps3_2_v41 (X : Valuation τ sig (Elt Ideal)) :
    StableHlo.after hostOps3_2 X (Proc.devRef .tc main_v41) = Cert.Gin.rs128 (X (Proc.devRef .tc main_arg10)) := by
  simp only [hostOps3_2]
  after_results
  exact shapeCast_rs128 _ _
theorem hostOps3_2_v42 (X : Valuation τ sig (Elt Ideal)) :
    StableHlo.after hostOps3_2 X (Proc.devRef .tc main_v42) = Cert.Gin.rs128 (X (Proc.devRef .tc main_arg11)) := by
  simp only [hostOps3_2]
  after_results
  exact shapeCast_rs128 _ _
theorem hostOps3_2_v43 (X : Valuation τ sig (Elt Ideal)) :
    StableHlo.after hostOps3_2 X (Proc.devRef .tc main_v43) = Cert.Gin.rs128 (X (Proc.devRef .tc main_arg13)) := by
  simp only [hostOps3_2]
  after_results
  exact shapeCast_rs128 _ _

theorem V11_a3 (c : Dev nD) : V11 m ρ c main_v41 = Cert.Gin.rs128 (m ((c : Thread nD τ).loc main_arg10)) :=
  (hostOps3_2_v41 (W10 m ρ c)).trans (congrArg Cert.Gin.rs128 (W10_main_arg10 m ρ c))

theorem V11_a4 (c : Dev nD) : V11 m ρ c main_v42 = Cert.Gin.rs128 (m ((c : Thread nD τ).loc main_arg11)) :=
  (hostOps3_2_v42 (W10 m ρ c)).trans (congrArg Cert.Gin.rs128 (W10_main_arg11 m ρ c))

theorem V11_a5 (c : Dev nD) : V11 m ρ c main_arg12 = m ((c : Thread nD τ).loc main_arg12) :=
  W11_main_arg12 m ρ c

theorem V11_a6 (c : Dev nD) : V11 m ρ c main_v43 = Cert.Gin.rs128 (m ((c : Thread nD τ).loc main_arg13)) :=
  (hostOps3_2_v43 (W10 m ρ c)).trans (congrArg Cert.Gin.rs128 (W10_main_arg13 m ρ c))

end Cert.KernelIdeal.Gen

end
-- ==== Proof.Region0.lean ====
/-
  The first stage of a layer, one launch per 400-row tile: what the launches leave in the 10000 × 128 output array.

  Launch `t` (of 25) holds rows [400·t, 400·t + 400) of the 10000 × 10000 multiplicity matrix `A`, the whole feature
  array `h`, the 128 × 128 weight `W` and the bias as one row `b`. It multiplies its tile of `A` by `h` (contracting the
  10000 nodes), adds rows [400·t, 400·t + 400) of `h` itself, multiplies by `W` (contracting the 128 features) and adds
  `b` to every row; the result is rows [400·t, 400·t + 400) of the output. Narrowing to bf16 before each product is the
  identity on extended reals. So entry (r, k) of the output is
      ∑ⱼ ((∑ₛ A[r, s] · h[s, j]) + h[r, j]) · W[j, k] + b[0, k],
  the specification's `GA A h W b`: row `r` is written by launch `r / 400` at its local row `r % 400`, and the 25 tiles
  cover the array.
-/
import proofs.«423809_j45028437131840_1_alg».proof.Proof.Gen.KernelIdeal.Frame
import proofs.«423809_j45028437131840_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open scoped BigOperators

namespace Cert.KernelIdeal.RV

open Cert.KernelIdeal Cert.KernelIdeal.Gen Idealize.ShloMosaic Idealize.ShloMosaic.TcCoe Idealize.SL.Sem
open Idealize.ShloMosaic.Tactic Idealize.ShloMosaic.ValueIdx
open Idealize.ShloMosaic.Pipeline (Dat)

namespace R0

theorem hz : (![0, 0] : Fin 2 → Nat) = fun _ => 0 := funext fun a => by fin_cases a <;> rfl

section Piece
variable {F : FTy → Type} [FloatOps F]

/-- What one launch leaves in its output block: the payload of the whole feature array, the adjacency tile, the tile's own
    feature rows (read at the launch's row offset), the weight and the bias. -/
theorem piece (c : Dev nD) (i : grid0.Coords) (a1 : Memref sig .tc .vmem S400x10000 .bf16) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (x0 : Vec F S400x10000 .bf16) (x1 : Vec F S10000x128 .f32) (x2 : Vec F S128x128 .f32) (x3 : Vec F S1x128 .f32) :
    out0_A_4 c i a1 h1 a2 h2 a3 h3 a4 h4 a5 h5 x0 x1 x2 x3
      = k0_pay1 x1 x0 (View.ld x1 (Rect.unit (s := S10000x128) (k0_off1 i) S400x128.size (k0_off1_inb i))) x2 x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x128) hz,
    View.ld_unit_zero (S := S128x128) hz, View.ld_unit_zero (S := S1x128) hz]
end Piece

section Payload

/-! The two products of the body at an index: the neighbour product contracts the 10000 nodes, the affine map the 128
    features. Each operand index is read axis by axis off the dimension numbers. -/

theorem lhsN_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsN_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsN_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsN_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product into the zero block, read at row `p`, column `q`: the sum over the 10000 contracted positions. -/
theorem mmN_apply (L : FVec Ideal S400x10000 .bf16) (R : FVec Ideal S10000x128 .bf16) (p : Fin 400) (q : Fin 128) :
    matmul dot_S400x10000_S10000x128_S400x128_1_0_0_1_n_n none L R (constant (F := Ideal) S400x128 .f32 0x00000000#32) (ix2 p q)
      = ∑ s : Fin 10000, L (ix2 p s) * R (ix2 s q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhsN_0 _ _
    | ⟨1, _⟩ => exact (lhsN_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhsN_0 _ _).trans hk
    | ⟨1, _⟩ => exact rhsN_1 _ _)
  rw [el, er]

theorem lhsW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The product into the zero block, read at row `p`, column `q`: the sum over the 128 contracted positions. -/
theorem mmW_apply (L : FVec Ideal S400x128 .bf16) (R : FVec Ideal S128x128 .bf16) (p : Fin 400) (q : Fin 128) :
    matmul dot_S400x128_S128x128_S400x128_1_0_0_1_n_n none L R (constant (F := Ideal) S400x128 .f32 0x00000000#32) (ix2 p q)
      = ∑ s : Fin 128, L (ix2 p s) * R (ix2 s q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-- The body's stored value at row `p`, column `q` of the tile: the adjacency tile times the features plus the tile's
    own feature rows, times the weight, plus the bias row. Narrowing to bf16 is the identity on extended reals. -/
theorem pay_apply (v2 : FVec Ideal S10000x128 .f32) (v4 : FVec Ideal S400x10000 .bf16) (v8 : FVec Ideal S400x128 .f32)
    (v10 : FVec Ideal S128x128 .f32) (v14 : FVec Ideal S1x128 .f32) (p : Fin 400) (q : Fin 128) :
    k0_pay1 (F := Ideal) v2 v4 v8 v10 v14 (ix2 p q)
      = (∑ j : Fin 128, ((∑ s : Fin 10000, v4 (ix2 p s) * v2 (ix2 s j)) + v8 (ix2 p j)) * v10 (ix2 j q))
        + v14 (ix2 (0 : Fin 1) q) := by
  unfold k0_pay1
  refine (addf_apply _ _ (ix2 p q)).trans ?_
  refine congrArg₂ (· + ·) ?_ ?_
  · refine (mmW_apply _ _ p q).trans ?_
    refine Finset.sum_congr rfl fun j _ => ?_
    refine congrArg₂ (· * ·) ?_ rfl
    refine (addf_apply _ _ (ix2 p j)).trans ?_
    refine congrArg₂ (· + ·) ?_ rfl
    refine (mmN_apply _ _ p j).trans ?_
    refine Finset.sum_congr rfl fun s _ => ?_
    refine congrArg₂ (· * ·) ?_ rfl
    exact congrFun (shapeCast_self v4 shapeCasts_S400x10000_S400x10000) (ix2 p s)
  · refine (broadcastTo_1b_ab_apply _ broadcasts_S1x128_S400x128 p q).trans ?_
    exact congrFun (shapeCast_self v14 shapeCasts_S1x128_S1x128) (ix2 (0 : Fin 1) q)

end Payload

section Region
variable (V : (c : Dev nD) → (b : Ref sig .tc) → Buf (Elt Ideal) ((c : Thread nD τ).loc b))

/-- The four arrays the launches read, as the region finds them. -/
abbrev Aarr (c : Dev nD) : Vec Ideal S10000x10000 .bf16 := V c main_v20
abbrev Harr (c : Dev nD) : Vec Ideal S10000x128 .f32 := V c main_arg0
abbrev Warr (c : Dev nD) : Vec Ideal S128x128 .f32 := V c main_arg2
abbrev Barr (c : Dev nD) : Vec Ideal S1x128 .f32 := V c main_v21
/-- The blocks launch `t` holds: its tile of `A`, and `h`, `W`, `b` whole. -/
abbrev Ablk (c : Dev nD) (t : Fin cfg0.N) : Vec Ideal S400x10000 .bf16 := iblk0 V c 0 t
abbrev Hblk (c : Dev nD) (t : Fin cfg0.N) : Vec Ideal S10000x128 .f32 := iblk0 V c 1 t
abbrev Wblk (c : Dev nD) (t : Fin cfg0.N) : Vec Ideal S128x128 .f32 := iblk0 V c 2 t
abbrev Bblk (c : Dev nD) (t : Fin cfg0.N) : Vec Ideal S1x128 .f32 := iblk0 V c 3 t

/-- The specification's entry, written out. -/
theorem GA_apply (A : Cert.Gin.SNN.Idx → EReal) (h : Cert.Gin.SND.Idx → EReal) (W : Cert.Gin.SDD.Idx → EReal)
    (b2 : Cert.Gin.S1D.Idx → EReal) (r : Fin 10000) (k : Fin 128) :
    Cert.Gin.GA A h W b2 (ix2 r k)
      = (∑ j : Fin 128, ((∑ s : Fin 10000, A (ix2 r s) * h (ix2 s j)) + h (ix2 r j)) * W (ix2 j k))
        + b2 (ix2 (0 : Fin 1) k) := rfl

/-- The block indices over the grid: the tile of `A` and the output tile move with the launch number along the rows, the
    other three windows stay at block (0, 0); the launch's grid coordinate is its number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Local row `p` of launch `t`'s tile of `A` is row `400·t + p` of `A`. -/
theorem Ablk_apply (c : Dev nD) (t : Fin cfg0.N) (p : Fin 400) (s : Fin 10000) (r : Fin 10000)
    (hr : r.val = 400 * t.val + p.val) : Ablk V c t (ix2 p s) = Aarr V c (ix2 r s) := by
  obtain ⟨e0, e1, -⟩ := idx_facts t
  show V c main_v20 (((cfg0.win 0).blk t).view.emb (ix2 p s)) = V c main_v20 (ix2 r s)
  refine congrArg (V c main_v20) ?_
  funext a; apply Fin.ext
  match a with
  | ⟨0, _⟩ => show win0_0.index t (0 : Fin 2) * 400 + 1 * p.val = r.val; omega
  | ⟨1, _⟩ => show win0_0.index t (1 : Fin 2) * 10000 + 1 * s.val = s.val; omega

/-- The feature block is the feature array. -/
theorem Hblk_apply (c : Dev nD) (t : Fin cfg0.N) (s : Fin 10000) (j : Fin 128) :
    Hblk V c t (ix2 s j) = Harr V c (ix2 s j) := by
  obtain ⟨-, -, e2, e3, -⟩ := idx_facts t
  show V c main_arg0 (((cfg0.win 1).blk t).view.emb (ix2 s j)) = V c main_arg0 (ix2 s j)
  refine congrArg (V c main_arg0) ?_
  funext a; apply Fin.ext
  match a with
  | ⟨0, _⟩ => show win0_1.index t (0 : Fin 2) * 10000 + 1 * s.val = s.val; omega
  | ⟨1, _⟩ => show win0_1.index t (1 : Fin 2) * 128 + 1 * j.val = j.val; omega

/-- The weight block is the weight array. -/
theorem Wblk_apply (c : Dev nD) (t : Fin cfg0.N) (j : Fin 128) (k : Fin 128) :
    Wblk V c t (ix2 j k) = Warr V c (ix2 j k) := by
  obtain ⟨-, -, -, -, e4, e5, -⟩ := idx_facts t
  show V c main_arg2 (((cfg0.win 2).blk t).view.emb (ix2 j k)) = V c main_arg2 (ix2 j k)
  refine congrArg (V c main_arg2) ?_
  funext a; apply Fin.ext
  match a with
  | ⟨0, _⟩ => show win0_2.index t (0 : Fin 2) * 128 + 1 * j.val = j.val; omega
  | ⟨1, _⟩ => show win0_2.index t (1 : Fin 2) * 128 + 1 * k.val = k.val; omega

/-- The bias block is the bias row. -/
theorem Bblk_apply (c : Dev nD) (t : Fin cfg0.N) (k : Fin 128) :
    Bblk V c t (ix2 (0 : Fin 1) k) = Barr V c (ix2 (0 : Fin 1) k) := by
  obtain ⟨-, -, -, -, -, -, e6, e7, -⟩ := idx_facts t
  show V c main_v21 (((cfg0.win 3).blk t).view.emb (ix2 (0 : Fin 1) k)) = V c main_v21 (ix2 (0 : Fin 1) k)
  refine congrArg (V c main_v21) ?_
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- The body's second load of the features, 400 rows from row `400·i` of the block: local row `p` reads row `400·i + p`. -/
theorem rows_apply (x1 : Vec Ideal S10000x128 .f32) (i : grid0.Coords) (p : Fin 400) (j : Fin 128) (r : Fin 10000)
    (hr : r.val = 400 * (i 0).val + p.val) :
    View.ld x1 (Rect.unit (s := S10000x128) (k0_off1 i) S400x128.size (k0_off1_inb i)) (ix2 p j) = x1 (ix2 r j) := by
  show x1 ((Rect.unit (s := S10000x128) (k0_off1 i) S400x128.size (k0_off1_inb i)).idx (ix2 p j)) = x1 (ix2 r j)
  refine congrArg x1 ?_
  funext a; apply Fin.ext
  have e := k0_off1_eq i
  match a with
  | ⟨0, _⟩ => show k0_off1 i 0 + 1 * p.val = r.val; rw [e]; show 400 * (i 0).val + 1 * p.val = r.val; omega
  | ⟨1, _⟩ => show k0_off1 i 1 + 1 * j.val = j.val; rw [e]; show 0 + 1 * j.val = j.val; omega

/-- What launch `t` leaves at local (p, q) of its output tile is the specification's entry at row `400·t + p`. -/
theorem outs_apply (c : Dev nD) (t : Fin cfg0.N) (p : Fin 400) (q : Fin 128) (r : Fin 10000)
    (hr : r.val = 400 * t.val + p.val) :
    (outsAt0 V c t : Vec Ideal S400x128 .f32) (ix2 p q)
      = Cert.Gin.GA (Aarr V c) (Harr V c) (Warr V c) (Barr V c) (ix2 r q) := by
  obtain ⟨-, -, -, -, -, -, -, -, -, -, eg⟩ := idx_facts t
  unfold outsAt0
  refine (congrFun (piece (F := Ideal) c (grid0.coords t) (ms0_0 t) (hs0_0 t) (ms0_1 t) (hs0_1 t) (ms0_2 t) (hs0_2 t)
    (ms0_3 t) (hs0_3 t) (ms0_4 t) (hs0_4 t) (Ablk V c t) (Hblk V c t) (Wblk V c t) (Bblk V c t)) (ix2 p q)).trans ?_
  refine (pay_apply (Hblk V c t) (Ablk V c t)
    (View.ld (Hblk V c t) (Rect.unit (s := S10000x128) (k0_off1 (grid0.coords t)) S400x128.size (k0_off1_inb (grid0.coords t))))
    (Wblk V c t) (Bblk V c t) p q).trans ?_
  refine ((GA_apply (Aarr V c) (Harr V c) (Warr V c) (Barr V c) r q).trans ?_).symm
  refine congrArg₂ (· + ·) (Finset.sum_congr rfl fun j _ => congrArg₂ (· * ·) (congrArg₂ (· + ·)
    (Finset.sum_congr rfl fun s _ => congrArg₂ (· * ·) ?_ ?_) ?_) ?_) ?_
  · exact (Ablk_apply V c t p s r hr).symm
  · exact (Hblk_apply V c t s j).symm
  · exact ((rows_apply (Hblk V c t) (grid0.coords t) p j r (by rw [eg]; exact hr)).trans (Hblk_apply V c t r j)).symm
  · exact (Wblk_apply V c t j q).symm
  · exact (Bblk_apply V c t q).symm

/-- What launch `t` leaves at a local index of its tile is the specification's entry at that index's place in the array. -/
theorem outs_emb (c : Dev nD) (t : Fin cfg0.N) (y : S400x128.Idx) :
    (outsAt0 V c t : Vec Ideal S400x128 .f32) y
      = Cert.Gin.GA (Aarr V c) (Harr V c) (Warr V c) (Barr V c) (((cfg0.win 4).blk t).view.emb y) := by
  obtain ⟨p, q, rfl⟩ : ∃ (p : Fin 400) (q : Fin 128), y = ix2 p q := ⟨y 0, y 1, eq_ix2 y⟩
  obtain ⟨-, -, -, -, -, -, -, -, e8, e9, -⟩ := idx_facts t
  have hN : cfg0.N = 25 := N_0
  have ht : t.val < 25 := hN ▸ t.isLt
  refine (outs_apply V c t p q ⟨400 * t.val + p.val, by omega⟩ rfl).trans ?_
  refine congrArg (Cert.Gin.GA (Aarr V c) (Harr V c) (Warr V c) (Barr V c)) ?_
  funext a; apply Fin.ext
  match a with
  | ⟨0, _⟩ => show 400 * t.val + p.val = win0_4.index t (0 : Fin 2) * 400 + 1 * p.val; omega
  | ⟨1, _⟩ => show q.val = win0_4.index t (1 : Fin 2) * 128 + 1 * q.val; omega

/-- What launch `t` writes back is tile `t` of the specification's array. -/
theorem flushed_eq (c : Dev nD) (t : Fin cfg0.N) :
    (dat0 V c).flushed 4 t
      = ((cfg0.win 4).blk t).view.read (Elt Ideal) (Cert.Gin.GA (Aarr V c) (Harr V c) (Warr V c) (Barr V c)) := by
  show (cfg0.win 4).cut (grid0.coords t) ((dat0 V c).after 4 t) = _
  rw [after0_4]
  funext y
  exact outs_emb V c t y

/-- An index of the output array is in launch `t`'s tile iff each coordinate is in the tile's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v22).slice (win0_4.rect t)).set ↔ _
  rw [View.set_slice_whole, Rect.mem_set_unit]
  exact Iff.rfl

/-- Row `r` of the output is in launch `r / 400`'s tile. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have hq : (i 0).val / 400 < cfg0.N := by rw [hN]; omega
  obtain ⟨-, -, -, -, -, -, -, -, e8, e9, -⟩ := idx_facts ⟨(i 0).val / 400, hq⟩
  refine ⟨⟨(i 0).val / 400, hq⟩, flush0_4 _, ?_⟩
  rw [mem_blk]
  intro a
  match a with
  | ⟨0, _⟩ =>
    show win0_4.index ⟨(i 0).val / 400, hq⟩ (0 : Fin 2) * 400 ≤ (i 0).val
      ∧ (i 0).val < win0_4.index ⟨(i 0).val / 400, hq⟩ (0 : Fin 2) * 400 + 400
    rw [e8]; show (i 0).val / 400 * 400 ≤ (i 0).val ∧ (i 0).val < (i 0).val / 400 * 400 + 400; omega
  | ⟨1, _⟩ =>
    show win0_4.index ⟨(i 0).val / 400, hq⟩ (1 : Fin 2) * 128 ≤ (i 1).val
      ∧ (i 1).val < win0_4.index ⟨(i 0).val / 400, hq⟩ (1 : Fin 2) * 128 + 128
    rw [e9]; omega

end Region

end R0

section Result
variable (V : (c : Dev nD) → (b : Ref sig .tc) → Buf (Elt Ideal) ((c : Thread nD τ).loc b))

/-- After the 25 launches the output array holds the specification's first stage of the arrays the region found. -/
theorem arr0 (c : Dev nD) : (Gen.dat0 (F := Ideal) V c).arrAt 4 cfg0.N
    = Cert.Gin.GA (V c main_v20) (V c main_arg0) (V c main_arg2) (V c main_v21) :=
  (dat0 V c).arrAt_eq_of_cover 4 (Cert.Gin.GA (V c main_v20) (V c main_arg0) (V c main_arg2) (V c main_v21))
    (fun t _ => R0.flushed_eq V c t) R0.cover

end Result

end Cert.KernelIdeal.RV

end
-- ==== Proof.Region1.lean ====
/-
  A layer's second half as one array: the first of the program's two launches of this kernel.

  The launch walks the 10000 rows in 25 blocks of 400.  At each block it takes the block's rows `x`, the column
  mean `μ`, variance `σ²`, scale `γ` and shift `β` (each one row of 128), a 128 × 128 weight matrix `W` and a bias row `b`,
  and writes back `max (max ((x − μ) · rsqrt (σ² + ε) · γ + β) 0 · W + b) 0` for the block's rows.  The narrowing of the
  two factors of the product changes nothing over the extended reals, and the product starts from a zero accumulator, so
  an entry of the block is the specification's `GBat` at the block's row in the array; the 25 blocks tile the array, so
  the array after the launch is the specification's `GB` of the seven operand arrays as the launch finds them.

  * `matmul_at`  : the product read at an entry, the sum over the one contracted coordinate.
  * `pay_at`     : the body's value at an entry of the block.
  * `point_eq`   : the same from the arrays' entries, given where the blocks sit in their arrays.
  * `idx_facts`, `blk0_at` … `blk6_at` : where the blocks sit — rows `400 t …` for the input, the whole array for the rest.
  * `flushed_eq`, `cover`, `arr1` : what a point writes back, every row is in some point's block, the array.
-/
import proofs.«423809_j45028437131840_1_alg».proof.Proof.Gen.KernelIdeal.Frame
import proofs.«423809_j45028437131840_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

namespace R1

/-! ## The body's value at an entry -/

/-- The dimension numbers of the body's one matrix product: rows by columns, one contracted axis of extent 128. -/
abbrev DD := dot_S400x128_S128x128_S400x128_1_0_0_1_n_n

theorem lhsDD_0 (j : S400x128.Idx) (k : DD.contr.Idx) : (DD.lhsIdx j k 0 : ℕ) = j 0 := by
  simp [DotDims.lhsIdx, DD, dot_S400x128_S128x128_S400x128_1_0_0_1_n_n]; rfl
theorem lhsDD_1 (j : S400x128.Idx) (k : DD.contr.Idx) : (DD.lhsIdx j k 1 : ℕ) = k ⟨0, by decide⟩ := by
  simp [DotDims.lhsIdx, DD, dot_S400x128_S128x128_S400x128_1_0_0_1_n_n]; rfl
theorem rhsDD_0 (j : S400x128.Idx) (k : DD.contr.Idx) : (DD.rhsIdx j k 0 : ℕ) = k ⟨0, by decide⟩ := by
  simp [DotDims.rhsIdx, DD, dot_S400x128_S128x128_S400x128_1_0_0_1_n_n]; rfl
theorem rhsDD_1 (j : S400x128.Idx) (k : DD.contr.Idx) : (DD.rhsIdx j k 1 : ℕ) = j 1 := by
  simp [DotDims.rhsIdx, DD, dot_S400x128_S128x128_S400x128_1_0_0_1_n_n]; rfl

/-- The product into the zero accumulator, read at row `p` and column `q`: the sum over the contracted coordinate. -/
theorem matmul_at (a : FVec Ideal S400x128 .bf16) (b : FVec Ideal S128x128 .bf16) (p : Fin 400) (q : Fin 128) :
    matmul DD none a b (constant (F := Ideal) S400x128 .f32 0x00000000#32) (ix2 p q) = ∑ j : Fin 128, a (ix2 p j) * b (ix2 j q) := by
  simp only [matmul]
  rw [Ideal.matmul_constant_zero_apply, ← Equiv.sum_comp (contrEquiv1 DD 128 rfl rfl).symm]
  refine Finset.sum_congr rfl fun j _ => ?_
  have hk : (((contrEquiv1 DD 128 rfl rfl).symm j) ⟨0, by decide⟩ : ℕ) = j.val := contrEquiv1_symm_val DD 128 rfl rfl j
  have el : DD.lhsIdx (ix2 p q) ((contrEquiv1 DD 128 rfl rfl).symm j) = ix2 p j := by
    funext ax; apply Fin.ext
    match ax with
    | ⟨0, _⟩ => exact lhsDD_0 _ _
    | ⟨1, _⟩ => exact (lhsDD_1 _ _).trans hk
  have er : DD.rhsIdx (ix2 p q) ((contrEquiv1 DD 128 rfl rfl).symm j) = ix2 j q := by
    funext ax; apply Fin.ext
    match ax with
    | ⟨0, _⟩ => exact (rhsDD_0 _ _).trans hk
    | ⟨1, _⟩ => exact rhsDD_1 _ _
  rw [el, er]

/-- The body's value at row `p`, column `q` of the block: normalise and rectify the row, multiply by the
    weights, add the bias, rectify. -/
theorem pay_at (x0 : Vec Ideal S400x128 .f32) (x1 x2 x3 x4 : Vec Ideal S1x128 .f32) (x5 : Vec Ideal S128x128 .f32)
    (x6 : Vec Ideal S1x128 .f32) (p : Fin 400) (q : Fin 128) :
    k1_pay1 (F := Ideal) x0 x1 x2 x3 x4 x5 x6 (ix2 p q)
      = max ((∑ j : Fin 128,
            max ((((x0 (ix2 p j) - x1 (ix2 (0 : Fin 1) j)) * Ideal.rsqrt (x2 (ix2 (0 : Fin 1) j) + Cert.Gin.eps))
                * x3 (ix2 (0 : Fin 1) j)) + x4 (ix2 (0 : Fin 1) j)) Cert.Gin.zeroF * x5 (ix2 j q))
          + x6 (ix2 (0 : Fin 1) q)) Cert.Gin.zeroF := by
  unfold k1_pay1
  simp only [maximumf_apply, addf_apply, broadcast_apply, shapeCast_self]
  rw [matmul_at, broadcastTo_1b_ab_apply]
  refine congrArg₂ max (congrArg₂ (· + ·) (Finset.sum_congr rfl fun j _ => ?_) rfl) rfl
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  rfl

/-- One entry of the block, from the entries of the arrays its operands are blocks of: row `p` of the input block is
    row `r` of its array, the other operands are read where they are. -/
theorem point_eq (A0 : S10000x128.Idx → EReal) (A1 A2 A3 A4 : S1x128.Idx → EReal) (A5 : S128x128.Idx → EReal)
    (A6 : S1x128.Idx → EReal) (x0 : Vec Ideal S400x128 .f32) (x1 x2 x3 x4 : Vec Ideal S1x128 .f32)
    (x5 : Vec Ideal S128x128 .f32) (x6 : Vec Ideal S1x128 .f32) (r : Fin 10000) (p : Fin 400) (q : Fin 128)
    (h0 : ∀ j : Fin 128, x0 (ix2 p j) = A0 (ix2 r j))
    (h1 : ∀ j : Fin 128, x1 (ix2 (0 : Fin 1) j) = A1 (ix2 (0 : Fin 1) j))
    (h2 : ∀ j : Fin 128, x2 (ix2 (0 : Fin 1) j) = A2 (ix2 (0 : Fin 1) j))
    (h3 : ∀ j : Fin 128, x3 (ix2 (0 : Fin 1) j) = A3 (ix2 (0 : Fin 1) j))
    (h4 : ∀ j : Fin 128, x4 (ix2 (0 : Fin 1) j) = A4 (ix2 (0 : Fin 1) j))
    (h5 : ∀ j : Fin 128, x5 (ix2 j q) = A5 (ix2 j q))
    (h6 : x6 (ix2 (0 : Fin 1) q) = A6 (ix2 (0 : Fin 1) q)) :
    k1_pay1 (F := Ideal) x0 x1 x2 x3 x4 x5 x6 (ix2 p q) = Cert.Gin.GBat A0 A1 A2 A3 A4 A5 A6 r q := by
  rw [pay_at]
  unfold Cert.Gin.GBat Cert.Gin.bnAt
  simp only [h0, h1, h2, h3, h4, h5, h6]

/-! ## Where the blocks sit in their arrays -/

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the row blocks of the input and of the output move with the point, the six
    small operands are whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt25 (t : Fin cfg1.N) : t.val < 25 := lt_of_lt_of_eq t.isLt (show cfg1.N = 25 from N_1)

/-- Row `p` of the input block at point `t` is row `400 t + p` of the array. -/
theorem blk0_at (c : Dev nD) (t : Fin cfg1.N) (p : Fin 400) (j : Fin 128) (r : Fin 10000) (hr : r.val = 400 * t.val + p.val) :
    (iblk1 V c 0 t : Vec Ideal S400x128 .f32) (ix2 p j) = (V c main_v22 : S10000x128.Idx → EReal) (ix2 r j) := by
  obtain ⟨e0, e1, -⟩ := idx_facts t
  show (V c main_v22 : S10000x128.Idx → EReal) (((cfg1.win 0).blk t).view.emb (ix2 p j)) = _
  refine congrArg _ (funext fun a => Fin.ext ?_)
  match a with
  | ⟨0, _⟩ => show win1_0.index t (0 : Fin 2) * 400 + 1 * p.val = r.val; omega
  | ⟨1, _⟩ => show win1_0.index t (1 : Fin 2) * 128 + 1 * j.val = j.val; omega

/-- Each small operand's block, at every point, is its whole array. -/
theorem blk1_at (c : Dev nD) (t : Fin cfg1.N) (y : S1x128.Idx) :
    (iblk1 V c 1 t : Vec Ideal S1x128 .f32) y = (V c main_v27 : S1x128.Idx → EReal) y := by
  obtain ⟨-, -, e0, e1, -⟩ := idx_facts t
  show (V c main_v27 : S1x128.Idx → EReal) (((cfg1.win 1).blk t).view.emb y) = _
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega
theorem blk2_at (c : Dev nD) (t : Fin cfg1.N) (y : S1x128.Idx) :
    (iblk1 V c 2 t : Vec Ideal S1x128 .f32) y = (V c main_v28 : S1x128.Idx → EReal) y := by
  obtain ⟨-, -, -, -, e0, e1, -⟩ := idx_facts t
  show (V c main_v28 : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem blk3_at (c : Dev nD) (t : Fin cfg1.N) (y : S1x128.Idx) :
    (iblk1 V c 3 t : Vec Ideal S1x128 .f32) y = (V c main_v29 : S1x128.Idx → EReal) y := by
  obtain ⟨-, -, -, -, -, -, e0, e1, -⟩ := idx_facts t
  show (V c main_v29 : S1x128.Idx → EReal) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem blk4_at (c : Dev nD) (t : Fin cfg1.N) (y : S1x128.Idx) :
    (iblk1 V c 4 t : Vec Ideal S1x128 .f32) y = (V c main_v30 : S1x128.Idx → EReal) y := by
  obtain ⟨-, -, -, -, -, -, -, -, e0, e1, -⟩ := idx_facts t
  show (V c main_v30 : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem blk5_at (c : Dev nD) (t : Fin cfg1.N) (y : S128x128.Idx) :
    (iblk1 V c 5 t : Vec Ideal S128x128 .f32) y = (V c main_arg6 : S128x128.Idx → EReal) y := by
  obtain ⟨-, -, -, -, -, -, -, -, -, -, e0, e1, -⟩ := idx_facts t
  show (V c main_arg6 : S128x128.Idx → EReal) (((cfg1.win 5).blk t).view.emb y) = _
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega
theorem blk6_at (c : Dev nD) (t : Fin cfg1.N) (y : S1x128.Idx) :
    (iblk1 V c 6 t : Vec Ideal S1x128 .f32) y = (V c main_v31 : S1x128.Idx → EReal) y := by
  obtain ⟨-, -, -, -, -, -, -, -, -, -, -, -, e0, e1, -⟩ := idx_facts t
  show (V c main_v31 : S1x128.Idx → EReal) (((cfg1.win 6).blk t).view.emb y) = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## From the blocks to the array -/

/-- What point `t` writes back is rows `400 t … 400 t + 399` of the layer's second half applied to the arrays. -/
theorem flushed_eq (c : Dev nD) (t : Fin cfg1.N) :
    (dat1 (F := Ideal) V c).flushed 7 t
      = ((cfg1.win 7).blk t).view.read (Elt Ideal) (Cert.Gin.GB (V c main_v22) (V c main_v27) (V c main_v28) (V c main_v29) (V c main_v30) (V c main_arg6) (V c main_v31)) := by
  show (cfg1.win 7).cut (grid1.coords t) ((dat1 V c).after 7 t) = _
  rw [after1_7]
  unfold out1_7
  rw [View.canon_unit_zero hz]
  simp only [View.ld_unit_zero (S := S400x128) hz, View.ld_unit_zero (S := S1x128) hz, View.ld_unit_zero (S := S128x128) hz]
  funext y
  obtain ⟨p, q, rfl⟩ : ∃ (p : Fin 400) (q : Fin 128), y = ix2 p q := ⟨y 0, y 1, eq_ix2 y⟩
  have ht := lt25 t
  obtain ⟨-, -, -, -, -, -, -, -, -, -, -, -, -, -, e0, e1⟩ := idx_facts t
  have hb : 400 * t.val + p.val < 10000 := by omega
  have e : ((cfg1.win 7).blk t).view.emb (ix2 p q) = ix2 (⟨400 * t.val + p.val, hb⟩ : Fin 10000) q := by
    funext a; apply Fin.ext
    match a with
    | ⟨0, _⟩ => show win1_7.index t (0 : Fin 2) * 400 + 1 * p.val = 400 * t.val + p.val; omega
    | ⟨1, _⟩ => show win1_7.index t (1 : Fin 2) * 128 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (ix2 p q)
    = Cert.Gin.GB (V c main_v22) (V c main_v27) (V c main_v28) (V c main_v29) (V c main_v30) (V c main_arg6) (V c main_v31) (((cfg1.win 7).blk t).view.emb (ix2 p q))
  rw [e]
  exact point_eq (V c main_v22) (V c main_v27) (V c main_v28) (V c main_v29) (V c main_v30) (V c main_arg6) (V c main_v31) (iblk1 V c 0 t) (iblk1 V c 1 t) (iblk1 V c 2 t) (iblk1 V c 3 t) (iblk1 V c 4 t) (iblk1 V c 5 t) (iblk1 V c 6 t) ⟨400 * t.val + p.val, hb⟩ p q
    (fun j => blk0_at V c t p j ⟨400 * t.val + p.val, hb⟩ rfl) (fun j => blk1_at V c t _) (fun j => blk2_at V c t _)
    (fun j => blk3_at V c t _) (fun j => blk4_at V c t _) (fun j => blk5_at V c t _) (blk6_at V c t _)

/-- Every row of the array is in the block of the point `row / 400`. -/
theorem cover (i : S10000x128.Idx) :
    ∃ t : Fin cfg1.N, (cfg1.win 7).flush t = true ∧ i ∈ ((cfg1.win 7).blk t).view.set := by
  have hi0 : (i 0).val < 10000 := (i 0).isLt
  have hi1 : (i 1).val < 128 := (i 1).isLt
  have ht : (i 0).val / 400 < cfg1.N := by rw [show cfg1.N = 25 from N_1]; omega
  obtain ⟨-, -, -, -, -, -, -, -, -, -, -, -, -, -, e0, e1⟩ := idx_facts ⟨(i 0).val / 400, ht⟩
  have e0' : win1_7.index ⟨(i 0).val / 400, ht⟩ (0 : Fin 2) = (i 0).val / 400 := e0
  refine ⟨⟨(i 0).val / 400, ht⟩, flush1_7 _, ?_⟩
  show i ∈ ((View.whole main_v32).slice (win1_7.rect ⟨(i 0).val / 400, ht⟩)).set
  rw [View.set_slice_whole, Rect.mem_set_unit]
  intro a
  match a with
  | ⟨0, _⟩ =>
    show win1_7.index ⟨(i 0).val / 400, ht⟩ (0 : Fin 2) * 400 ≤ (i 0).val
      ∧ (i 0).val < win1_7.index ⟨(i 0).val / 400, ht⟩ (0 : Fin 2) * 400 + 400
    omega
  | ⟨1, _⟩ =>
    show win1_7.index ⟨(i 0).val / 400, ht⟩ (1 : Fin 2) * 128 ≤ (i 1).val
      ∧ (i 1).val < win1_7.index ⟨(i 0).val / 400, ht⟩ (1 : Fin 2) * 128 + 128
    omega

end R1

variable (V : (c : Dev nD) → (b : Ref sig .tc) → Buf (Elt Ideal) ((c : Thread nD τ).loc b))

/-- The output array of the launch: the layer's second half — normalise, rectify, affine map, rectify — of the seven
    operand arrays as the launch finds them. -/
theorem arr1 (c : Dev nD) : (Gen.dat1 (F := Ideal) V c).arrAt 7 cfg1.N
    = Cert.Gin.GB (V c main_v22) (V c main_v27) (V c main_v28) (V c main_v29) (V c main_v30) (V c main_arg6) (V c main_v31) :=
  (dat1 (F := Ideal) V c).arrAt_eq_of_cover 7 _ (fun t _ => R1.flushed_eq V c t) R1.cover

end Cert.KernelIdeal.RV

end
-- ==== Proof.Region2.lean ====
/-
  The first stage of the second layer, one launch per 400-row tile: what the launches leave in the 10000 × 128 output array.

  Launch `t` (of 25) holds rows [400·t, 400·t + 400) of the 10000 × 10000 multiplicity matrix `A`, the whole feature
  array `h`, the 128 × 128 weight `W` and the bias as one row `b`. It multiplies its tile of `A` by `h` (contracting the
  10000 nodes), adds rows [400·t, 400·t + 400) of `h` itself, multiplies by `W` (contracting the 128 features) and adds
  `b` to every row; the result is rows [400·t, 400·t + 400) of the output. Narrowing to bf16 before each product is the
  identity on extended reals, and so are the body's casts of an array to its own shape. So entry (r, k) of the output is
      ∑ⱼ ((∑ₛ A[r, s] · h[s, j]) + h[r, j]) · W[j, k] + b[0, k],
  the specification's `GA A h W b`: row `r` is written by launch `r / 400` at its local row `r % 400`, and the 25 tiles
  cover the array.
-/
import proofs.«423809_j45028437131840_1_alg».proof.Proof.Gen.KernelIdeal.Frame
import proofs.«423809_j45028437131840_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open scoped BigOperators

namespace Cert.KernelIdeal.RV

open Cert.KernelIdeal Cert.KernelIdeal.Gen Idealize.ShloMosaic Idealize.ShloMosaic.TcCoe Idealize.SL.Sem
open Idealize.ShloMosaic.Tactic Idealize.ShloMosaic.ValueIdx
open Idealize.ShloMosaic.Pipeline (Dat)

namespace R2

theorem hz : (![0, 0] : Fin 2 → Nat) = fun _ => 0 := funext fun a => by fin_cases a <;> rfl

section Piece
variable {F : FTy → Type} [FloatOps F]

/-- What one launch leaves in its output block: the payload of the whole feature array, the adjacency tile, the tile's own
    feature rows (read at the launch's row offset), the weight and the bias. -/
theorem piece (c : Dev nD) (i : grid2.Coords) (a1 : Memref sig .tc .vmem S400x10000 .bf16) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (x0 : Vec F S400x10000 .bf16) (x1 : Vec F S10000x128 .f32) (x2 : Vec F S128x128 .f32) (x3 : Vec F S1x128 .f32) :
    out2_A_4 c i a1 h1 a2 h2 a3 h3 a4 h4 a5 h5 x0 x1 x2 x3
      = k2_pay1 x1 x0 (View.ld x1 (Rect.unit (s := S10000x128) (k2_off1 i) S400x128.size (k2_off1_inb i))) x2 x3 := by
  unfold out2_A_4
  rw [View.read_writes_eq_canon _ _ _ (cover2_A_4 c i a1 h1 a2 h2 a3 h3 a4 h4 a5 h5 x0 x1 x2 x3)]
  unfold kernelRun2_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x128) hz,
    View.ld_unit_zero (S := S128x128) hz, View.ld_unit_zero (S := S1x128) hz]
end Piece

section Payload

/-! The two products of the body at an index: the neighbour product contracts the 10000 nodes, the affine map the 128
    features. Each operand index is read axis by axis off the dimension numbers. -/

theorem lhsN_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsN_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsN_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsN_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product into the zero block, read at row `p`, column `q`: the sum over the 10000 contracted positions. -/
theorem mmN_apply (L : FVec Ideal S400x10000 .bf16) (R : FVec Ideal S10000x128 .bf16) (p : Fin 400) (q : Fin 128) :
    matmul dot_S400x10000_S10000x128_S400x128_1_0_0_1_n_n none L R (constant (F := Ideal) S400x128 .f32 0x00000000#32) (ix2 p q)
      = ∑ s : Fin 10000, L (ix2 p s) * R (ix2 s q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhsN_0 _ _
    | ⟨1, _⟩ => exact (lhsN_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhsN_0 _ _).trans hk
    | ⟨1, _⟩ => exact rhsN_1 _ _)
  rw [el, er]

theorem lhsW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The product into the zero block, read at row `p`, column `q`: the sum over the 128 contracted positions. -/
theorem mmW_apply (L : FVec Ideal S400x128 .bf16) (R : FVec Ideal S128x128 .bf16) (p : Fin 400) (q : Fin 128) :
    matmul dot_S400x128_S128x128_S400x128_1_0_0_1_n_n none L R (constant (F := Ideal) S400x128 .f32 0x00000000#32) (ix2 p q)
      = ∑ s : Fin 128, L (ix2 p s) * R (ix2 s q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-- The body's stored value at row `p`, column `q` of the tile: the adjacency tile times the features plus the tile's
    own feature rows, times the weight, plus the bias row. Narrowing to bf16 is the identity on extended reals. -/
theorem pay_apply (v2 : FVec Ideal S10000x128 .f32) (v4 : FVec Ideal S400x10000 .bf16) (v8 : FVec Ideal S400x128 .f32)
    (v10 : FVec Ideal S128x128 .f32) (v14 : FVec Ideal S1x128 .f32) (p : Fin 400) (q : Fin 128) :
    k2_pay1 (F := Ideal) v2 v4 v8 v10 v14 (ix2 p q)
      = (∑ j : Fin 128, ((∑ s : Fin 10000, v4 (ix2 p s) * v2 (ix2 s j)) + v8 (ix2 p j)) * v10 (ix2 j q))
        + v14 (ix2 (0 : Fin 1) q) := by
  unfold k2_pay1
  refine (addf_apply _ _ (ix2 p q)).trans ?_
  refine congrArg₂ (· + ·) ?_ ?_
  · refine (mmW_apply _ _ p q).trans ?_
    refine Finset.sum_congr rfl fun j _ => ?_
    refine congrArg₂ (· * ·) ?_ rfl
    refine (addf_apply _ _ (ix2 p j)).trans ?_
    refine congrArg₂ (· + ·) ?_ ?_
    · refine (mmN_apply _ _ p j).trans ?_
      refine Finset.sum_congr rfl fun s _ => ?_
      refine congrArg₂ (· * ·) ?_ ?_
      · exact congrFun (shapeCast_self v4 shapeCasts_S400x10000_S400x10000) (ix2 p s)
      · exact congrFun (shapeCast_self v2 shapeCasts_S10000x128_S10000x128) (ix2 s j)
    · exact congrFun (shapeCast_self v8 shapeCasts_S400x128_S400x128) (ix2 p j)
  · refine (broadcastTo_1b_ab_apply _ broadcasts_S1x128_S400x128 p q).trans ?_
    exact congrFun (shapeCast_self v14 shapeCasts_S1x128_S1x128) (ix2 (0 : Fin 1) q)

end Payload

section Region
variable (V : (c : Dev nD) → (b : Ref sig .tc) → Buf (Elt Ideal) ((c : Thread nD τ).loc b))

/-- The four arrays the launches read, as the region finds them. -/
abbrev Aarr (c : Dev nD) : Vec Ideal S10000x10000 .bf16 := V c main_v20
abbrev Harr (c : Dev nD) : Vec Ideal S10000x128 .f32 := V c main_v32
abbrev Warr (c : Dev nD) : Vec Ideal S128x128 .f32 := V c main_arg8
abbrev Barr (c : Dev nD) : Vec Ideal S1x128 .f32 := V c main_v33
/-- The blocks launch `t` holds: its tile of `A`, and `h`, `W`, `b` whole. -/
abbrev Ablk (c : Dev nD) (t : Fin cfg2.N) : Vec Ideal S400x10000 .bf16 := iblk2 V c 0 t
abbrev Hblk (c : Dev nD) (t : Fin cfg2.N) : Vec Ideal S10000x128 .f32 := iblk2 V c 1 t
abbrev Wblk (c : Dev nD) (t : Fin cfg2.N) : Vec Ideal S128x128 .f32 := iblk2 V c 2 t
abbrev Bblk (c : Dev nD) (t : Fin cfg2.N) : Vec Ideal S1x128 .f32 := iblk2 V c 3 t

/-- The specification's entry, written out. -/
theorem GA_apply (A : Cert.Gin.SNN.Idx → EReal) (h : Cert.Gin.SND.Idx → EReal) (W : Cert.Gin.SDD.Idx → EReal)
    (b2 : Cert.Gin.S1D.Idx → EReal) (r : Fin 10000) (k : Fin 128) :
    Cert.Gin.GA A h W b2 (ix2 r k)
      = (∑ j : Fin 128, ((∑ s : Fin 10000, A (ix2 r s) * h (ix2 s j)) + h (ix2 r j)) * W (ix2 j k))
        + b2 (ix2 (0 : Fin 1) k) := rfl

/-- The block indices over the grid: the tile of `A` and the output tile move with the launch number along the rows, the
    other three windows stay at block (0, 0); the launch's grid coordinate is its number. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ ((grid2.coords t) 0).val = t.val :=
  (by decide +kernel : ∀ t : Fin grid2.N, _)

/-- Local row `p` of launch `t`'s tile of `A` is row `400·t + p` of `A`. -/
theorem Ablk_apply (c : Dev nD) (t : Fin cfg2.N) (p : Fin 400) (s : Fin 10000) (r : Fin 10000)
    (hr : r.val = 400 * t.val + p.val) : Ablk V c t (ix2 p s) = Aarr V c (ix2 r s) := by
  obtain ⟨e0, e1, -⟩ := idx_facts t
  show V c main_v20 (((cfg2.win 0).blk t).view.emb (ix2 p s)) = V c main_v20 (ix2 r s)
  refine congrArg (V c main_v20) ?_
  funext a; apply Fin.ext
  match a with
  | ⟨0, _⟩ => show win2_0.index t (0 : Fin 2) * 400 + 1 * p.val = r.val; omega
  | ⟨1, _⟩ => show win2_0.index t (1 : Fin 2) * 10000 + 1 * s.val = s.val; omega

/-- The feature block is the feature array. -/
theorem Hblk_apply (c : Dev nD) (t : Fin cfg2.N) (s : Fin 10000) (j : Fin 128) :
    Hblk V c t (ix2 s j) = Harr V c (ix2 s j) := by
  obtain ⟨-, -, e2, e3, -⟩ := idx_facts t
  show V c main_v32 (((cfg2.win 1).blk t).view.emb (ix2 s j)) = V c main_v32 (ix2 s j)
  refine congrArg (V c main_v32) ?_
  funext a; apply Fin.ext
  match a with
  | ⟨0, _⟩ => show win2_1.index t (0 : Fin 2) * 10000 + 1 * s.val = s.val; omega
  | ⟨1, _⟩ => show win2_1.index t (1 : Fin 2) * 128 + 1 * j.val = j.val; omega

/-- The weight block is the weight array. -/
theorem Wblk_apply (c : Dev nD) (t : Fin cfg2.N) (j : Fin 128) (k : Fin 128) :
    Wblk V c t (ix2 j k) = Warr V c (ix2 j k) := by
  obtain ⟨-, -, -, -, e4, e5, -⟩ := idx_facts t
  show V c main_arg8 (((cfg2.win 2).blk t).view.emb (ix2 j k)) = V c main_arg8 (ix2 j k)
  refine congrArg (V c main_arg8) ?_
  funext a; apply Fin.ext
  match a with
  | ⟨0, _⟩ => show win2_2.index t (0 : Fin 2) * 128 + 1 * j.val = j.val; omega
  | ⟨1, _⟩ => show win2_2.index t (1 : Fin 2) * 128 + 1 * k.val = k.val; omega

/-- The bias block is the bias row. -/
theorem Bblk_apply (c : Dev nD) (t : Fin cfg2.N) (k : Fin 128) :
    Bblk V c t (ix2 (0 : Fin 1) k) = Barr V c (ix2 (0 : Fin 1) k) := by
  obtain ⟨-, -, -, -, -, -, e6, e7, -⟩ := idx_facts t
  show V c main_v33 (((cfg2.win 3).blk t).view.emb (ix2 (0 : Fin 1) k)) = V c main_v33 (ix2 (0 : Fin 1) k)
  refine congrArg (V c main_v33) ?_
  funext a; apply Fin.ext
  match a with
  | ⟨0, _⟩ => show win2_3.index t (0 : Fin 2) * 1 + 1 * 0 = 0; omega
  | ⟨1, _⟩ => show win2_3.index t (1 : Fin 2) * 128 + 1 * k.val = k.val; omega

/-- The body's second load of the features, 400 rows from row `400·i` of the block: local row `p` reads row `400·i + p`. -/
theorem rows_apply (x1 : Vec Ideal S10000x128 .f32) (i : grid2.Coords) (p : Fin 400) (j : Fin 128) (r : Fin 10000)
    (hr : r.val = 400 * (i 0).val + p.val) :
    View.ld x1 (Rect.unit (s := S10000x128) (k2_off1 i) S400x128.size (k2_off1_inb i)) (ix2 p j) = x1 (ix2 r j) := by
  show x1 ((Rect.unit (s := S10000x128) (k2_off1 i) S400x128.size (k2_off1_inb i)).idx (ix2 p j)) = x1 (ix2 r j)
  refine congrArg x1 ?_
  funext a; apply Fin.ext
  have e := k2_off1_eq i
  match a with
  | ⟨0, _⟩ => show k2_off1 i 0 + 1 * p.val = r.val; rw [e]; show 400 * (i 0).val + 1 * p.val = r.val; omega
  | ⟨1, _⟩ => show k2_off1 i 1 + 1 * j.val = j.val; rw [e]; show 0 + 1 * j.val = j.val; omega

/-- What launch `t` leaves at local (p, q) of its output tile is the specification's entry at row `400·t + p`. -/
theorem outs_apply (c : Dev nD) (t : Fin cfg2.N) (p : Fin 400) (q : Fin 128) (r : Fin 10000)
    (hr : r.val = 400 * t.val + p.val) :
    (outsAt2 V c t : Vec Ideal S400x128 .f32) (ix2 p q)
      = Cert.Gin.GA (Aarr V c) (Harr V c) (Warr V c) (Barr V c) (ix2 r q) := by
  obtain ⟨-, -, -, -, -, -, -, -, -, -, eg⟩ := idx_facts t
  unfold outsAt2
  refine (congrFun (piece (F := Ideal) c (grid2.coords t) (ms2_0 t) (hs2_0 t) (ms2_1 t) (hs2_1 t) (ms2_2 t) (hs2_2 t)
    (ms2_3 t) (hs2_3 t) (ms2_4 t) (hs2_4 t) (Ablk V c t) (Hblk V c t) (Wblk V c t) (Bblk V c t)) (ix2 p q)).trans ?_
  refine (pay_apply (Hblk V c t) (Ablk V c t)
    (View.ld (Hblk V c t) (Rect.unit (s := S10000x128) (k2_off1 (grid2.coords t)) S400x128.size (k2_off1_inb (grid2.coords t))))
    (Wblk V c t) (Bblk V c t) p q).trans ?_
  refine ((GA_apply (Aarr V c) (Harr V c) (Warr V c) (Barr V c) r q).trans ?_).symm
  refine congrArg₂ (· + ·) (Finset.sum_congr rfl fun j _ => congrArg₂ (· * ·) (congrArg₂ (· + ·)
    (Finset.sum_congr rfl fun s _ => congrArg₂ (· * ·) ?_ ?_) ?_) ?_) ?_
  · exact (Ablk_apply V c t p s r hr).symm
  · exact (Hblk_apply V c t s j).symm
  · exact ((rows_apply (Hblk V c t) (grid2.coords t) p j r (by rw [eg]; exact hr)).trans (Hblk_apply V c t r j)).symm
  · exact (Wblk_apply V c t j q).symm
  · exact (Bblk_apply V c t q).symm

/-- What launch `t` leaves at a local index of its tile is the specification's entry at that index's place in the array. -/
theorem outs_emb (c : Dev nD) (t : Fin cfg2.N) (y : S400x128.Idx) :
    (outsAt2 V c t : Vec Ideal S400x128 .f32) y
      = Cert.Gin.GA (Aarr V c) (Harr V c) (Warr V c) (Barr V c) (((cfg2.win 4).blk t).view.emb y) := by
  obtain ⟨p, q, rfl⟩ : ∃ (p : Fin 400) (q : Fin 128), y = ix2 p q := ⟨y 0, y 1, eq_ix2 y⟩
  obtain ⟨-, -, -, -, -, -, -, -, e8, e9, -⟩ := idx_facts t
  have hN : cfg2.N = 25 := N_2
  have ht : t.val < 25 := hN ▸ t.isLt
  refine (outs_apply V c t p q ⟨400 * t.val + p.val, by omega⟩ rfl).trans ?_
  refine congrArg (Cert.Gin.GA (Aarr V c) (Harr V c) (Warr V c) (Barr V c)) ?_
  funext a; apply Fin.ext
  match a with
  | ⟨0, _⟩ => show 400 * t.val + p.val = win2_4.index t (0 : Fin 2) * 400 + 1 * p.val; omega
  | ⟨1, _⟩ => show q.val = win2_4.index t (1 : Fin 2) * 128 + 1 * q.val; omega

/-- What launch `t` writes back is tile `t` of the specification's array. -/
theorem flushed_eq (c : Dev nD) (t : Fin cfg2.N) :
    (dat2 V c).flushed 4 t
      = ((cfg2.win 4).blk t).view.read (Elt Ideal) (Cert.Gin.GA (Aarr V c) (Harr V c) (Warr V c) (Barr V c)) := by
  show (cfg2.win 4).cut (grid2.coords t) ((dat2 V c).after 4 t) = _
  rw [after2_4]
  funext y
  exact outs_emb V c t y

/-- An index of the output array is in launch `t`'s tile iff each coordinate is in the tile's range on its axis. -/
theorem mem_blk (t : Fin cfg2.N) (i : S10000x128.Idx) :
    i ∈ ((cfg2.win 4).blk t).view.set ↔ ∀ a : Fin 2, win2_4.index t a * S400x128.size a ≤ (i a).val
      ∧ (i a).val < win2_4.index t a * S400x128.size a + S400x128.size a := by
  show i ∈ ((View.whole main_v34).slice (win2_4.rect t)).set ↔ _
  rw [View.set_slice_whole, Rect.mem_set_unit]
  exact Iff.rfl

/-- Row `r` of the output is in launch `r / 400`'s tile. -/
theorem cover (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : cfg2.N = 25 := N_2
  have hq : (i 0).val / 400 < cfg2.N := by rw [hN]; omega
  obtain ⟨-, -, -, -, -, -, -, -, e8, e9, -⟩ := idx_facts ⟨(i 0).val / 400, hq⟩
  refine ⟨⟨(i 0).val / 400, hq⟩, flush2_4 _, ?_⟩
  rw [mem_blk]
  intro a
  match a with
  | ⟨0, _⟩ =>
    show win2_4.index ⟨(i 0).val / 400, hq⟩ (0 : Fin 2) * 400 ≤ (i 0).val
      ∧ (i 0).val < win2_4.index ⟨(i 0).val / 400, hq⟩ (0 : Fin 2) * 400 + 400
    rw [e8]; show (i 0).val / 400 * 400 ≤ (i 0).val ∧ (i 0).val < (i 0).val / 400 * 400 + 400; omega
  | ⟨1, _⟩ =>
    show win2_4.index ⟨(i 0).val / 400, hq⟩ (1 : Fin 2) * 128 ≤ (i 1).val
      ∧ (i 1).val < win2_4.index ⟨(i 0).val / 400, hq⟩ (1 : Fin 2) * 128 + 128
    rw [e9]; omega

end Region

end R2

section Result
variable (V : (c : Dev nD) → (b : Ref sig .tc) → Buf (Elt Ideal) ((c : Thread nD τ).loc b))

/-- After the 25 launches the output array holds the specification's first stage of the arrays the region found. -/
theorem arr2 (c : Dev nD) : (Gen.dat2 (F := Ideal) V c).arrAt 4 cfg2.N
    = Cert.Gin.GA (V c main_v20) (V c main_v32) (V c main_arg8) (V c main_v33) :=
  (dat2 V c).arrAt_eq_of_cover 4 (Cert.Gin.GA (V c main_v20) (V c main_v32) (V c main_arg8) (V c main_v33))
    (fun t _ => R2.flushed_eq V c t) R2.cover

end Result

end Cert.KernelIdeal.RV

end
-- ==== Proof.Region3.lean ====
/-
  A layer's second half as one array: the second of the program's two launches of this kernel.

  The launch walks the 10000 rows in 25 blocks of 400.  At each block it takes the block's rows `x`, the column
  mean `μ`, variance `σ²`, scale `γ` and shift `β` (each one row of 128), a 128 × 128 weight matrix `W` and a bias row `b`,
  and writes back `max (max ((x − μ) · rsqrt (σ² + ε) · γ + β) 0 · W + b) 0` for the block's rows.  The narrowing of the
  two factors of the product changes nothing over the extended reals, and the product starts from a zero accumulator, so
  an entry of the block is the specification's `GBat` at the block's row in the array; the 25 blocks tile the array, so
  the array after the launch is the specification's `GB` of the seven operand arrays as the launch finds them.

  * `matmul_at`  : the product read at an entry, the sum over the one contracted coordinate.
  * `pay_at`     : the body's value at an entry of the block.
  * `point_eq`   : the same from the arrays' entries, given where the blocks sit in their arrays.
  * `idx_facts`, `blk0_at` … `blk6_at` : where the blocks sit — rows `400 t …` for the input, the whole array for the rest.
  * `flushed_eq`, `cover`, `arr3` : what a point writes back, every row is in some point's block, the array.
-/
import proofs.«423809_j45028437131840_1_alg».proof.Proof.Gen.KernelIdeal.Frame
import proofs.«423809_j45028437131840_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

namespace R3

/-! ## The body's value at an entry -/

/-- The dimension numbers of the body's one matrix product: rows by columns, one contracted axis of extent 128. -/
abbrev DD := dot_S400x128_S128x128_S400x128_1_0_0_1_n_n

theorem lhsDD_0 (j : S400x128.Idx) (k : DD.contr.Idx) : (DD.lhsIdx j k 0 : ℕ) = j 0 := by
  simp [DotDims.lhsIdx, DD, dot_S400x128_S128x128_S400x128_1_0_0_1_n_n]; rfl
theorem lhsDD_1 (j : S400x128.Idx) (k : DD.contr.Idx) : (DD.lhsIdx j k 1 : ℕ) = k ⟨0, by decide⟩ := by
  simp [DotDims.lhsIdx, DD, dot_S400x128_S128x128_S400x128_1_0_0_1_n_n]; rfl
theorem rhsDD_0 (j : S400x128.Idx) (k : DD.contr.Idx) : (DD.rhsIdx j k 0 : ℕ) = k ⟨0, by decide⟩ := by
  simp [DotDims.rhsIdx, DD, dot_S400x128_S128x128_S400x128_1_0_0_1_n_n]; rfl
theorem rhsDD_1 (j : S400x128.Idx) (k : DD.contr.Idx) : (DD.rhsIdx j k 1 : ℕ) = j 1 := by
  simp [DotDims.rhsIdx, DD, dot_S400x128_S128x128_S400x128_1_0_0_1_n_n]; rfl

/-- The product into the zero accumulator, read at row `p` and column `q`: the sum over the contracted coordinate. -/
theorem matmul_at (a : FVec Ideal S400x128 .bf16) (b : FVec Ideal S128x128 .bf16) (p : Fin 400) (q : Fin 128) :
    matmul DD none a b (constant (F := Ideal) S400x128 .f32 0x00000000#32) (ix2 p q) = ∑ j : Fin 128, a (ix2 p j) * b (ix2 j q) := by
  simp only [matmul]
  rw [Ideal.matmul_constant_zero_apply, ← Equiv.sum_comp (contrEquiv1 DD 128 rfl rfl).symm]
  refine Finset.sum_congr rfl fun j _ => ?_
  have hk : (((contrEquiv1 DD 128 rfl rfl).symm j) ⟨0, by decide⟩ : ℕ) = j.val := contrEquiv1_symm_val DD 128 rfl rfl j
  have el : DD.lhsIdx (ix2 p q) ((contrEquiv1 DD 128 rfl rfl).symm j) = ix2 p j := by
    funext ax; apply Fin.ext
    match ax with
    | ⟨0, _⟩ => exact lhsDD_0 _ _
    | ⟨1, _⟩ => exact (lhsDD_1 _ _).trans hk
  have er : DD.rhsIdx (ix2 p q) ((contrEquiv1 DD 128 rfl rfl).symm j) = ix2 j q := by
    funext ax; apply Fin.ext
    match ax with
    | ⟨0, _⟩ => exact (rhsDD_0 _ _).trans hk
    | ⟨1, _⟩ => exact rhsDD_1 _ _
  rw [el, er]

/-- The body's value at row `p`, column `q` of the block: normalise and rectify the row, multiply by the
    weights, add the bias, rectify. -/
theorem pay_at (x0 : Vec Ideal S400x128 .f32) (x1 x2 x3 x4 : Vec Ideal S1x128 .f32) (x5 : Vec Ideal S128x128 .f32)
    (x6 : Vec Ideal S1x128 .f32) (p : Fin 400) (q : Fin 128) :
    k3_pay1 (F := Ideal) x0 x1 x2 x3 x4 x5 x6 (ix2 p q)
      = max ((∑ j : Fin 128,
            max ((((x0 (ix2 p j) - x1 (ix2 (0 : Fin 1) j)) * Ideal.rsqrt (x2 (ix2 (0 : Fin 1) j) + Cert.Gin.eps))
                * x3 (ix2 (0 : Fin 1) j)) + x4 (ix2 (0 : Fin 1) j)) Cert.Gin.zeroF * x5 (ix2 j q))
          + x6 (ix2 (0 : Fin 1) q)) Cert.Gin.zeroF := by
  unfold k3_pay1
  simp only [maximumf_apply, addf_apply, broadcast_apply, shapeCast_self]
  rw [matmul_at, broadcastTo_1b_ab_apply]
  refine congrArg₂ max (congrArg₂ (· + ·) (Finset.sum_congr rfl fun j _ => ?_) rfl) rfl
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  rfl

/-- One entry of the block, from the entries of the arrays its operands are blocks of: row `p` of the input block is
    row `r` of its array, the other operands are read where they are. -/
theorem point_eq (A0 : S10000x128.Idx → EReal) (A1 A2 A3 A4 : S1x128.Idx → EReal) (A5 : S128x128.Idx → EReal)
    (A6 : S1x128.Idx → EReal) (x0 : Vec Ideal S400x128 .f32) (x1 x2 x3 x4 : Vec Ideal S1x128 .f32)
    (x5 : Vec Ideal S128x128 .f32) (x6 : Vec Ideal S1x128 .f32) (r : Fin 10000) (p : Fin 400) (q : Fin 128)
    (h0 : ∀ j : Fin 128, x0 (ix2 p j) = A0 (ix2 r j))
    (h1 : ∀ j : Fin 128, x1 (ix2 (0 : Fin 1) j) = A1 (ix2 (0 : Fin 1) j))
    (h2 : ∀ j : Fin 128, x2 (ix2 (0 : Fin 1) j) = A2 (ix2 (0 : Fin 1) j))
    (h3 : ∀ j : Fin 128, x3 (ix2 (0 : Fin 1) j) = A3 (ix2 (0 : Fin 1) j))
    (h4 : ∀ j : Fin 128, x4 (ix2 (0 : Fin 1) j) = A4 (ix2 (0 : Fin 1) j))
    (h5 : ∀ j : Fin 128, x5 (ix2 j q) = A5 (ix2 j q))
    (h6 : x6 (ix2 (0 : Fin 1) q) = A6 (ix2 (0 : Fin 1) q)) :
    k3_pay1 (F := Ideal) x0 x1 x2 x3 x4 x5 x6 (ix2 p q) = Cert.Gin.GBat A0 A1 A2 A3 A4 A5 A6 r q := by
  rw [pay_at]
  unfold Cert.Gin.GBat Cert.Gin.bnAt
  simp only [h0, h1, h2, h3, h4, h5, h6]

/-! ## Where the blocks sit in their arrays -/

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the row blocks of the input and of the output move with the point, the six
    small operands are whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem lt25 (t : Fin cfg3.N) : t.val < 25 := lt_of_lt_of_eq t.isLt (show cfg3.N = 25 from N_3)

/-- Row `p` of the input block at point `t` is row `400 t + p` of the array. -/
theorem blk0_at (c : Dev nD) (t : Fin cfg3.N) (p : Fin 400) (j : Fin 128) (r : Fin 10000) (hr : r.val = 400 * t.val + p.val) :
    (iblk3 V c 0 t : Vec Ideal S400x128 .f32) (ix2 p j) = (V c main_v34 : S10000x128.Idx → EReal) (ix2 r j) := by
  obtain ⟨e0, e1, -⟩ := idx_facts t
  show (V c main_v34 : S10000x128.Idx → EReal) (((cfg3.win 0).blk t).view.emb (ix2 p j)) = _
  refine congrArg _ (funext fun a => Fin.ext ?_)
  match a with
  | ⟨0, _⟩ => show win3_0.index t (0 : Fin 2) * 400 + 1 * p.val = r.val; omega
  | ⟨1, _⟩ => show win3_0.index t (1 : Fin 2) * 128 + 1 * j.val = j.val; omega

/-- Each small operand's block, at every point, is its whole array. -/
theorem blk1_at (c : Dev nD) (t : Fin cfg3.N) (y : S1x128.Idx) :
    (iblk3 V c 1 t : Vec Ideal S1x128 .f32) y = (V c main_v39 : S1x128.Idx → EReal) y := by
  obtain ⟨-, -, e0, e1, -⟩ := idx_facts t
  show (V c main_v39 : S1x128.Idx → EReal) (((cfg3.win 1).blk t).view.emb y) = _
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega
theorem blk2_at (c : Dev nD) (t : Fin cfg3.N) (y : S1x128.Idx) :
    (iblk3 V c 2 t : Vec Ideal S1x128 .f32) y = (V c main_v40 : S1x128.Idx → EReal) y := by
  obtain ⟨-, -, -, -, e0, e1, -⟩ := idx_facts t
  show (V c main_v40 : S1x128.Idx → EReal) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem blk3_at (c : Dev nD) (t : Fin cfg3.N) (y : S1x128.Idx) :
    (iblk3 V c 3 t : Vec Ideal S1x128 .f32) y = (V c main_v41 : S1x128.Idx → EReal) y := by
  obtain ⟨-, -, -, -, -, -, e0, e1, -⟩ := idx_facts t
  show (V c main_v41 : S1x128.Idx → EReal) (((cfg3.win 3).blk t).view.emb y) = _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem blk4_at (c : Dev nD) (t : Fin cfg3.N) (y : S1x128.Idx) :
    (iblk3 V c 4 t : Vec Ideal S1x128 .f32) y = (V c main_v42 : S1x128.Idx → EReal) y := by
  obtain ⟨-, -, -, -, -, -, -, -, e0, e1, -⟩ := idx_facts t
  show (V c main_v42 : S1x128.Idx → EReal) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega
theorem blk5_at (c : Dev nD) (t : Fin cfg3.N) (y : S128x128.Idx) :
    (iblk3 V c 5 t : Vec Ideal S128x128 .f32) y = (V c main_arg12 : S128x128.Idx → EReal) y := by
  obtain ⟨-, -, -, -, -, -, -, -, -, -, e0, e1, -⟩ := idx_facts t
  show (V c main_arg12 : S128x128.Idx → EReal) (((cfg3.win 5).blk t).view.emb y) = _
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega
theorem blk6_at (c : Dev nD) (t : Fin cfg3.N) (y : S1x128.Idx) :
    (iblk3 V c 6 t : Vec Ideal S1x128 .f32) y = (V c main_v43 : S1x128.Idx → EReal) y := by
  obtain ⟨-, -, -, -, -, -, -, -, -, -, -, -, e0, e1, -⟩ := idx_facts t
  show (V c main_v43 : S1x128.Idx → EReal) (((cfg3.win 6).blk t).view.emb y) = _
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega

/-! ## From the blocks to the array -/

/-- What point `t` writes back is rows `400 t … 400 t + 399` of the layer's second half applied to the arrays. -/
theorem flushed_eq (c : Dev nD) (t : Fin cfg3.N) :
    (dat3 (F := Ideal) V c).flushed 7 t
      = ((cfg3.win 7).blk t).view.read (Elt Ideal) (Cert.Gin.GB (V c main_v34) (V c main_v39) (V c main_v40) (V c main_v41) (V c main_v42) (V c main_arg12) (V c main_v43)) := by
  show (cfg3.win 7).cut (grid3.coords t) ((dat3 V c).after 7 t) = _
  rw [after3_7]
  unfold out3_7
  rw [View.canon_unit_zero hz]
  simp only [View.ld_unit_zero (S := S400x128) hz, View.ld_unit_zero (S := S1x128) hz, View.ld_unit_zero (S := S128x128) hz]
  funext y
  obtain ⟨p, q, rfl⟩ : ∃ (p : Fin 400) (q : Fin 128), y = ix2 p q := ⟨y 0, y 1, eq_ix2 y⟩
  have ht := lt25 t
  obtain ⟨-, -, -, -, -, -, -, -, -, -, -, -, -, -, e0, e1⟩ := idx_facts t
  have hb : 400 * t.val + p.val < 10000 := by omega
  have e : ((cfg3.win 7).blk t).view.emb (ix2 p q) = ix2 (⟨400 * t.val + p.val, hb⟩ : Fin 10000) q := by
    funext a; apply Fin.ext
    match a with
    | ⟨0, _⟩ => show win3_7.index t (0 : Fin 2) * 400 + 1 * p.val = 400 * t.val + p.val; omega
    | ⟨1, _⟩ => show win3_7.index t (1 : Fin 2) * 128 + 1 * q.val = q.val; omega
  show k3_pay1 (F := Ideal) (iblk3 V c 0 t) (iblk3 V c 1 t) (iblk3 V c 2 t) (iblk3 V c 3 t) (iblk3 V c 4 t) (iblk3 V c 5 t) (iblk3 V c 6 t) (ix2 p q)
    = Cert.Gin.GB (V c main_v34) (V c main_v39) (V c main_v40) (V c main_v41) (V c main_v42) (V c main_arg12) (V c main_v43) (((cfg3.win 7).blk t).view.emb (ix2 p q))
  rw [e]
  exact point_eq (V c main_v34) (V c main_v39) (V c main_v40) (V c main_v41) (V c main_v42) (V c main_arg12) (V c main_v43) (iblk3 V c 0 t) (iblk3 V c 1 t) (iblk3 V c 2 t) (iblk3 V c 3 t) (iblk3 V c 4 t) (iblk3 V c 5 t) (iblk3 V c 6 t) ⟨400 * t.val + p.val, hb⟩ p q
    (fun j => blk0_at V c t p j ⟨400 * t.val + p.val, hb⟩ rfl) (fun j => blk1_at V c t _) (fun j => blk2_at V c t _)
    (fun j => blk3_at V c t _) (fun j => blk4_at V c t _) (fun j => blk5_at V c t _) (blk6_at V c t _)

/-- Every row of the array is in the block of the point `row / 400`. -/
theorem cover (i : S10000x128.Idx) :
    ∃ t : Fin cfg3.N, (cfg3.win 7).flush t = true ∧ i ∈ ((cfg3.win 7).blk t).view.set := by
  have hi0 : (i 0).val < 10000 := (i 0).isLt
  have hi1 : (i 1).val < 128 := (i 1).isLt
  have ht : (i 0).val / 400 < cfg3.N := by rw [show cfg3.N = 25 from N_3]; omega
  obtain ⟨-, -, -, -, -, -, -, -, -, -, -, -, -, -, e0, e1⟩ := idx_facts ⟨(i 0).val / 400, ht⟩
  have e0' : win3_7.index ⟨(i 0).val / 400, ht⟩ (0 : Fin 2) = (i 0).val / 400 := e0
  refine ⟨⟨(i 0).val / 400, ht⟩, flush3_7 _, ?_⟩
  show i ∈ ((View.whole main_v44).slice (win3_7.rect ⟨(i 0).val / 400, ht⟩)).set
  rw [View.set_slice_whole, Rect.mem_set_unit]
  intro a
  match a with
  | ⟨0, _⟩ =>
    show win3_7.index ⟨(i 0).val / 400, ht⟩ (0 : Fin 2) * 400 ≤ (i 0).val
      ∧ (i 0).val < win3_7.index ⟨(i 0).val / 400, ht⟩ (0 : Fin 2) * 400 + 400
    omega
  | ⟨1, _⟩ =>
    show win3_7.index ⟨(i 0).val / 400, ht⟩ (1 : Fin 2) * 128 ≤ (i 1).val
      ∧ (i 1).val < win3_7.index ⟨(i 0).val / 400, ht⟩ (1 : Fin 2) * 128 + 128
    omega

end R3

variable (V : (c : Dev nD) → (b : Ref sig .tc) → Buf (Elt Ideal) ((c : Thread nD τ).loc b))

/-- The output array of the launch: the layer's second half — normalise, rectify, affine map, rectify — of the seven
    operand arrays as the launch finds them. -/
theorem arr3 (c : Dev nD) : (Gen.dat3 (F := Ideal) V c).arrAt 7 cfg3.N
    = Cert.Gin.GB (V c main_v34) (V c main_v39) (V c main_v40) (V c main_v41) (V c main_v42) (V c main_arg12) (V c main_v43) :=
  (dat3 (F := Ideal) V c).arrAt_eq_of_cover 7 _ (fun t _ => R3.flushed_eq V c t) R3.cover

end Cert.KernelIdeal.RV

end
-- ==== Proof.Region4.lean ====
/-
  The last region: an affine map of the node features to 40 class scores, then along each row
  `x - max x - log ∑ exp (x - max x)`.

  * the block product read at an index as the sum over the 128 features (`mm4_apply`), the two lane reductions of a
    `[400, 40]` block as a fold of `max` and a sum over the 40 classes (`rowmax4`, `rowsum4`);
  * the body's payload as three stages and its value at row `p`, class `q` (`pay4_apply`);
  * a block's row is the array's row `400 · t + p`, the weights and the bias are whole at every point, so point `t`
    writes back block `t` of the specification's array (`flushed4_eq`); row `r` lies in the block of point `r / 400`
    (`cover4`), hence the whole array (`arr4`).
-/
import proofs.«423809_j45028437131840_1_alg».proof.Proof.Gen.KernelIdeal.Frame
import proofs.«423809_j45028437131840_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product's operand indices, axis by axis -/

theorem lhs4_0 (j : S400x40.Idx) (k : dot_S400x128_S128x40_S400x40_1_0_0_1_n_n.contr.Idx) :
    (dot_S400x128_S128x40_S400x40_1_0_0_1_n_n.lhsIdx j k (0 : Fin 2)).val = (j 0).val := rfl
theorem lhs4_1 (j : S400x40.Idx) (k : dot_S400x128_S128x40_S400x40_1_0_0_1_n_n.contr.Idx) :
    (dot_S400x128_S128x40_S400x40_1_0_0_1_n_n.lhsIdx j k (1 : Fin 2)).val = (k ⟨0, by decide⟩).val :=
  dot_S400x128_S128x40_S400x40_1_0_0_1_n_n.lhsIdx_val_of_single (cl := (1 : Fin 2)) rfl j k
theorem rhs4_0 (j : S400x40.Idx) (k : dot_S400x128_S128x40_S400x40_1_0_0_1_n_n.contr.Idx) :
    (dot_S400x128_S128x40_S400x40_1_0_0_1_n_n.rhsIdx j k (0 : Fin 2)).val = (k ⟨0, by decide⟩).val :=
  dot_S400x128_S128x40_S400x40_1_0_0_1_n_n.rhsIdx_val_of_single (cr := (0 : Fin 2)) rfl j k
theorem rhs4_1 (j : S400x40.Idx) (k : dot_S400x128_S128x40_S400x40_1_0_0_1_n_n.contr.Idx) :
    (dot_S400x128_S128x40_S400x40_1_0_0_1_n_n.rhsIdx j k (1 : Fin 2)).val = (j 1).val := rfl

/-- The block product into the zero accumulator, read at row `p`, class `q`: the sum over the 128 features. -/
theorem mm4_apply (a : FVec Ideal S400x128 .bf16) (b : FVec Ideal S128x40 .bf16) (p : Fin 400) (q : Fin 40) :
    matmul dot_S400x128_S128x40_S400x40_1_0_0_1_n_n none a b (constant (F := Ideal) S400x40 .f32 0x00000000#32) (ix2 p q)
      = ∑ j : Fin 128, a (ix2 p j) * b (ix2 j q) := by
  simp only [matmul]
  rw [Ideal.matmul_constant_zero_apply]
  rw [← Equiv.sum_comp (contrEquiv1 dot_S400x128_S128x40_S400x40_1_0_0_1_n_n 128 rfl rfl).symm]
  refine Finset.sum_congr rfl fun j _ => ?_
  have hk := contrEquiv1_symm_val dot_S400x128_S128x40_S400x40_1_0_0_1_n_n 128 rfl rfl j
  congr 1
  · refine congrArg a (funext fun x => Fin.ext ?_)
    match x with
    | ⟨0, _⟩ => exact lhs4_0 _ _
    | ⟨1, _⟩ => exact (lhs4_1 _ _).trans hk
  · refine congrArg b (funext fun x => Fin.ext ?_)
    match x with
    | ⟨0, _⟩ => exact (rhs4_0 _ _).trans hk
    | ⟨1, _⟩ => exact rhs4_1 _ _

/-! ## A per-row value laid along the classes: `[400] → [400, 1] → [400, 40]` -/

theorem col4_apply (v : S400.Idx → EReal) (p : Fin 400) (q : Fin 40) :
    broadcastTo S400x40 (shapeCast S400x1 v shapeCasts_S400_S400x1) broadcasts_S400x1_S400x40 (ix2 p q) = v (ix1 p) := by
  rw [broadcastTo_apply _ broadcasts_S400x1_S400x40 (ix2 p q) (ix2 p (0 : Fin 1)) (fun x => by
    match x with
    | ⟨0, _⟩ => rfl
    | ⟨1, _⟩ => rfl)]
  exact shapeCast_apply v shapeCasts_S400_S400x1 (ix2 p (0 : Fin 1)) (ix1 p) (by
    rw [Shape.rowMajor_val_one, Shape.rowMajor_val_two]; show p.val = p.val * 1 + 0; omega)

theorem col4'_apply (v : S400x1.Idx → EReal) (p : Fin 400) (q : Fin 40) :
    broadcastTo S400x40 v broadcasts_S400x1_S400x40 (ix2 p q) = v (ix2 p (0 : Fin 1)) :=
  broadcastTo_apply _ broadcasts_S400x1_S400x40 (ix2 p q) (ix2 p (0 : Fin 1)) (fun x => by
    match x with
    | ⟨0, _⟩ => rfl
    | ⟨1, _⟩ => rfl)

theorem cast4_apply (v : S400.Idx → EReal) (p : Fin 400) (u : Fin 1) :
    shapeCast S400x1 v shapeCasts_S400_S400x1 (ix2 p u) = v (ix1 p) :=
  shapeCast_apply v shapeCasts_S400_S400x1 (ix2 p u) (ix1 p) (by
    rw [Shape.rowMajor_val_one, Shape.rowMajor_val_two]; show p.val = p.val * 1 + u.val; omega)

/-! ## The two lane reductions of a `[400, 40]` block, read at a row -/

/-- The index over row `p` with class `k` inserted on the reduced axis is `(p, k)`. -/
theorem lift4 (p : Fin 400) (k : Fin 40) : reduces_S400x40_S400.lift (ix1 p) k = ix2 p k :=
  funext fun x => Fin.ext (by match x with | ⟨0, _⟩ => rfl | ⟨1, _⟩ => rfl)

/-- A row's maximum from minus infinity: the fold of `max` over the 40 classes. -/
theorem rowmax4 (v : FVec Ideal S400x40 .f32) (hφ : FKind.Formats .f32)
    (hacc : (0xFF800000#32 : BitVec (FTy.bits .f32)) = FKind.maximumf.neutral .f32 hφ) (p : Fin 400) :
    multiReduction (F := Ideal) .maximumf [1] S400 v 0xFF800000#32 reduces_S400x40_S400 hφ hacc (ix1 p)
      = (Finset.univ : Finset (Fin 40)).fold max Cert.Gin.negInfF (fun c => v (ix2 p c)) := by
  refine (Ideal.multiReduction_maximumf_single v 0xFF800000#32 reduces_S400x40_S400 hφ hacc (ix1 p)).trans ?_
  exact congrArg (fun f : Fin 40 → EReal => (Finset.univ : Finset (Fin 40)).fold max Cert.Gin.negInfF f)
    (funext fun c => congrArg v (lift4 p c))

/-- A row's sum from zero: the sum over the 40 classes. -/
theorem rowsum4 (v : FVec Ideal S400x40 .f32) (hφ : FKind.Formats .f32)
    (hacc : (0x00000000#32 : BitVec (FTy.bits .f32)) = FKind.add.neutral .f32 hφ) (p : Fin 400) :
    multiReduction (F := Ideal) .add [1] S400 v 0x00000000#32 reduces_S400x40_S400 hφ hacc (ix1 p)
      = ∑ c : Fin 40, v (ix2 p c) := by
  refine (Ideal.multiReduction_add_single v 0x00000000#32 reduces_S400x40_S400 hφ hacc (ix1 p)).trans ?_
  exact Finset.sum_congr rfl fun c _ => congrArg v (lift4 p c)

/-! ## The body's three stages -/

/-- The class scores4 of a block: features times weights into a zero accumulator, plus the bias row on every row. -/
def scores4 (x0 : Vec Ideal S400x128 .f32) (x1 : Vec Ideal S128x40 .f32) (x2 : Vec Ideal S1x40 .f32) : FVec Ideal S400x40 .f32 :=
  addf (matmul dot_S400x128_S128x40_S400x40_1_0_0_1_n_n none
      (truncf .bf16 (shapeCast S400x128 x0 shapeCasts_S400x128_S400x128) bitsLt_bf16_f32) (truncf .bf16 x1 bitsLt_bf16_f32)
      (constant (F := Ideal) S400x40 .f32 0x00000000#32))
    (broadcastTo S400x40 (shapeCast S1x40 x2 shapeCasts_S1x40_S1x40) broadcasts_S1x40_S400x40)

/-- Every row less its maximum. -/
def shifted4 (v : FVec Ideal S400x40 .f32) : FVec Ideal S400x40 .f32 :=
  subf v (broadcastTo S400x40 (shapeCast S400x1
    (multiReduction (F := Ideal) .maximumf [1] S400 v 0xFF800000#32 reduces_S400x40_S400 (.inl rfl) rfl) shapeCasts_S400_S400x1) broadcasts_S400x1_S400x40)

/-- Every row less the logarithm of the sum of its exponentials. -/
def lessLogSum4 (v : FVec Ideal S400x40 .f32) : FVec Ideal S400x40 .f32 :=
  subf v (broadcastTo S400x40 (log (shapeCast S400x1
    (multiReduction (F := Ideal) .add [1] S400 (exp v) 0x00000000#32 reduces_S400x40_S400 (.inl rfl) rfl) shapeCasts_S400_S400x1)) broadcasts_S400x1_S400x40)

/-- The body's payload is the three stages in turn. -/
theorem pay4_eq (x0 : Vec Ideal S400x128 .f32) (x1 : Vec Ideal S128x40 .f32) (x2 : Vec Ideal S1x40 .f32) :
    k4_pay1 (F := Ideal) x0 x1 x2 = lessLogSum4 (shifted4 (scores4 x0 x1 x2)) := rfl

/-- One class score of a block. -/
def scoreAt4 (x0 : Vec Ideal S400x128 .f32) (x1 : Vec Ideal S128x40 .f32) (x2 : Vec Ideal S1x40 .f32) (p : Fin 400) (q : Fin 40) : EReal :=
  (∑ j : Fin 128, x0 (ix2 p j) * x1 (ix2 j q)) + x2 (ix2 (0 : Fin 1) q)

theorem scores4_apply (x0 : Vec Ideal S400x128 .f32) (x1 : Vec Ideal S128x40 .f32) (x2 : Vec Ideal S1x40 .f32) (p : Fin 400) (q : Fin 40) :
    scores4 x0 x1 x2 (ix2 p q) = scoreAt4 x0 x1 x2 p q := by
  unfold scores4 scoreAt4
  rw [addf_apply, mm4_apply, broadcastTo_1b_ab_apply, shapeCast_self, shapeCast_self]
  rfl

theorem shifted4_apply (v : FVec Ideal S400x40 .f32) (p : Fin 400) (q : Fin 40) :
    shifted4 v (ix2 p q) = v (ix2 p q) - (Finset.univ : Finset (Fin 40)).fold max Cert.Gin.negInfF (fun c => v (ix2 p c)) := by
  unfold shifted4
  rw [subf_apply, col4_apply]
  exact congrArg (fun z => v (ix2 p q) - z) (rowmax4 v _ _ p)

theorem lessLogSum4_apply (v : FVec Ideal S400x40 .f32) (p : Fin 400) (q : Fin 40) :
    lessLogSum4 v (ix2 p q) = v (ix2 p q) - Ideal.log (∑ c : Fin 40, Ideal.exp (v (ix2 p c))) := by
  unfold lessLogSum4
  rw [subf_apply, col4'_apply]
  show v (ix2 p q) - Ideal.log (shapeCast S400x1 _ shapeCasts_S400_S400x1 (ix2 p (0 : Fin 1))) = _
  rw [cast4_apply]
  exact congrArg (fun z => v (ix2 p q) - Ideal.log z) (rowsum4 (exp v) _ _ p)

/-- The body's payload at row `p`, class `q`: the score less the row's maximum, less the logarithm of the row's sum of
    exponentials of the same. -/
theorem pay4_apply (x0 : Vec Ideal S400x128 .f32) (x1 : Vec Ideal S128x40 .f32) (x2 : Vec Ideal S1x40 .f32) (p : Fin 400) (q : Fin 40) :
    k4_pay1 (F := Ideal) x0 x1 x2 (ix2 p q)
      = (scoreAt4 x0 x1 x2 p q - (Finset.univ : Finset (Fin 40)).fold max Cert.Gin.negInfF (fun c => scoreAt4 x0 x1 x2 p c))
        - Ideal.log (∑ c' : Fin 40, Ideal.exp (scoreAt4 x0 x1 x2 p c'
            - (Finset.univ : Finset (Fin 40)).fold max Cert.Gin.negInfF (fun c => scoreAt4 x0 x1 x2 p c))) := by
  rw [pay4_eq, lessLogSum4_apply]
  simp only [shifted4_apply, scores4_apply]

/-! ## From a block to the row of the array it is -/

/-- With the block's row `p` the array's row `r`, weights and bias whole, the payload's value is the specification's. -/
theorem GCat_of_block4 (h : Cert.Gin.SND.Idx → EReal) (W : Cert.Gin.SDC.Idx → EReal) (b : Cert.Gin.S1C.Idx → EReal)
    (x0 : Vec Ideal S400x128 .f32) (p : Fin 400) (r : Fin 10000) (hx : ∀ j : Fin 128, x0 (ix2 p j) = h (ix2 r j)) (q : Fin 40) :
    (scoreAt4 x0 W b p q - (Finset.univ : Finset (Fin 40)).fold max Cert.Gin.negInfF (fun c => scoreAt4 x0 W b p c))
        - Ideal.log (∑ c' : Fin 40, Ideal.exp (scoreAt4 x0 W b p c'
            - (Finset.univ : Finset (Fin 40)).fold max Cert.Gin.negInfF (fun c => scoreAt4 x0 W b p c)))
      = Cert.Gin.GCat h W b r q := by
  have hs : ∀ c : Fin 40, scoreAt4 x0 W b p c = Cert.Gin.logitAt h W b r c := fun c => by
    unfold scoreAt4 Cert.Gin.logitAt
    exact congrArg (· + b (ix2 (0 : Fin 1) c)) (Finset.sum_congr rfl fun j _ => by rw [hx j])
  simp only [hs]
  rfl

section Array

variable (V : (c : Dev nD) → (b : Ref sig .tc) → Buf (Elt Ideal) ((c : Thread nD τ).loc b))

theorem zeros4 : (![0, 0] : Fin 2 → Nat) = fun _ => 0 := funext fun a => by fin_cases a <;> rfl

/-- The printed index maps, decided over the 25 points: the features' block moves with the output's down the rows, the
    weights and the bias stay whole, and the output's block index is the point's number. -/
theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 24 ∧ win4_3.index t (1 : Fin 2) = 0 :=
  (by decide +kernel : ∀ t : Fin grid4.N, _)

/-- Every block of 400 rows is some point's. -/
theorem idx_onto4 : ∀ q0 : Fin 25, ∃ t : Fin cfg4.N, win4_3.index t = ![q0.val, 0] :=
  (by decide +kernel : ∀ q0 : Fin 25, ∃ t : Fin grid4.N, win4_3.index t = ![q0.val, 0])

/-- The features' block at point `t`, row `p`: the array's row `r` that the output's block puts `p` at. -/
theorem blk4_0 (c : Dev nD) (t : Fin cfg4.N) (p : Fin 400) (j : Fin 128) (r : Fin 10000)
    (hr : r.val = win4_3.index t (0 : Fin 2) * 400 + p.val) :
    iblk4 V c 0 t (ix2 p j) = V c (main_v44) (ix2 r j) := by
  obtain ⟨e0, e1, -⟩ := idx_facts4 t
  show V c (main_v44) (((cfg4.win 0).blk t).view.emb (ix2 p j)) = V c (main_v44) (ix2 r j)
  refine congrArg (V c (main_v44)) (funext fun a => Fin.ext ?_)
  match a with
  | ⟨0, _⟩ => show win4_0.index t (0 : Fin 2) * 400 + 1 * p.val = r.val; omega
  | ⟨1, _⟩ => show win4_0.index t (1 : Fin 2) * 128 + 1 * j.val = j.val; omega

/-- The weights' block at any point is the whole array. -/
theorem blk4_1 (c : Dev nD) (t : Fin cfg4.N) : iblk4 V c 1 t = V c (main_arg14) := by
  obtain ⟨-, -, e0, e1, -⟩ := idx_facts4 t
  funext y
  show V c (main_arg14) (((cfg4.win 1).blk t).view.emb y) = V c (main_arg14) y
  refine congrArg (V c (main_arg14)) (funext fun a => Fin.ext ?_)
  match a with
  | ⟨0, _⟩ => show win4_1.index t (0 : Fin 2) * 128 + 1 * (y 0).val = (y 0).val; omega
  | ⟨1, _⟩ => show win4_1.index t (1 : Fin 2) * 40 + 1 * (y 1).val = (y 1).val; omega

/-- The bias's block at any point is the whole one-row array. -/
theorem blk4_2 (c : Dev nD) (t : Fin cfg4.N) : iblk4 V c 2 t = V c (main_v45) := by
  obtain ⟨-, -, -, -, e0, e1, -⟩ := idx_facts4 t
  funext y
  show V c (main_v45) (((cfg4.win 2).blk t).view.emb y) = V c (main_v45) y
  refine congrArg (V c (main_v45)) (funext fun a => Fin.ext ?_)
  match a with
  | ⟨0, _⟩ => show win4_2.index t (0 : Fin 2) * 1 + 1 * (y 0).val = (y 0).val; omega
  | ⟨1, _⟩ => show win4_2.index t (1 : Fin 2) * 40 + 1 * (y 1).val = (y 1).val; omega

/-- What point `t` writes back is block `t` of the specification's array. -/
theorem flushed4_eq (c : Dev nD) (t : Fin cfg4.N) :
    (dat4 (F := Ideal) V c).flushed 3 t = ((cfg4.win 3).blk t).view.read (Elt Ideal)
      (Cert.Gin.GC (V c (main_v44)) (V c (main_arg14)) (V c (main_v45))) := by
  show (cfg4.win 3).cut (grid4.coords t) ((dat4 (F := Ideal) V c).after 3 t) = _
  rw [after4_3]
  unfold out4_3
  rw [View.canon_unit_zero zeros4]
  simp only [View.ld_unit_zero (S := S400x128) zeros4, View.ld_unit_zero (S := S128x40) zeros4, View.ld_unit_zero (S := S1x40) zeros4]
  rw [blk4_1, blk4_2]
  obtain ⟨-, -, -, -, -, -, e6, e7⟩ := idx_facts4 t
  funext j
  obtain ⟨p, q, rfl⟩ : ∃ (p : Fin 400) (q : Fin 40), j = ix2 p q := ⟨j 0, j 1, eq_ix2 j⟩
  have hemb : ((cfg4.win 3).blk t).view.emb (ix2 p q)
      = (ix2 (⟨win4_3.index t (0 : Fin 2) * 400 + p.val, by have := p.isLt; omega⟩ : Fin 10000) q : S10000x40.Idx) :=
    funext fun a => Fin.ext (by
      match a with
      | ⟨0, _⟩ => show win4_3.index t (0 : Fin 2) * 400 + 1 * p.val = win4_3.index t (0 : Fin 2) * 400 + p.val; omega
      | ⟨1, _⟩ => show win4_3.index t (1 : Fin 2) * 40 + 1 * q.val = q.val; omega)
  show k4_pay1 (F := Ideal) (iblk4 V c 0 t) (V c (main_arg14)) (V c (main_v45)) (ix2 p q)
    = Cert.Gin.GC (V c (main_v44)) (V c (main_arg14)) (V c (main_v45))
        (((cfg4.win 3).blk t).view.emb (ix2 p q))
  rw [hemb, pay4_apply]
  exact GCat_of_block4 (V c (main_v44)) (V c (main_arg14)) (V c (main_v45))
    (iblk4 V c 0 t) p _ (fun j => blk4_0 V c t p j _ rfl) q

/-- An index of the array is in point `t`'s block iff each coordinate is in the block's range on its axis. -/
theorem mem_blk4 (t : Fin cfg4.N) (i : S10000x40.Idx) :
    i ∈ ((cfg4.win 3).blk t).view.set ↔ ∀ a : Fin 2, win4_3.index t a * S400x40.size a ≤ (i a).val
      ∧ (i a).val < win4_3.index t a * S400x40.size a + S400x40.size a := by
  show i ∈ ((View.whole main_v46).slice (win4_3.rect t)).set ↔ _
  rw [View.set_slice_whole, Rect.mem_set_unit]
  exact Iff.rfl

/-- Row `r` of the array lies in the block of point `r / 400`. -/
theorem cover4 (i : S10000x40.Idx) : ∃ t : Fin cfg4.N, (cfg4.win 3).flush t = true ∧ i ∈ ((cfg4.win 3).blk t).view.set := by
  have hi0 : (i 0).val < 10000 := (i 0).isLt
  have hi1 : (i 1).val < 40 := (i 1).isLt
  obtain ⟨t, ht⟩ := idx_onto4 ⟨(i 0).val / 400, by omega⟩
  have q0 : win4_3.index t (0 : Fin 2) = (i 0).val / 400 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 400 ≤ (i 0).val ∧ (i 0).val < win4_3.index t (0 : Fin 2) * 400 + 400; omega
  | ⟨1, _⟩ => show win4_3.index t (1 : Fin 2) * 40 ≤ (i 1).val ∧ (i 1).val < win4_3.index t (1 : Fin 2) * 40 + 40; omega

/-- The region's output array after the run is the specification's affine map and row-wise log-softmax of its three
    input arrays as the region finds them. -/
theorem arr4 (c : Dev nD) : (Gen.dat4 (F := Ideal) V c).arrAt 3 cfg4.N = Cert.Gin.GC (V c (main_v44)) (V c (main_arg14)) (V c (main_v45)) :=
  (dat4 (F := Ideal) V c).arrAt_eq_of_cover 3 _ (fun t _ => flushed4_eq V c t) cover4

end Array

end Cert.KernelIdeal.RV

end
-- ==== Proof.AggK.lean ====
/-
  The neighbour-sum law on the kernel's side.

  The kernel builds a 10000 × 10000 matrix by adding a one at (destination, source) for every edge, onto zeros, and
  multiplies it with the features.  With every endpoint a node number the index pairs are the edge list's two rows as
  they stand, every one lands inside the matrix, and entry (d, s) is the number of edges from s to d.  A sum of ones
  times a value is that value once per one, so row d of the product adds, over the edges that end at d, the
  source's features: the per-edge neighbour sum.
-/
import proofs.«423809_j45028437131840_1_alg».proof.Proof.KTerms
import proofs.«423809_j45028437131840_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws

noncomputable section

open scoped BigOperators

namespace Cert.KernelIdeal.KV

open Cert.KernelIdeal Cert.KernelIdeal.Facts₀ Cert.KernelIdeal.Facts Idealize.ShloMosaic Idealize.ShloMosaic.ValueIdx

namespace AggK

/-! ## Sums of zeros and ones against one factor, over the extended reals -/

/-- A finite sum of terms that are not negative, times a factor, is the sum of the products. -/
theorem sum_mul_of_nonneg {ι : Type} (S : Finset ι) (c : ι → EReal) (hc : ∀ j, 0 ≤ c j) (x : EReal) :
    (∑ j ∈ S, c j) * x = ∑ j ∈ S, c j * x := by
  classical
  induction S using Finset.induction_on with
  | empty => simp
  | insert a S ha ih =>
    rw [Finset.sum_insert ha, Finset.sum_insert ha,
      EReal.right_distrib_of_nonneg (hc a) (Finset.sum_nonneg fun j _ => hc j), ih]

/-- Counting the pairs that land on a cell, then multiplying by a row of values and adding over the cells of a line,
    is adding over the pairs of that line the value each one names. -/
theorem count_mul_sum {E : Type} [Fintype E] {n : ℕ} (p : E → Prop) [DecidablePred p] (src : E → ℕ)
    (g : Fin n → EReal) :
    ∑ s : Fin n, ((0 : EReal) + ∑ _j ∈ Finset.univ.filter (fun j : E => p j ∧ src j = s.val), (1 : EReal)) * g s
      = ∑ j : E, if p j then (if hs : src j < n then g ⟨src j, hs⟩ else 0) else 0 := by
  classical
  have h1 : ∀ s : Fin n,
      ((0 : EReal) + ∑ _j ∈ Finset.univ.filter (fun j : E => p j ∧ src j = s.val), (1 : EReal)) * g s
        = ∑ j : E, if p j ∧ src j = s.val then g s else 0 := by
    intro s
    rw [zero_add, Finset.sum_filter, sum_mul_of_nonneg]
    · refine Finset.sum_congr rfl fun j _ => ?_
      by_cases hq : p j ∧ src j = s.val
      · rw [if_pos hq, if_pos hq, one_mul]
      · rw [if_neg hq, if_neg hq, zero_mul]
    · intro j
      by_cases hq : p j ∧ src j = s.val
      · rw [if_pos hq]; exact zero_le_one
      · rw [if_neg hq]
  rw [Finset.sum_congr rfl fun s _ => h1 s, Finset.sum_comm]
  refine Finset.sum_congr rfl fun j _ => ?_
  by_cases hp : p j
  · rw [if_pos hp]
    by_cases hs : src j < n
    · rw [dif_pos hs]
      rw [Finset.sum_eq_single (⟨src j, hs⟩ : Fin n)]
      · rw [if_pos ⟨hp, rfl⟩]
      · intro s _ hne
        rw [if_neg]
        rintro ⟨_, h⟩
        exact hne (Fin.ext h.symm)
      · intro h; exact absurd (Finset.mem_univ _) h
    · rw [dif_neg hs]
      refine Finset.sum_eq_zero fun s _ => ?_
      rw [if_neg]
      rintro ⟨_, h⟩
      exact hs (h ▸ s.isLt)
  · rw [if_neg hp]
    refine Finset.sum_eq_zero fun s _ => ?_
    rw [if_neg]
    rintro ⟨h, _⟩
    exact hp h

/-! ## Reading the edge list's rows and the index pairs -/

/-- A word that is not negative as a signed integer is its unsigned value. -/
theorem toInt_eq_toNat_of_nonneg (b : BitVec 32) (h : 0 ≤ b.toInt) : b.toInt = (b.toNat : ℤ) := by
  rw [BitVec.toInt_eq_toNat_cond] at h ⊢
  split_ifs at h ⊢ with hc
  · rfl
  · have := b.isLt; omega

/-- The source row read at an edge. -/
theorem srcRow_apply (ei : IVec S2x640000 32) (e : Fin 640000) : srcRow ei (ix1 e) = ei (ix2 (0 : Fin 2) e) := by
  unfold srcRow
  refine (shapeCast_1a_a_apply _ _ e).trans ?_
  refine extractStridedSlice_apply _ _ _ _ (ix2 (0 : Fin 2) e) ?_
  intro a
  match a with
  | ⟨0, _⟩ => rfl
  | ⟨1, _⟩ => show e.val = 0 + e.val; omega

/-- The destination row read at an edge. -/
theorem dstRow_apply (ei : IVec S2x640000 32) (e : Fin 640000) : dstRow ei (ix1 e) = ei (ix2 (1 : Fin 2) e) := by
  unfold dstRow
  refine (shapeCast_1a_a_apply _ _ e).trans ?_
  refine extractStridedSlice_apply _ _ _ _ (ix2 (1 : Fin 2) e) ?_
  intro a
  match a with
  | ⟨0, _⟩ => rfl
  | ⟨1, _⟩ => show e.val = 0 + e.val; omega

/-- Counting from the end leaves a word that is not negative as it is. -/
theorem wrap_apply_of_nonneg (v : IVec S640000 32) (i : S640000.Idx) (h : 0 ≤ (v i).toInt) : wrap v i = v i := by
  show Scalar.select (IntOp.cmpi .slt (v i) 0#32) _ (v i) = v i
  have hc : IntOp.cmpi .slt (v i) 0#32 = 0#1 := by
    simp [IntOp.cmpi, BitVec.slt, not_lt.mpr h]
  rw [hc, select_zero]

/-- Column 0 of the index pairs is the wrapped destination row. -/
theorem idx2_col0 (ei : IVec S2x640000 32) (k : S640000x2.Idx) (h1 : (k 1).val = 0) :
    idx2 ei k = wrap (dstRow ei) (ix1 (k 0)) := by
  unfold idx2
  refine (concatenate_pair_apply_left (s₁ := S640000x1) (s₂ := S640000x1) 1 _ _ _ k rfl (ix2 (k 0) (0 : Fin 1)) ?_).trans ?_
  · intro b
    match b with
    | ⟨0, _⟩ => rfl
    | ⟨1, _⟩ => exact h1.symm
  · refine broadcastInDim_apply _ _ _ _ (ix1 (k 0)) ?_
    intro a
    match a with
    | ⟨0, _⟩ => rfl

/-- Column 1 of the index pairs is the wrapped source row. -/
theorem idx2_col1 (ei : IVec S2x640000 32) (k : S640000x2.Idx) (h1 : (k 1).val = 1) :
    idx2 ei k = wrap (srcRow ei) (ix1 (k 0)) := by
  unfold idx2
  refine (concatenate_pair_apply_right (s₁ := S640000x1) (s₂ := S640000x1) 1 _ _ _ k rfl rfl (ix2 (k 0) (0 : Fin 1)) ?_ ?_).trans ?_
  · intro b hb
    match b with
    | ⟨0, _⟩ => rfl
    | ⟨1, _⟩ => exact absurd rfl hb
  · show 0 + 1 = (k 1).val
    omega
  · refine broadcastInDim_apply _ _ _ _ (ix1 (k 0)) ?_
    intro a
    match a with
    | ⟨0, _⟩ => rfl

/-! ## Where an edge's one lands -/

/-- The scatter's dimension numbers. -/
abbrev dS : ScatterDims S10000x10000 S640000x2 S640000 := scatter_S10000x10000_S640000x2_S640000_n_01_01_1

/-- Component `c` of edge `j`'s start index is read at `(j, c)`. -/
theorem siIdx_val (j : S640000.Idx) (c : Fin dS.scatterDimsToOperandDims.length) :
    ((dS.siIdx j c) 0).val = (j 0).val ∧ ((dS.siIdx j c) 1).val = c.val := by
  constructor
  · unfold ScatterDims.siIdx
    beta_reduce
    rw [dif_neg (by decide)]
    unfold ScatterDims.siCoord
    simp only [Fin.coe_cast]
    exact congrArg (fun x => (j x).val) (Subsingleton.elim _ _)
  · unfold ScatterDims.siIdx
    beta_reduce
    rw [dif_pos (by decide)]

theorem start_zero (idx : IVec S640000x2 32) (j : S640000.Idx) (k : S640000x2.Idx) (hk0 : (k 0).val = (j 0).val) (hk1 : (k 1).val = 0) :
    dS.start j idx 0 = (idx k).toInt := by
  unfold ScatterDims.start
  rw [dif_pos (by decide)]
  refine congrArg (fun k => (idx k).toInt) ?_
  funext b
  apply Fin.ext
  match b with
  | ⟨0, _⟩ => exact (siIdx_val j _).1.trans hk0.symm
  | ⟨1, _⟩ => exact (siIdx_val j _).2.trans hk1.symm

theorem start_one (idx : IVec S640000x2 32) (j : S640000.Idx) (k : S640000x2.Idx) (hk0 : (k 0).val = (j 0).val) (hk1 : (k 1).val = 1) :
    dS.start j idx 1 = (idx k).toInt := by
  unfold ScatterDims.start
  rw [dif_pos (by decide)]
  refine congrArg (fun k => (idx k).toInt) ?_
  funext b
  apply Fin.ext
  match b with
  | ⟨0, _⟩ => exact (siIdx_val j _).1.trans hk0.symm
  | ⟨1, _⟩ => exact (siIdx_val j _).2.trans hk1.symm

theorem window_eq_zero (j : S640000.Idx) (a : Fin S10000x10000.rank) : dS.window j a = 0 := by
  have hk : dS.sKept = [] := by decide
  unfold ScatterDims.window
  rw [dif_neg (by rw [hk]; exact List.not_mem_nil)]

/-- Under the range precondition edge `j`'s one lands at (its destination, its source). -/
theorem resultIdx_eq_some_iff (ei : IVec S2x640000 32) (hr : Cert.Gin.InRange ei) (j : S640000.Idx) (i : S10000x10000.Idx) :
    dS.resultIdx? j (idx2 ei) = some i ↔
      (Cert.Gin.dstN ei (j 0) = (i 0).val ∧ Cert.Gin.srcN ei (j 0) = (i 1).val) := by
  have hd := hr (ix2 (1 : Fin 2) (j 0))
  have hs := hr (ix2 (0 : Fin 2) (j 0))
  have e0 : idx2 ei (ix2 (j 0) (0 : Fin 2)) = wrap (dstRow ei) (ix1 (j 0)) := idx2_col0 ei _ rfl
  have e1 : idx2 ei (ix2 (j 0) (1 : Fin 2)) = wrap (srcRow ei) (ix1 (j 0)) := idx2_col1 ei _ rfl
  have hs0 : dS.start j (idx2 ei) 0 = (Cert.Gin.dstN ei (j 0) : ℤ) := by
    rw [start_zero (idx2 ei) j (ix2 (j 0) (0 : Fin 2)) rfl rfl, e0,
      wrap_apply_of_nonneg _ _ (by rw [dstRow_apply ei (j 0)]; exact hd.1), dstRow_apply ei (j 0)]
    exact toInt_eq_toNat_of_nonneg _ hd.1
  have hs1 : dS.start j (idx2 ei) 1 = (Cert.Gin.srcN ei (j 0) : ℤ) := by
    rw [start_one (idx2 ei) j (ix2 (j 0) (1 : Fin 2)) rfl rfl, e1,
      wrap_apply_of_nonneg _ _ (by rw [srcRow_apply ei (j 0)]; exact hs.1), srcRow_apply ei (j 0)]
    exact toInt_eq_toNat_of_nonneg _ hs.1
  have hdlt : (Cert.Gin.dstN ei (j 0) : ℤ) < 10000 := by
    have := toInt_eq_toNat_of_nonneg _ hd.1
    have := hd.2
    unfold Cert.Gin.dstN
    omega
  have hslt : (Cert.Gin.srcN ei (j 0) : ℤ) < 10000 := by
    have := toInt_eq_toNat_of_nonneg _ hs.1
    have := hs.2
    unfold Cert.Gin.srcN
    omega
  have hw := window_eq_zero j
  have hz0 : dS.start j (idx2 ei) 0 + (dS.window j 0 : ℕ) = (Cert.Gin.dstN ei (j 0) : ℤ) := by
    rw [hw, hs0, Nat.cast_zero, add_zero]
  have hz1 : dS.start j (idx2 ei) 1 + (dS.window j 1 : ℕ) = (Cert.Gin.srcN ei (j 0) : ℤ) := by
    rw [hw, hs1, Nat.cast_zero, add_zero]
  have h01 : ∀ a : Fin S10000x10000.rank, a = 0 ∨ a = 1 := fun a => by
    match a with
    | ⟨0, _⟩ => exact Or.inl rfl
    | ⟨1, _⟩ => exact Or.inr rfl
  have hcond : ∀ a, 0 ≤ dS.start j (idx2 ei) a + dS.window j a ∧
      dS.start j (idx2 ei) a + dS.window j a < S10000x10000.size a := by
    intro a
    rcases h01 a with rfl | rfl
    · rw [hz0]
      exact ⟨Int.natCast_nonneg _, hdlt⟩
    · rw [hz1]
      exact ⟨Int.natCast_nonneg _, hslt⟩
  unfold ScatterDims.resultIdx?
  rw [dif_pos hcond, Option.some_inj]
  constructor
  · intro h
    subst h
    refine ⟨?_, ?_⟩
    · show _ = (dS.start j (idx2 ei) 0 + (dS.window j 0 : ℕ)).toNat
      rw [hz0, Int.toNat_natCast]
    · show _ = (dS.start j (idx2 ei) 1 + (dS.window j 1 : ℕ)).toNat
      rw [hz1, Int.toNat_natCast]
  · rintro ⟨h0, h1⟩
    funext a
    apply Fin.ext
    rcases h01 a with rfl | rfl
    · show (dS.start j (idx2 ei) 0 + (dS.window j 0 : ℕ)).toNat = _
      rw [hz0, Int.toNat_natCast, h0]
    · show (dS.start j (idx2 ei) 1 + (dS.window j 1 : ℕ)).toNat = _
      rw [hz1, Int.toNat_natCast, h1]

/-- A rank-1 index set is its one coordinate's range. -/
def idxEquiv1 {n : ℕ} : (⟨1, ![n]⟩ : Shape).Idx ≃ Fin n where
  toFun i := i 0
  invFun p := ix1 p
  left_inv i := (eq_ix1 i).symm
  right_inv _ := rfl

/-- The accumulating scatter at the exact values, read at one element: the operand there plus the updates landing there. -/
theorem scatterAdd_apply {φ : FTy} {s si u : Shape} {w : ℕ} (d : ScatterDims s si u) (x : FVec Ideal s φ) (idx : IVec si w)
    (upd : FVec Ideal u φ) (i : s.Idx) :
    Host.scatterAdd d x idx upd i = Ideal.hostScatterAdd d x idx upd i := rfl
/-- One entry of the multiplicity matrix: zero plus a one for each edge from that source to that destination. -/
theorem AK_apply (ei : IVec S2x640000 32) (hr : Cert.Gin.InRange ei) (d s : Fin 10000) :
    AK ei (ix2 d s) = (0 : EReal) + ∑ _j ∈ Finset.univ.filter
      (fun j : S640000.Idx => Cert.Gin.dstN ei (j 0) = d.val ∧ Cert.Gin.srcN ei (j 0) = s.val), (1 : EReal) := by
  unfold AK
  rw [truncf_apply, scatterAdd_apply]
  unfold Ideal.hostScatterAdd
  have hx : broadcastInDim S10000x10000 ![] bcast_S_S10000x10000 (constant (F := Ideal) S_ .f32 0x00000000#32) (ix2 d s) = 0 :=
    (broadcastInDim_scalar_apply _ _ _).trans ((constant_apply _ _).trans Ideal.ofBits_zero_f32)
  have hu : ∀ j, broadcastInDim S640000 ![] bcast_S_S640000 (constant (F := Ideal) S_ .f32 0x3F800000#32) j = 1 :=
    fun _ => (broadcastInDim_scalar_apply _ _ _).trans ((constant_apply _ _).trans Ideal.ofBits_one_f32)
  simp only [hx, hu]
  rw [Finset.filter_congr (fun j _ => (resultIdx_eq_some_iff ei hr j (ix2 d s) :
    _ ↔ (Cert.Gin.dstN ei (j 0) = d.val ∧ Cert.Gin.srcN ei (j 0) = s.val)))]

end AggK

/-- The product of the multiplicity matrix with any feature array is the per-edge neighbour sum. -/
theorem matA_AK (ei : IVec S2x640000 32) (hr : Cert.Gin.InRange ei) (h : Cert.Gin.SND.Idx → EReal) :
    Cert.Gin.matA (AK ei) h = Cert.Gin.agg ei h := by
  funext i
  show ∑ s : Fin 10000, AK ei (ix2 (i 0 : Fin 10000) s) * h (ix2 s (i 1 : Fin 128)) = Cert.Gin.aggAt ei h (i 0) (i 1)
  rw [Finset.sum_congr rfl fun s _ => by rw [AggK.AK_apply ei hr (i 0) s]]
  rw [AggK.count_mul_sum (fun j : S640000.Idx => Cert.Gin.dstN ei (j 0) = (i 0).val) (fun j => Cert.Gin.srcN ei (j 0))
    (fun s : Fin 10000 => h (ix2 s (i 1 : Fin 128)))]
  unfold Cert.Gin.aggAt
  exact Equiv.sum_comp (AggK.idxEquiv1 (n := 640000)) (fun e : Fin 640000 =>
    if Cert.Gin.dstN ei e = (i 0).val then
      (if hs : Cert.Gin.srcN ei e < 10000 then h (ix2 (⟨Cert.Gin.srcN ei e, hs⟩ : Fin 10000) (i 1)) else 0) else 0)

end Cert.KernelIdeal.KV

end
-- ==== Proof.KValue.lean ====
/-
  The kernel program's result as the network function.  Its result buffer ends at the last pallas_call's output array;
  each pallas_call's output array is the index-level stage function of the arrays the call finds; each of those is an
  argument, a one-row copy of an argument, the column statistics of the previous output, or the previous output itself;
  and the product with the multiplicity matrix is the per-edge neighbour sum when every edge endpoint is a node number.
-/
import proofs.«423809_j45028437131840_1_alg».proof.Proof.KRun
import proofs.«423809_j45028437131840_1_alg».proof.Proof.KHost01
import proofs.«423809_j45028437131840_1_alg».proof.Proof.KHost23
import proofs.«423809_j45028437131840_1_alg».proof.Proof.Region0
import proofs.«423809_j45028437131840_1_alg».proof.Proof.Region1
import proofs.«423809_j45028437131840_1_alg».proof.Proof.Region2
import proofs.«423809_j45028437131840_1_alg».proof.Proof.Region3
import proofs.«423809_j45028437131840_1_alg».proof.Proof.Region4
import proofs.«423809_j45028437131840_1_alg».proof.Proof.AggK

noncomputable section

namespace Cert.KernelIdeal.Gen

open Idealize.ShloMosaic Idealize.ShloMosaic.TcCoe Idealize.SL.Sem
open Cert.Gin (GA GB GC rs128 rs40 OUT layer LIN matA agg InRange)
open Cert.KernelIdeal.RV (arr0 arr1 arr2 arr3 arr4)

variable (m : (ℓ : Loc nD τ sig) → Buf (Elt Ideal) ℓ) (ρ : Dev nD → PrngReg)

-- five pallas_calls' worth of array names are rewritten in one statement: several times the default budget
set_option maxHeartbeats 4000000 in
/-- The result buffer's final contents are the network function of the launch contents of the arguments. -/
theorem kvalue (c : Dev nD) (hr : InRange (m ((c : Thread nD τ).loc main_arg1))) :
    W14 m ρ c (Proc.devRef .tc main_v46)
      = OUT KV.MUk KV.VARk (m ((c : Thread nD τ).loc main_arg1)) (m ((c : Thread nD τ).loc main_arg0))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15)) := by
  -- layer 1, first call: neighbour sum, self term and affine map of the features
  have e0 := arr0 (V1 m ρ) c
  rw [V1_a0 m ρ c, V1_a1 m ρ c, V1_a2 m ρ c, V1_a3 m ρ c] at e0
  -- layer 1, second call: normalisation by the statistics of the first call's output
  have e1 := arr1 (V5 m ρ) c
  rw [V5_a0 m ρ c, V5_a1 m ρ c, V5_a2 m ρ c, V5_a3 m ρ c, V5_a4 m ρ c, V5_a5 m ρ c, V5_a6 m ρ c, e0] at e1
  -- layer 2, first call
  have e2 := arr2 (V7 m ρ) c
  rw [V7_a0 m ρ c, V7_a1 m ρ c, V7_a2 m ρ c, V7_a3 m ρ c, e1] at e2
  -- layer 2, second call
  have e3 := arr3 (V11 m ρ) c
  rw [V11_a0 m ρ c, V11_a1 m ρ c, V11_a2 m ρ c, V11_a3 m ρ c, V11_a4 m ρ c, V11_a5 m ρ c, V11_a6 m ρ c, e2] at e3
  -- the head
  have e4 := arr4 (V13 m ρ) c
  rw [V13_a0 m ρ c, V13_a1 m ρ c, V13_a2 m ρ c, e3] at e4
  rw [W14_out m ρ c, e4]
  unfold OUT layer GA
  rw [KV.matA_AK _ hr, KV.matA_AK _ hr]

end Cert.KernelIdeal.Gen

end
-- ==== Proof.RefRun.lean ====
/-
  The reference program as a straight line: every operation of its entry function in order, the outlined
  functions' operations written at their calls over each call's own buffers, cut at the stage boundaries
  (neighbour sum, affine map, column mean, column variance, normalise–rectify–affine–rectify, twice; then the
  class scores with their log-softmax).  The entry function equals that line, and therefore every weakly fair
  execution ends with each buffer at the fold of the operations' results over the launch contents.
-/
import proofs.«423809_j45028437131840_1_alg».proof.Proof.Gen.ReferenceIdeal
import Idealize.ShloMosaic.Lib.StableHlo.Run
import Mathlib.Data.List.Basic

noncomputable section

namespace Cert.ReferenceIdeal.RV

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- Operations 1 … 17: the first layer's neighbour sum: the edge list's two rows, the sources wrapped, the gather and the scatter with addition. -/
abbrev opsAgg1 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 10000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v11 (broadcastInDim S10000x128 ![] bcast_S_S10000x128 : (⟨S_, .f32⟩ : BufTy).Contents (Elt F) → (⟨S10000x128, .f32⟩ : BufTy).Contents (Elt F)),
    StableHlo.unary main_v3 main_v12 (broadcastInDim S640000x1 ![0] bcast_S640000_S640000x1_0 : (⟨S640000, .i32⟩ : BufTy).Contents (Elt F) → (⟨S640000x1, .i32⟩ : BufTy).Contents (Elt F)),
    StableHlo.ternary main_v11 main_v12 main_v10 main_v13 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) ]

theorem opsAgg1_sub : (opsAgg1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

theorem opsAgg1_fresh : (opsAgg1 : List (HloOp τ sig (Elt F))).Forall fun op => op.fresh = ∅ :=
  ⟨rfl, rfl, rfl, rfl, rfl, rfl, rfl, rfl, rfl, rfl, rfl, rfl, rfl, rfl, rfl, rfl, rfl⟩

/-- Operations 18 … 22: the first layer's first affine map. -/
abbrev opsLin1 : List (HloOp τ sig (Elt F)) :=
  [ StableHlo.binary main_v13 main_arg0 main_v14 (addf : (⟨S10000x128, .f32⟩ : BufTy).Contents (Elt F) → (⟨S10000x128, .f32⟩ : BufTy).Contents (Elt F) → (⟨S10000x128, .f32⟩ : BufTy).Contents (Elt F)),
    StableHlo.binary main_v14 main_arg2 main_v15 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S10000x128 ![0, 1] bcast_S1x128_S10000x128_0_1 : (⟨S1x128, .f32⟩ : BufTy).Contents (Elt F) → (⟨S10000x128, .f32⟩ : BufTy).Contents (Elt F)),
    StableHlo.binary main_v15 main_v17 main_v18 (addf : (⟨S10000x128, .f32⟩ : BufTy).Contents (Elt F) → (⟨S10000x128, .f32⟩ : BufTy).Contents (Elt F) → (⟨S10000x128, .f32⟩ : BufTy).Contents (Elt F)) ]

theorem opsLin1_sub : (opsLin1 : List (HloOp τ sig (Elt F))).Forall fun op => op.bufs ⊆ tcRefs τ sig :=
  ⟨binary_bufs_sub .., binary_bufs_sub .., unary_bufs_sub .., unary_bufs_sub .., binary_bufs_sub ..⟩

theorem opsLin1_fresh : (opsLin1 : List (HloOp τ sig (Elt F))).Forall fun op => op.fresh = ∅ :=
  ⟨rfl, rfl, rfl, rfl, rfl⟩

/-- Operations 23 … 28: the first layer's column mean (and the variance's correction count, zero). -/
abbrev opsMu1 : List (HloOp τ sig (Elt F)) :=
  [ StableHlo.nullary main_cst_1 (constant S_ .f32 0x00000000#32),
    StableHlo.binary main_v18 main_cst_1 main_v19 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_2 (constant S_ .f32 0x461C4000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32) ]

theorem opsMu1_sub : (opsMu1 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

theorem opsMu1_fresh : (opsMu1 : List (HloOp τ sig (Elt F))).Forall fun op => op.fresh = ∅ :=
  ⟨rfl, rfl, rfl, rfl, rfl, rfl⟩

/-- Operations 29 … 50: the first layer's column variance, guarded. -/
abbrev opsVar1 : List (HloOp τ sig (Elt F)) :=
  [ StableHlo.TRef.nullary main_call0.cst (constant S_ .f32 0x00000000#32),
    StableHlo.TRef.binary (.of main_v18 : StableHlo.TRef sig ⟨S10000x128, .f32⟩) main_call0.cst main_call0.v0 (fun x v => Host.reduceAdd x v reducesTo_S10000x128_S128_d0 h_S_),
    StableHlo.TRef.unary main_call0.v0 main_call0.v1 (broadcastInDim S1x128 ![1] bcast_S128_S1x128_1),
    StableHlo.TRef.nullary main_call0.cst_0 (constant S_ .f32 0x461C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S10000x128 ![0, 1] bcast_S1x128_S10000x128_0_1),
    StableHlo.TRef.binary (.of main_v18 : StableHlo.TRef sig ⟨S10000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

theorem opsVar1_sub : (opsVar1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsVar1_fresh : (opsVar1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Operations 51 … 76: the first layer's normalisation, rectification, second affine map and rectification. -/
abbrev opsBN1 : List (HloOp τ sig (Elt F)) :=
  [ StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S10000x128 ![0, 1] bcast_S1x128_S10000x128_0_1 : (⟨S1x128, .f32⟩ : BufTy).Contents (Elt F) → (⟨S10000x128, .f32⟩ : BufTy).Contents (Elt F)),
    StableHlo.binary main_v18 main_v24 main_v25 (subf : (⟨S10000x128, .f32⟩ : BufTy).Contents (Elt F) → (⟨S10000x128, .f32⟩ : BufTy).Contents (Elt F) → (⟨S10000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S10000x128 ![0, 1] bcast_S1x128_S10000x128_0_1 : (⟨S1x128, .f32⟩ : BufTy).Contents (Elt F) → (⟨S10000x128, .f32⟩ : BufTy).Contents (Elt F)),
    StableHlo.binary main_v25 main_v30 main_v31 (mulf : (⟨S10000x128, .f32⟩ : BufTy).Contents (Elt F) → (⟨S10000x128, .f32⟩ : BufTy).Contents (Elt F) → (⟨S10000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S10000x128 ![0, 1] bcast_S1x128_S10000x128_0_1 : (⟨S1x128, .f32⟩ : BufTy).Contents (Elt F) → (⟨S10000x128, .f32⟩ : BufTy).Contents (Elt F)),
    StableHlo.binary main_v31 main_v33 main_v34 (mulf : (⟨S10000x128, .f32⟩ : BufTy).Contents (Elt F) → (⟨S10000x128, .f32⟩ : BufTy).Contents (Elt F) → (⟨S10000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S10000x128 ![0, 1] bcast_S1x128_S10000x128_0_1 : (⟨S1x128, .f32⟩ : BufTy).Contents (Elt F) → (⟨S10000x128, .f32⟩ : BufTy).Contents (Elt F)),
    StableHlo.binary main_v34 main_v36 main_v37 (addf : (⟨S10000x128, .f32⟩ : BufTy).Contents (Elt F) → (⟨S10000x128, .f32⟩ : BufTy).Contents (Elt F) → (⟨S10000x128, .f32⟩ : BufTy).Contents (Elt F)),
    StableHlo.TRef.nullary main_call1.cst (constant S_ .f32 0x00000000#32),
    StableHlo.TRef.unary main_call1.cst main_call1.v0 (broadcastInDim S10000x128 ![] bcast_S_S10000x128),
    StableHlo.TRef.binary (.of main_v37 : StableHlo.TRef sig ⟨S10000x128, .f32⟩) main_call1.v0 main_call1.v1 maximumf,
    StableHlo.binary main_v38 main_arg6 main_v39 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S10000x128 ![0, 1] bcast_S1x128_S10000x128_0_1 : (⟨S1x128, .f32⟩ : BufTy).Contents (Elt F) → (⟨S10000x128, .f32⟩ : BufTy).Contents (Elt F)),
    StableHlo.binary main_v39 main_v41 main_v42 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v42 : StableHlo.TRef sig ⟨S10000x128, .f32⟩) main_call2.v0 main_call2.v1 maximumf ]

theorem opsBN1_sub : (opsBN1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsBN1_fresh : (opsBN1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- Operations 77 … 93: the second layer's neighbour sum. -/
abbrev opsAgg2 : List (HloOp τ sig (Elt F)) :=
  [ StableHlo.unary main_arg1 main_v44 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v44 main_v45 rfl shapeCasts_S1x640000_S640000,
    StableHlo.unary main_arg1 main_v46 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v46 main_v47 rfl shapeCasts_S1x640000_S640000,
    StableHlo.nullary main_c_5 (constantI S_ 32 0#32),
    StableHlo.unary main_c_5 main_v48 (broadcastInDim S640000 ![] bcast_S_S640000 : (⟨S_, .i32⟩ : BufTy).Contents (Elt F) → (⟨S640000, .i32⟩ : BufTy).Contents (Elt F)),
    StableHlo.binary main_v45 main_v48 main_v49 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 10000#32),
    StableHlo.unary main_c_6 main_v50 (broadcastInDim S640000 ![] bcast_S_S640000 : (⟨S_, .i32⟩ : BufTy).Contents (Elt F) → (⟨S640000, .i32⟩ : BufTy).Contents (Elt F)),
    StableHlo.binary main_v45 main_v50 main_v51 (addi : (⟨S640000, .i32⟩ : BufTy).Contents (Elt F) → (⟨S640000, .i32⟩ : BufTy).Contents (Elt F) → (⟨S640000, .i32⟩ : BufTy).Contents (Elt F)),
    StableHlo.ternary main_v49 main_v51 main_v45 main_v52 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v52 main_v53 (broadcastInDim S640000x1 ![0] bcast_S640000_S640000x1_0 : (⟨S640000, .i32⟩ : BufTy).Contents (Elt F) → (⟨S640000x1, .i32⟩ : BufTy).Contents (Elt F)),
    StableHlo.binary main_v43 main_v53 main_v54 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    StableHlo.nullary main_cst_7 (constant S_ .f32 0x00000000#32),
    StableHlo.unary main_cst_7 main_v55 (broadcastInDim S10000x128 ![] bcast_S_S10000x128 : (⟨S_, .f32⟩ : BufTy).Contents (Elt F) → (⟨S10000x128, .f32⟩ : BufTy).Contents (Elt F)),
    StableHlo.unary main_v47 main_v56 (broadcastInDim S640000x1 ![0] bcast_S640000_S640000x1_0 : (⟨S640000, .i32⟩ : BufTy).Contents (Elt F) → (⟨S640000x1, .i32⟩ : BufTy).Contents (Elt F)),
    StableHlo.ternary main_v55 main_v56 main_v54 main_v57 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) ]

theorem opsAgg2_sub : (opsAgg2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

theorem opsAgg2_fresh : (opsAgg2 : List (HloOp τ sig (Elt F))).Forall fun op => op.fresh = ∅ :=
  ⟨rfl, rfl, rfl, rfl, rfl, rfl, rfl, rfl, rfl, rfl, rfl, rfl, rfl, rfl, rfl, rfl, rfl⟩

/-- Operations 94 … 98: the second layer's first affine map. -/
abbrev opsLin2 : List (HloOp τ sig (Elt F)) :=
  [ StableHlo.binary main_v57 main_v43 main_v58 (addf : (⟨S10000x128, .f32⟩ : BufTy).Contents (Elt F) → (⟨S10000x128, .f32⟩ : BufTy).Contents (Elt F) → (⟨S10000x128, .f32⟩ : BufTy).Contents (Elt F)),
    StableHlo.binary main_v58 main_arg8 main_v59 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg9 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S10000x128 ![0, 1] bcast_S1x128_S10000x128_0_1 : (⟨S1x128, .f32⟩ : BufTy).Contents (Elt F) → (⟨S10000x128, .f32⟩ : BufTy).Contents (Elt F)),
    StableHlo.binary main_v59 main_v61 main_v62 (addf : (⟨S10000x128, .f32⟩ : BufTy).Contents (Elt F) → (⟨S10000x128, .f32⟩ : BufTy).Contents (Elt F) → (⟨S10000x128, .f32⟩ : BufTy).Contents (Elt F)) ]

theorem opsLin2_sub : (opsLin2 : List (HloOp τ sig (Elt F))).Forall fun op => op.bufs ⊆ tcRefs τ sig :=
  ⟨binary_bufs_sub .., binary_bufs_sub .., unary_bufs_sub .., unary_bufs_sub .., binary_bufs_sub ..⟩

theorem opsLin2_fresh : (opsLin2 : List (HloOp τ sig (Elt F))).Forall fun op => op.fresh = ∅ :=
  ⟨rfl, rfl, rfl, rfl, rfl⟩

/-- Operations 99 … 104: the second layer's column mean (and the variance's correction count, zero). -/
abbrev opsMu2 : List (HloOp τ sig (Elt F)) :=
  [ StableHlo.nullary main_cst_8 (constant S_ .f32 0x00000000#32),
    StableHlo.binary main_v62 main_cst_8 main_v63 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_9 (constant S_ .f32 0x461C4000#32),
    StableHlo.unary main_cst_9 main_v64 (broadcastInDim S128 ![] bcast_S_S128 : (⟨S_, .f32⟩ : BufTy).Contents (Elt F) → (⟨S128, .f32⟩ : BufTy).Contents (Elt F)),
    StableHlo.binary main_v63 main_v64 main_v65 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32) ]

theorem opsMu2_sub : (opsMu2 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

theorem opsMu2_fresh : (opsMu2 : List (HloOp τ sig (Elt F))).Forall fun op => op.fresh = ∅ :=
  ⟨rfl, rfl, rfl, rfl, rfl, rfl⟩

/-- Operations 105 … 126: the second layer's column variance, guarded. -/
abbrev opsVar2 : List (HloOp τ sig (Elt F)) :=
  [ StableHlo.TRef.nullary main_call3.cst (constant S_ .f32 0x00000000#32),
    StableHlo.TRef.binary (.of main_v62 : StableHlo.TRef sig ⟨S10000x128, .f32⟩) main_call3.cst main_call3.v0 (fun x v => Host.reduceAdd x v reducesTo_S10000x128_S128_d0 h_S_),
    StableHlo.TRef.unary main_call3.v0 main_call3.v1 (broadcastInDim S1x128 ![1] bcast_S128_S1x128_1),
    StableHlo.TRef.nullary main_call3.cst_0 (constant S_ .f32 0x461C4000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S10000x128 ![0, 1] bcast_S1x128_S10000x128_0_1),
    StableHlo.TRef.binary (.of main_v62 : StableHlo.TRef sig ⟨S10000x128, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x461C4000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S10000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

theorem opsVar2_sub : (opsVar2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsVar2_fresh : (opsVar2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Operations 127 … 152: the second layer's normalisation, rectification, second affine map and rectification. -/
abbrev opsBN2 : List (HloOp τ sig (Elt F)) :=
  [ StableHlo.unary main_v65 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S10000x128 ![0, 1] bcast_S1x128_S10000x128_0_1 : (⟨S1x128, .f32⟩ : BufTy).Contents (Elt F) → (⟨S10000x128, .f32⟩ : BufTy).Contents (Elt F)),
    StableHlo.binary main_v62 main_v68 main_v69 (subf : (⟨S10000x128, .f32⟩ : BufTy).Contents (Elt F) → (⟨S10000x128, .f32⟩ : BufTy).Contents (Elt F) → (⟨S10000x128, .f32⟩ : BufTy).Contents (Elt F)),
    StableHlo.nullary main_cst_11 (constant S_ .f32 0x3727C5AC#32),
    StableHlo.unary main_cst_11 main_v70 (broadcastInDim S128 ![] bcast_S_S128 : (⟨S_, .f32⟩ : BufTy).Contents (Elt F) → (⟨S128, .f32⟩ : BufTy).Contents (Elt F)),
    StableHlo.binary main_v66 main_v70 main_v71 (addf : (⟨S128, .f32⟩ : BufTy).Contents (Elt F) → (⟨S128, .f32⟩ : BufTy).Contents (Elt F) → (⟨S128, .f32⟩ : BufTy).Contents (Elt F)),
    StableHlo.unary main_v71 main_v72 (Host.rsqrt : (⟨S128, .f32⟩ : BufTy).Contents (Elt F) → (⟨S128, .f32⟩ : BufTy).Contents (Elt F)),
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S10000x128 ![0, 1] bcast_S1x128_S10000x128_0_1 : (⟨S1x128, .f32⟩ : BufTy).Contents (Elt F) → (⟨S10000x128, .f32⟩ : BufTy).Contents (Elt F)),
    StableHlo.binary main_v69 main_v74 main_v75 (mulf : (⟨S10000x128, .f32⟩ : BufTy).Contents (Elt F) → (⟨S10000x128, .f32⟩ : BufTy).Contents (Elt F) → (⟨S10000x128, .f32⟩ : BufTy).Contents (Elt F)),
    StableHlo.unary main_arg10 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S10000x128 ![0, 1] bcast_S1x128_S10000x128_0_1 : (⟨S1x128, .f32⟩ : BufTy).Contents (Elt F) → (⟨S10000x128, .f32⟩ : BufTy).Contents (Elt F)),
    StableHlo.binary main_v75 main_v77 main_v78 (mulf : (⟨S10000x128, .f32⟩ : BufTy).Contents (Elt F) → (⟨S10000x128, .f32⟩ : BufTy).Contents (Elt F) → (⟨S10000x128, .f32⟩ : BufTy).Contents (Elt F)),
    StableHlo.unary main_arg11 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S10000x128 ![0, 1] bcast_S1x128_S10000x128_0_1 : (⟨S1x128, .f32⟩ : BufTy).Contents (Elt F) → (⟨S10000x128, .f32⟩ : BufTy).Contents (Elt F)),
    StableHlo.binary main_v78 main_v80 main_v81 (addf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v81 : StableHlo.TRef sig ⟨S10000x128, .f32⟩) main_call4.v0 main_call4.v1 maximumf,
    StableHlo.binary main_v82 main_arg12 main_v83 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg13 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S10000x128 ![0, 1] bcast_S1x128_S10000x128_0_1 : (⟨S1x128, .f32⟩ : BufTy).Contents (Elt F) → (⟨S10000x128, .f32⟩ : BufTy).Contents (Elt F)),
    StableHlo.binary main_v83 main_v85 main_v86 (addf : (⟨S10000x128, .f32⟩ : BufTy).Contents (Elt F) → (⟨S10000x128, .f32⟩ : BufTy).Contents (Elt F) → (⟨S10000x128, .f32⟩ : BufTy).Contents (Elt F)),
    StableHlo.TRef.nullary main_call5.cst (constant S_ .f32 0x00000000#32),
    StableHlo.TRef.unary main_call5.cst main_call5.v0 (broadcastInDim S10000x128 ![] bcast_S_S10000x128),
    StableHlo.TRef.binary (.of main_v86 : StableHlo.TRef sig ⟨S10000x128, .f32⟩) main_call5.v0 main_call5.v1 maximumf ]

theorem opsBN2_sub : (opsBN2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsBN2_fresh : (opsBN2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- Operations 153 … 171: the class scores and their row-wise log-softmax. -/
abbrev opsFin : List (HloOp τ sig (Elt F)) :=
  [ StableHlo.binary main_v87 main_arg14 main_v88 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    StableHlo.unary main_arg15 main_v89 (broadcastInDim S1x40 ![1] bcast_S40_S1x40_1 : (⟨S40, .f32⟩ : BufTy).Contents (Elt F) → (⟨S1x40, .f32⟩ : BufTy).Contents (Elt F)),
    StableHlo.unary main_v89 main_v90 (broadcastInDim S10000x40 ![0, 1] bcast_S1x40_S10000x40_0_1 : (⟨S1x40, .f32⟩ : BufTy).Contents (Elt F) → (⟨S10000x40, .f32⟩ : BufTy).Contents (Elt F)),
    StableHlo.binary main_v88 main_v90 main_v91 (addf : (⟨S10000x40, .f32⟩ : BufTy).Contents (Elt F) → (⟨S10000x40, .f32⟩ : BufTy).Contents (Elt F) → (⟨S10000x40, .f32⟩ : BufTy).Contents (Elt F)),
    StableHlo.TRef.nullary main_call6.cst (constant S_ .f32 0xFF800000#32),
    StableHlo.TRef.binary (.of main_v91 : StableHlo.TRef sig ⟨S10000x40, .f32⟩) main_call6.cst main_call6.v0 (fun x v => Host.reduce FloatOps.maximumf x v reducesTo_S10000x40_S10000_d1 h_S_),
    StableHlo.TRef.nullary main_call6.cst_0 (constant S_ .f32 0xFF800000#32),
    StableHlo.TRef.unary main_call6.cst_0 main_call6.v1 (broadcastInDim S10000 ![] bcast_S_S10000),
    StableHlo.TRef.binary main_call6.v1 main_call6.v0 main_call6.v2 maximumf,
    StableHlo.TRef.unary main_call6.v2 main_call6.v3 (broadcastInDim S10000x1 ![0] bcast_S10000_S10000x1_0),
    StableHlo.TRef.unary main_call6.v3 main_call6.v4 (broadcastInDim S10000x40 ![0, 1] bcast_S10000x1_S10000x40_0_1),
    StableHlo.TRef.binary (.of main_v91 : StableHlo.TRef sig ⟨S10000x40, .f32⟩) main_call6.v4 main_call6.v5 subf,
    StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S10000x40_S10000_d1 h_S_),
    StableHlo.TRef.unary main_call6.v7 main_call6.v8 (broadcastInDim S10000x1 ![0] bcast_S10000_S10000x1_0),
    StableHlo.TRef.unary main_call6.v8 main_call6.v9 Host.log,
    StableHlo.TRef.unary main_call6.v9 main_call6.v10 (broadcastInDim S10000x40 ![0, 1] bcast_S10000x1_S10000x40_0_1),
    StableHlo.TRef.binary main_call6.v5 main_call6.v10 main_call6.v11 subf ]

theorem opsFin_sub : (opsFin : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsFin_fresh : (opsFin : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Every operation of the entry function in order, the callees' inlined: 171 of them. -/
abbrev ops : List (HloOp τ sig (Elt F)) :=
  opsAgg1 ++ (opsLin1 ++ (opsMu1 ++ (opsVar1 ++ (opsBN1 ++ (opsAgg2 ++ (opsLin2 ++ (opsMu2 ++ (opsVar2 ++ (opsBN2 ++ (opsFin))))))))))

theorem ops_sub : (ops : List (HloOp τ sig (Elt F))).Forall fun op => op.bufs ⊆ tcRefs τ sig :=
  List.forall_append.mpr ⟨opsAgg1_sub, List.forall_append.mpr ⟨opsLin1_sub, List.forall_append.mpr ⟨opsMu1_sub, List.forall_append.mpr ⟨opsVar1_sub, List.forall_append.mpr ⟨opsBN1_sub, List.forall_append.mpr ⟨opsAgg2_sub, List.forall_append.mpr ⟨opsLin2_sub, List.forall_append.mpr ⟨opsMu2_sub, List.forall_append.mpr ⟨opsVar2_sub, List.forall_append.mpr ⟨opsBN2_sub, opsFin_sub⟩⟩⟩⟩⟩⟩⟩⟩⟩⟩

theorem ops_fresh : (ops : List (HloOp τ sig (Elt F))).Forall fun op => op.fresh = ∅ :=
  List.forall_append.mpr ⟨opsAgg1_fresh, List.forall_append.mpr ⟨opsLin1_fresh, List.forall_append.mpr ⟨opsMu1_fresh, List.forall_append.mpr ⟨opsVar1_fresh, List.forall_append.mpr ⟨opsBN1_fresh, List.forall_append.mpr ⟨opsAgg2_fresh, List.forall_append.mpr ⟨opsLin2_fresh, List.forall_append.mpr ⟨opsMu2_fresh, List.forall_append.mpr ⟨opsVar2_fresh, List.forall_append.mpr ⟨opsBN2_fresh, opsFin_fresh⟩⟩⟩⟩⟩⟩⟩⟩⟩⟩

-- one hundred and seventy-one binds re-associated: the rewrite under the chain recurses once per statement
set_option maxRecDepth 16384 in
set_option maxHeartbeats 4000000 in
/-- The entry function is that straight line: the functions' definitions unfolded at their calls, both sides are one
    chain of steps once sequencing is re-associated. -/
theorem main_eq (c : Dev nD) : main (F := F) c = seq ops := by
  simp only [main, main_part0, main_part1, fn_var.body, fn_where.body, fn_relu.body, fn_log_softmax.body, seq, bind_assoc, pure_bind]
  rfl

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of the entry function
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RV

end
-- ==== Proof.RefTerms.lean ====
/-
  The reference program's values as pure terms of its arguments, stage by stage: the neighbour sum (a gather of the
  sources' rows scattered with addition onto the destinations' rows), the affine map after it, the column mean and
  variance, the normalise–rectify–affine–rectify stage, the class scores with their row-wise log-softmax, and their
  composition into two layers and a head.
-/
import proofs.«423809_j45028437131840_1_alg».proof.Proof.Gen.ReferenceIdeal
import Idealize.ShloMosaic.PureOps.Ideal

noncomputable section

namespace Cert.ReferenceIdeal.RV

open Cert.ReferenceIdeal Cert.ReferenceIdeal.Facts₀ Cert.ReferenceIdeal.Facts Idealize.ShloMosaic

/-- Row 0 of the edge list (the sources) as a vector. -/
def srcRow (ei : IVec S2x640000 32) : IVec S640000 32 :=
  fun i => shapeCast S640000 (extractStridedSlice S1x640000 ![0, 0] ei slices_S2x640000_S1x640000_0_0) shapeCasts_S1x640000_S640000 i
/-- Row 1 of the edge list (the destinations) as a vector. -/
def dstRow (ei : IVec S2x640000 32) : IVec S640000 32 :=
  fun i => shapeCast S640000 (extractStridedSlice S1x640000 ![1, 0] ei slices_S2x640000_S1x640000_1_0) shapeCasts_S1x640000_S640000 i
/-- A negative index counted from the end: `v < 0 ? v + 10000 : v`. -/
def wrap (v : IVec S640000 32) : IVec S640000 32 :=
  select (cmpi .slt v (broadcastInDim S640000 ![] bcast_S_S640000 (constantI S_ 32 0#32)))
    (addi v (broadcastInDim S640000 ![] bcast_S_S640000 (constantI S_ 32 10000#32))) v

/-- The neighbour sum: the sources' rows of `h`, added onto the destinations' rows of a zero array. -/
def refAgg (ei : IVec S2x640000 32) (h : FVec Ideal S10000x128 .f32) : FVec Ideal S10000x128 .f32 :=
  Host.scatterAdd scatter_S10000x128_S640000x1_S640000x128_1_0_0_1
    (broadcastInDim S10000x128 ![] bcast_S_S10000x128 (constant S_ .f32 0x00000000#32))
    (broadcastInDim S640000x1 ![0] bcast_S640000_S640000x1_0 (dstRow ei))
    (Host.gather gather_S10000x128_S640000x1_S640000x128_1_0_n_n_0_1_1128 h
      (broadcastInDim S640000x1 ![0] bcast_S640000_S640000x1_0 (wrap (srcRow ei))))

/-- `(a + h) · W + b`. -/
def refLin (a h : FVec Ideal S10000x128 .f32) (W : FVec Ideal S128x128 .f32) (b : FVec Ideal S128 .f32) : FVec Ideal S10000x128 .f32 :=
  addf (Host.dotGeneral dot_S10000x128_S128x128_S10000x128_1_0_0_1_n_n none (addf a h) W)
    (broadcastInDim S10000x128 ![0, 1] bcast_S1x128_S10000x128_0_1 (broadcastInDim S1x128 ![1] bcast_S128_S1x128_1 b))

/-- The column mean: the column sums divided by 10000. -/
def MUr (lin : FVec Ideal S10000x128 .f32) : FVec Ideal S128 .f32 :=
  Host.divf (Host.reduceAdd lin (constant S_ .f32 0x00000000#32) reducesTo_S10000x128_S128_d0 h_S_)
    (broadcastInDim S128 ![] bcast_S_S128 (constant S_ .f32 0x461C4000#32))

/-- The count the variance divides by: `10000 - 0`. -/
def cntR : FVec Ideal S_ .f32 := subf (constant S_ .f32 0x461C4000#32) (sitofp .f32 (constantI S_ 32 0#32))

/-- The column variance: the mean of the squared deviations from the column mean, guarded by "the count is positive". -/
def VARr (lin : FVec Ideal S10000x128 .f32) : FVec Ideal S128 .f32 :=
  select (broadcastInDim S128 ![] bcast_S_S128 (cmpf .ogt cntR (constant S_ .f32 0x00000000#32)))
    (Host.divf
      (Host.reduceAdd
        (mulf
          (subf lin (broadcastInDim S10000x128 ![0, 1] bcast_S1x128_S10000x128_0_1
            (Host.divf (broadcastInDim S1x128 ![1] bcast_S128_S1x128_1
                (Host.reduceAdd lin (constant S_ .f32 0x00000000#32) reducesTo_S10000x128_S128_d0 h_S_))
              (broadcastInDim S1x128 ![] bcast_S_S1x128 (constant S_ .f32 0x461C4000#32)))))
          (subf lin (broadcastInDim S10000x128 ![0, 1] bcast_S1x128_S10000x128_0_1
            (Host.divf (broadcastInDim S1x128 ![1] bcast_S128_S1x128_1
                (Host.reduceAdd lin (constant S_ .f32 0x00000000#32) reducesTo_S10000x128_S128_d0 h_S_))
              (broadcastInDim S1x128 ![] bcast_S_S1x128 (constant S_ .f32 0x461C4000#32))))))
        (constant S_ .f32 0x00000000#32) reducesTo_S10000x128_S128_d0 h_S_)
      (broadcastInDim S128 ![] bcast_S_S128 cntR))
    (broadcastInDim S128 ![] bcast_S_S128 (id (constant S_ .f32 0x7FC00000#32)))

/-- A length-128 vector repeated down the 10000 rows. -/
def rows (v : FVec Ideal S128 .f32) : FVec Ideal S10000x128 .f32 :=
  broadcastInDim S10000x128 ![0, 1] bcast_S1x128_S10000x128_0_1 (broadcastInDim S1x128 ![1] bcast_S128_S1x128_1 v)

/-- `max x 0`. -/
def relu (x : FVec Ideal S10000x128 .f32) : FVec Ideal S10000x128 .f32 :=
  maximumf x (broadcastInDim S10000x128 ![] bcast_S_S10000x128 (constant S_ .f32 0x00000000#32))

/-- Normalise by the column statistics, scale and shift, rectify, affine map, rectify. -/
def refBN (lin : FVec Ideal S10000x128 .f32) (mu var g be : FVec Ideal S128 .f32) (Wb : FVec Ideal S128x128 .f32)
    (bb : FVec Ideal S128 .f32) : FVec Ideal S10000x128 .f32 :=
  relu (addf (Host.dotGeneral dot_S10000x128_S128x128_S10000x128_1_0_0_1_n_n none
      (relu (addf (mulf (mulf (subf lin (rows mu))
          (rows (Host.rsqrt (addf var (broadcastInDim S128 ![] bcast_S_S128 (constant S_ .f32 0x3727C5AC#32))))))
          (rows g)) (rows be))) Wb) (rows bb))

/-- The class scores and their row-wise log-softmax. -/
def refFin (h : FVec Ideal S10000x128 .f32) (Wfc : FVec Ideal S128x40 .f32) (bfc : FVec Ideal S40 .f32) : FVec Ideal S10000x40 .f32 :=
  let logits : FVec Ideal S10000x40 .f32 :=
    addf (Host.dotGeneral dot_S10000x128_S128x40_S10000x40_1_0_0_1_n_n none h Wfc)
      (broadcastInDim S10000x40 ![0, 1] bcast_S1x40_S10000x40_0_1 (broadcastInDim S1x40 ![1] bcast_S40_S1x40_1 bfc))
  let shifted : FVec Ideal S10000x40 .f32 :=
    subf logits (broadcastInDim S10000x40 ![0, 1] bcast_S10000x1_S10000x40_0_1 (broadcastInDim S10000x1 ![0] bcast_S10000_S10000x1_0
      (maximumf (broadcastInDim S10000 ![] bcast_S_S10000 (constant S_ .f32 0xFF800000#32))
        (Host.reduce FloatOps.maximumf logits (constant S_ .f32 0xFF800000#32) reducesTo_S10000x40_S10000_d1 h_S_))))
  subf shifted (broadcastInDim S10000x40 ![0, 1] bcast_S10000x1_S10000x40_0_1
    (Host.log (broadcastInDim S10000x1 ![0] bcast_S10000_S10000x1_0
      (Host.reduceAdd (Host.exp shifted) (constant S_ .f32 0x00000000#32) reducesTo_S10000x40_S10000_d1 h_S_))))

/-- One layer. -/
def refLayer (ei : IVec S2x640000 32) (h : FVec Ideal S10000x128 .f32) (Wa : FVec Ideal S128x128 .f32) (ba g be : FVec Ideal S128 .f32)
    (Wb : FVec Ideal S128x128 .f32) (bb : FVec Ideal S128 .f32) : FVec Ideal S10000x128 .f32 :=
  refBN (refLin (refAgg ei h) h Wa ba) (MUr (refLin (refAgg ei h) h Wa ba)) (VARr (refLin (refAgg ei h) h Wa ba)) g be Wb bb

/-- The whole reference. -/
def refOut (ei : IVec S2x640000 32) (x : FVec Ideal S10000x128 .f32)
    (W1a : FVec Ideal S128x128 .f32) (b1a g1 be1 : FVec Ideal S128 .f32) (W1b : FVec Ideal S128x128 .f32) (b1b : FVec Ideal S128 .f32)
    (W2a : FVec Ideal S128x128 .f32) (b2a g2 be2 : FVec Ideal S128 .f32) (W2b : FVec Ideal S128x128 .f32) (b2b : FVec Ideal S128 .f32)
    (Wfc : FVec Ideal S128x40 .f32) (bfc : FVec Ideal S40 .f32) : FVec Ideal S10000x40 .f32 :=
  refFin (refLayer ei (refLayer ei x W1a b1a g1 be1 W1b b1b) W2a b2a g2 be2 W2b b2b) Wfc bfc

end Cert.ReferenceIdeal.RV

end
-- ==== Proof.RefRead.lean ====
/-
  The reference's fold read at its result and at its arguments.  Each stage's operations compose to the stage's
  pure term of the buffers it reads (the neighbour sum, the affine map, the column mean and variance, the
  normalise–rectify–affine–rectify stage, the class scores with their log-softmax); a buffer a stage does not write
  is carried through it; composing the eleven stages gives the whole network's term of the sixteen arguments, and
  no stage writes an argument.
-/
import proofs.«423809_j45028437131840_1_alg».proof.Proof.RefRun
import proofs.«423809_j45028437131840_1_alg».proof.Proof.RefTerms
import Idealize.ShloMosaic.Lib.StableHlo.Run
import Idealize.ShloMosaic.Lib.Pipeline.Frame

noncomputable section

namespace Cert.ReferenceIdeal.RV

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The buffers the operations of `opsAgg1` write. -/
abbrev opsAgg1_W : List (Ref sig .tc) := [main_v0, main_v1, main_v2, main_v3, main_c, main_v4, main_v5, main_c_0, main_v6, main_v7, main_v8, main_v9, main_v10, main_cst, main_v11, main_v12, main_v13]
theorem opsAgg1_writes : (opsAgg1 : List (HloOp τ sig (Elt F))).Forall fun op => op.writes ⊆ (opsAgg1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsAgg1` does not write keeps its contents through it. -/
theorem opsAgg1_keep (W : Valuation τ sig (Elt F)) (r : Ref sig .tc) (h : r ∉ opsAgg1_W) :
    after opsAgg1 W (no_index (Proc.devRef .tc r)) = W (Proc.devRef .tc r) :=
  after_of_writes_sub opsAgg1 _ opsAgg1_writes h

/-- The buffers the operations of `opsLin1` write. -/
abbrev opsLin1_W : List (Ref sig .tc) := [main_v14, main_v15, main_v16, main_v17, main_v18]
theorem opsLin1_writes : (opsLin1 : List (HloOp τ sig (Elt F))).Forall fun op => op.writes ⊆ (opsLin1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsLin1` does not write keeps its contents through it. -/
theorem opsLin1_keep (W : Valuation τ sig (Elt F)) (r : Ref sig .tc) (h : r ∉ opsLin1_W) :
    after opsLin1 W (no_index (Proc.devRef .tc r)) = W (Proc.devRef .tc r) :=
  after_of_writes_sub opsLin1 _ opsLin1_writes h

/-- The buffers the operations of `opsMu1` write. -/
abbrev opsMu1_W : List (Ref sig .tc) := [main_cst_1, main_v19, main_cst_2, main_v20, main_v21, main_c_3]
theorem opsMu1_writes : (opsMu1 : List (HloOp τ sig (Elt F))).Forall fun op => op.writes ⊆ (opsMu1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsMu1` does not write keeps its contents through it. -/
theorem opsMu1_keep (W : Valuation τ sig (Elt F)) (r : Ref sig .tc) (h : r ∉ opsMu1_W) :
    after opsMu1 W (no_index (Proc.devRef .tc r)) = W (Proc.devRef .tc r) :=
  after_of_writes_sub opsMu1 _ opsMu1_writes h

/-- The buffers the operations of `opsVar1` write. -/
abbrev opsVar1_W : List (Ref sig .tc) := [main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem opsVar1_writes : (opsVar1 : List (HloOp τ sig (Elt F))).Forall fun op => op.writes ⊆ (opsVar1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsVar1` does not write keeps its contents through it. -/
theorem opsVar1_keep (W : Valuation τ sig (Elt F)) (r : Ref sig .tc) (h : r ∉ opsVar1_W) :
    after opsVar1 W (no_index (Proc.devRef .tc r)) = W (Proc.devRef .tc r) :=
  after_of_writes_sub opsVar1 _ opsVar1_writes h

/-- The buffers the operations of `opsBN1` write. -/
abbrev opsBN1_W : List (Ref sig .tc) := [main_v23, main_v24, main_v25, main_cst_4, main_v26, main_v27, main_v28, main_v29, main_v30, main_v31, main_v32, main_v33, main_v34, main_v35, main_v36, main_v37, main_call1.cst.ref, main_call1.v0.ref, main_call1.v1.ref, main_v39, main_v40, main_v41, main_v42, main_call2.cst.ref, main_call2.v0.ref, main_call2.v1.ref]
theorem opsBN1_writes : (opsBN1 : List (HloOp τ sig (Elt F))).Forall fun op => op.writes ⊆ (opsBN1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsBN1` does not write keeps its contents through it. -/
theorem opsBN1_keep (W : Valuation τ sig (Elt F)) (r : Ref sig .tc) (h : r ∉ opsBN1_W) :
    after opsBN1 W (no_index (Proc.devRef .tc r)) = W (Proc.devRef .tc r) :=
  after_of_writes_sub opsBN1 _ opsBN1_writes h

/-- The buffers the operations of `opsAgg2` write. -/
abbrev opsAgg2_W : List (Ref sig .tc) := [main_v44, main_v45, main_v46, main_v47, main_c_5, main_v48, main_v49, main_c_6, main_v50, main_v51, main_v52, main_v53, main_v54, main_cst_7, main_v55, main_v56, main_v57]
theorem opsAgg2_writes : (opsAgg2 : List (HloOp τ sig (Elt F))).Forall fun op => op.writes ⊆ (opsAgg2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsAgg2` does not write keeps its contents through it. -/
theorem opsAgg2_keep (W : Valuation τ sig (Elt F)) (r : Ref sig .tc) (h : r ∉ opsAgg2_W) :
    after opsAgg2 W (no_index (Proc.devRef .tc r)) = W (Proc.devRef .tc r) :=
  after_of_writes_sub opsAgg2 _ opsAgg2_writes h

/-- The buffers the operations of `opsLin2` write. -/
abbrev opsLin2_W : List (Ref sig .tc) := [main_v58, main_v59, main_v60, main_v61, main_v62]
theorem opsLin2_writes : (opsLin2 : List (HloOp τ sig (Elt F))).Forall fun op => op.writes ⊆ (opsLin2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsLin2` does not write keeps its contents through it. -/
theorem opsLin2_keep (W : Valuation τ sig (Elt F)) (r : Ref sig .tc) (h : r ∉ opsLin2_W) :
    after opsLin2 W (no_index (Proc.devRef .tc r)) = W (Proc.devRef .tc r) :=
  after_of_writes_sub opsLin2 _ opsLin2_writes h

/-- The buffers the operations of `opsMu2` write. -/
abbrev opsMu2_W : List (Ref sig .tc) := [main_cst_8, main_v63, main_cst_9, main_v64, main_v65, main_c_10]
theorem opsMu2_writes : (opsMu2 : List (HloOp τ sig (Elt F))).Forall fun op => op.writes ⊆ (opsMu2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsMu2` does not write keeps its contents through it. -/
theorem opsMu2_keep (W : Valuation τ sig (Elt F)) (r : Ref sig .tc) (h : r ∉ opsMu2_W) :
    after opsMu2 W (no_index (Proc.devRef .tc r)) = W (Proc.devRef .tc r) :=
  after_of_writes_sub opsMu2 _ opsMu2_writes h

/-- The buffers the operations of `opsVar2` write. -/
abbrev opsVar2_W : List (Ref sig .tc) := [main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref]
theorem opsVar2_writes : (opsVar2 : List (HloOp τ sig (Elt F))).Forall fun op => op.writes ⊆ (opsVar2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsVar2` does not write keeps its contents through it. -/
theorem opsVar2_keep (W : Valuation τ sig (Elt F)) (r : Ref sig .tc) (h : r ∉ opsVar2_W) :
    after opsVar2 W (no_index (Proc.devRef .tc r)) = W (Proc.devRef .tc r) :=
  after_of_writes_sub opsVar2 _ opsVar2_writes h

/-- The buffers the operations of `opsBN2` write. -/
abbrev opsBN2_W : List (Ref sig .tc) := [main_v67, main_v68, main_v69, main_cst_11, main_v70, main_v71, main_v72, main_v73, main_v74, main_v75, main_v76, main_v77, main_v78, main_v79, main_v80, main_v81, main_call4.cst.ref, main_call4.v0.ref, main_call4.v1.ref, main_v83, main_v84, main_v85, main_v86, main_call5.cst.ref, main_call5.v0.ref, main_call5.v1.ref]
theorem opsBN2_writes : (opsBN2 : List (HloOp τ sig (Elt F))).Forall fun op => op.writes ⊆ (opsBN2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsBN2` does not write keeps its contents through it. -/
theorem opsBN2_keep (W : Valuation τ sig (Elt F)) (r : Ref sig .tc) (h : r ∉ opsBN2_W) :
    after opsBN2 W (no_index (Proc.devRef .tc r)) = W (Proc.devRef .tc r) :=
  after_of_writes_sub opsBN2 _ opsBN2_writes h

/-- The buffers the operations of `opsFin` write. -/
abbrev opsFin_W : List (Ref sig .tc) := [main_v88, main_v89, main_v90, main_v91, main_call6.cst.ref, main_call6.v0.ref, main_call6.cst_0.ref, main_call6.v1.ref, main_call6.v2.ref, main_call6.v3.ref, main_call6.v4.ref, main_call6.v5.ref, main_call6.v6.ref, main_call6.cst_1.ref, main_call6.v7.ref, main_call6.v8.ref, main_call6.v9.ref, main_call6.v10.ref, main_call6.v11.ref]
theorem opsFin_writes : (opsFin : List (HloOp τ sig (Elt F))).Forall fun op => op.writes ⊆ (opsFin_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsFin` does not write keeps its contents through it. -/
theorem opsFin_keep (W : Valuation τ sig (Elt F)) (r : Ref sig .tc) (h : r ∉ opsFin_W) :
    after opsFin W (no_index (Proc.devRef .tc r)) = W (Proc.devRef .tc r) :=
  after_of_writes_sub opsFin _ opsFin_writes h

attribute [local irreducible] Host.gather Host.scatterAdd Host.reduce Host.reduceAdd in
set_option maxRecDepth 8192 in
set_option maxHeartbeats 2000000 in
/-- The first neighbour sum, read off its operations. -/
theorem agg1_val (W : Valuation τ sig (Elt Ideal)) :
    after opsAgg1 W (no_index (Proc.devRef .tc main_v13)) = refAgg (W (Proc.devRef .tc main_arg1)) (W (Proc.devRef .tc main_arg0)) := by
  simp only [opsAgg1]
  after_results_simp
  rfl
attribute [local irreducible] Host.gather Host.scatterAdd Host.reduce Host.reduceAdd in
set_option maxRecDepth 8192 in
set_option maxHeartbeats 2000000 in
/-- The first layer's first affine map. -/
theorem lin1_val (W : Valuation τ sig (Elt Ideal)) :
    after opsLin1 W (no_index (Proc.devRef .tc main_v18)) = refLin (W (Proc.devRef .tc main_v13)) (W (Proc.devRef .tc main_arg0)) (W (Proc.devRef .tc main_arg2)) (W (Proc.devRef .tc main_arg3)) := by
  simp only [opsLin1]
  after_results_simp
  rfl
attribute [local irreducible] Host.gather Host.scatterAdd Host.reduce Host.reduceAdd in
set_option maxRecDepth 8192 in
set_option maxHeartbeats 2000000 in
/-- The first layer's column mean. -/
theorem mu1_val (W : Valuation τ sig (Elt Ideal)) :
    after opsMu1 W (no_index (Proc.devRef .tc main_v21)) = MUr (W (Proc.devRef .tc main_v18)) := by
  simp only [opsMu1]
  after_results_simp
  rfl
attribute [local irreducible] Host.gather Host.scatterAdd Host.reduce Host.reduceAdd in
set_option maxRecDepth 8192 in
set_option maxHeartbeats 2000000 in
/-- The first layer's column variance: the correction count is the zero written just before. -/
theorem var1_val (W : Valuation τ sig (Elt Ideal)) :
    after opsVar1 (after opsMu1 W) (no_index (Proc.devRef .tc main_v22)) = VARr (W (Proc.devRef .tc main_v18)) := by
  rw [← after_append]
  simp only [opsMu1, opsVar1, List.cons_append, List.nil_append]
  after_results_simp
  rfl
attribute [local irreducible] Host.gather Host.scatterAdd Host.reduce Host.reduceAdd in
set_option maxRecDepth 8192 in
set_option maxHeartbeats 2000000 in
/-- The first layer's normalise–rectify–affine–rectify stage. -/
theorem bn1_val (W : Valuation τ sig (Elt Ideal)) :
    after opsBN1 W (no_index (Proc.devRef .tc main_v43)) = refBN (W (Proc.devRef .tc main_v18)) (W (Proc.devRef .tc main_v21)) (W (Proc.devRef .tc main_v22)) (W (Proc.devRef .tc main_arg4)) (W (Proc.devRef .tc main_arg5)) (W (Proc.devRef .tc main_arg6)) (W (Proc.devRef .tc main_arg7)) := by
  simp only [opsBN1]
  after_results_simp
  rfl
attribute [local irreducible] Host.gather Host.scatterAdd Host.reduce Host.reduceAdd in
set_option maxRecDepth 8192 in
set_option maxHeartbeats 2000000 in
/-- The second neighbour sum. -/
theorem agg2_val (W : Valuation τ sig (Elt Ideal)) :
    after opsAgg2 W (no_index (Proc.devRef .tc main_v57)) = refAgg (W (Proc.devRef .tc main_arg1)) (W (Proc.devRef .tc main_v43)) := by
  simp only [opsAgg2]
  after_results_simp
  rfl
attribute [local irreducible] Host.gather Host.scatterAdd Host.reduce Host.reduceAdd in
set_option maxRecDepth 8192 in
set_option maxHeartbeats 2000000 in
/-- The second layer's first affine map. -/
theorem lin2_val (W : Valuation τ sig (Elt Ideal)) :
    after opsLin2 W (no_index (Proc.devRef .tc main_v62)) = refLin (W (Proc.devRef .tc main_v57)) (W (Proc.devRef .tc main_v43)) (W (Proc.devRef .tc main_arg8)) (W (Proc.devRef .tc main_arg9)) := by
  simp only [opsLin2]
  after_results_simp
  rfl
attribute [local irreducible] Host.gather Host.scatterAdd Host.reduce Host.reduceAdd in
set_option maxRecDepth 8192 in
set_option maxHeartbeats 2000000 in
/-- The second layer's column mean. -/
theorem mu2_val (W : Valuation τ sig (Elt Ideal)) :
    after opsMu2 W (no_index (Proc.devRef .tc main_v65)) = MUr (W (Proc.devRef .tc main_v62)) := by
  simp only [opsMu2]
  after_results_simp
  rfl
attribute [local irreducible] Host.gather Host.scatterAdd Host.reduce Host.reduceAdd in
set_option maxRecDepth 8192 in
set_option maxHeartbeats 2000000 in
/-- The second layer's column variance. -/
theorem var2_val (W : Valuation τ sig (Elt Ideal)) :
    after opsVar2 (after opsMu2 W) (no_index (Proc.devRef .tc main_v66)) = VARr (W (Proc.devRef .tc main_v62)) := by
  rw [← after_append]
  simp only [opsMu2, opsVar2, List.cons_append, List.nil_append]
  after_results_simp
  rfl
attribute [local irreducible] Host.gather Host.scatterAdd Host.reduce Host.reduceAdd in
set_option maxRecDepth 8192 in
set_option maxHeartbeats 2000000 in
/-- The second layer's normalise–rectify–affine–rectify stage. -/
theorem bn2_val (W : Valuation τ sig (Elt Ideal)) :
    after opsBN2 W (no_index (Proc.devRef .tc main_v87)) = refBN (W (Proc.devRef .tc main_v62)) (W (Proc.devRef .tc main_v65)) (W (Proc.devRef .tc main_v66)) (W (Proc.devRef .tc main_arg10)) (W (Proc.devRef .tc main_arg11)) (W (Proc.devRef .tc main_arg12)) (W (Proc.devRef .tc main_arg13)) := by
  simp only [opsBN2]
  after_results_simp
  rfl
attribute [local irreducible] Host.gather Host.scatterAdd Host.reduce Host.reduceAdd in
set_option maxRecDepth 8192 in
set_option maxHeartbeats 2000000 in
/-- The class scores and their log-softmax. -/
theorem fin_val (W : Valuation τ sig (Elt Ideal)) :
    after opsFin W (no_index (Proc.devRef .tc main_v92)) = refFin (W (Proc.devRef .tc main_v87)) (W (Proc.devRef .tc main_arg14)) (W (Proc.devRef .tc main_arg15)) := by
  simp only [opsFin]
  after_results_simp
  rfl

attribute [local irreducible] Host.gather Host.scatterAdd Host.reduce Host.reduceAdd in
set_option maxRecDepth 8192 in
set_option maxHeartbeats 4000000 in
/-- The fold at the result: stage by stage, each stage's result read from the valuation the stages before it left,
    every buffer a stage does not write carried through it. -/
theorem out_eq (V : Valuation τ sig (Elt Ideal)) :
    after (ops (F := Ideal)) V (main_v92 : DevRef τ sig)
      = refOut (V (main_arg1 : DevRef τ sig)) (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  simp only [ops, after_append]
  simp (disch := decide) only [fin_val, bn2_val, var2_val, mu2_val, lin2_val, agg2_val, bn1_val, var1_val, mu1_val, lin1_val, agg1_val, opsAgg1_keep, opsLin1_keep, opsMu1_keep, opsVar1_keep, opsBN1_keep, opsAgg2_keep, opsLin2_keep, opsMu2_keep, opsVar2_keep, opsBN2_keep, opsFin_keep]
  rfl

theorem arg0_eq (V : Valuation τ sig (Elt Ideal)) :
    after (ops (F := Ideal)) V (main_arg0 : DevRef τ sig) = V (main_arg0 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg1_eq (V : Valuation τ sig (Elt Ideal)) :
    after (ops (F := Ideal)) V (main_arg1 : DevRef τ sig) = V (main_arg1 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg2_eq (V : Valuation τ sig (Elt Ideal)) :
    after (ops (F := Ideal)) V (main_arg2 : DevRef τ sig) = V (main_arg2 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg3_eq (V : Valuation τ sig (Elt Ideal)) :
    after (ops (F := Ideal)) V (main_arg3 : DevRef τ sig) = V (main_arg3 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg4_eq (V : Valuation τ sig (Elt Ideal)) :
    after (ops (F := Ideal)) V (main_arg4 : DevRef τ sig) = V (main_arg4 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg5_eq (V : Valuation τ sig (Elt Ideal)) :
    after (ops (F := Ideal)) V (main_arg5 : DevRef τ sig) = V (main_arg5 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg6_eq (V : Valuation τ sig (Elt Ideal)) :
    after (ops (F := Ideal)) V (main_arg6 : DevRef τ sig) = V (main_arg6 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg7_eq (V : Valuation τ sig (Elt Ideal)) :
    after (ops (F := Ideal)) V (main_arg7 : DevRef τ sig) = V (main_arg7 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg8_eq (V : Valuation τ sig (Elt Ideal)) :
    after (ops (F := Ideal)) V (main_arg8 : DevRef τ sig) = V (main_arg8 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg9_eq (V : Valuation τ sig (Elt Ideal)) :
    after (ops (F := Ideal)) V (main_arg9 : DevRef τ sig) = V (main_arg9 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg10_eq (V : Valuation τ sig (Elt Ideal)) :
    after (ops (F := Ideal)) V (main_arg10 : DevRef τ sig) = V (main_arg10 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg11_eq (V : Valuation τ sig (Elt Ideal)) :
    after (ops (F := Ideal)) V (main_arg11 : DevRef τ sig) = V (main_arg11 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg12_eq (V : Valuation τ sig (Elt Ideal)) :
    after (ops (F := Ideal)) V (main_arg12 : DevRef τ sig) = V (main_arg12 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg13_eq (V : Valuation τ sig (Elt Ideal)) :
    after (ops (F := Ideal)) V (main_arg13 : DevRef τ sig) = V (main_arg13 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg14_eq (V : Valuation τ sig (Elt Ideal)) :
    after (ops (F := Ideal)) V (main_arg14 : DevRef τ sig) = V (main_arg14 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

theorem arg15_eq (V : Valuation τ sig (Elt Ideal)) :
    after (ops (F := Ideal)) V (main_arg15 : DevRef τ sig) = V (main_arg15 : DevRef τ sig) := by
  simp only [ops, after_append]
  simp (disch := decide) only [opsAgg1_keep, opsLin1_keep, opsMu1_keep, opsVar1_keep, opsBN1_keep, opsAgg2_keep, opsLin2_keep, opsMu2_keep, opsVar2_keep, opsBN2_keep, opsFin_keep]

end Cert.ReferenceIdeal.RV

end
-- ==== Proof.RefStages.lean ====
/-
  Each stage of the reference, read entry by entry, is the index-level function of the same name:

  * the affine stage at (r, k) is the sum over j of (a + h)(r, j) · W(j, k), plus b(k);
  * the normalise–rectify–affine–rectify stage at (r, k) is max (∑ j, max (((x(r, j) − μ(j)) · rsqrt (σ²(j) + ε)) · γ(j) + β(j)) 0 · W(j, k) + b(k)) 0;
  * the head at (r, c) is the class score minus the row's largest score minus the logarithm of the row's sum of the
    exponentials of the shifted scores.

  A vector laid along every row reads its entry at the column; a vector laid down every column reads its entry at the
  row; a product of two matrices reads as the sum over the contracted coordinate; a row's maximum taken from minus
  infinity is at least minus infinity, so a further maximum with minus infinity changes nothing; a row's sum from zero is
  the sum.
-/
import proofs.«423809_j45028437131840_1_alg».proof.Proof.RefTerms
import proofs.«423809_j45028437131840_1_alg».proof.Proof.Spec
import Idealize.ShloMosaic.Lib.ValueIdx
import Idealize.ShloMosaic.Lib.Pipeline.Value
import Idealize.ShloMosaic.Lib.IdealHost
import Idealize.ShloMosaic.Lib.KernelVsHost
import Idealize.ShloMosaic.Lib.StackMember
import Idealize.ShloMosaic.PureOps.Ideal.Laws
import Idealize.ShloMosaic.PureOps.Reduce

noncomputable section

open scoped BigOperators

namespace Cert.ReferenceIdeal.RV

open Cert.ReferenceIdeal Cert.ReferenceIdeal.Facts₀ Cert.ReferenceIdeal.Facts Idealize.ShloMosaic Idealize.ShloMosaic.ValueIdx

/-! ## The layout operations at an entry -/

/-- A length-128 vector laid along every row, at (r, k), is its entry k. -/
theorem rows_apply (v : FVec Ideal S128 .f32) (r : Fin 10000) (k : Fin 128) : rows v (ix2 r k) = v (ix1 k) := by
  unfold rows
  rw [broadcastInDim_oneRow_apply]
  exact broadcastInDim_apply ![1] bcast_S128_S1x128_1 v (ix2 (0 : Fin 1) k) (ix1 k) (by
    intro a
    match a with
    | ⟨0, _⟩ => rfl)

/-- A length-40 vector laid along every row, at (r, c), is its entry c. -/
theorem rows40_apply (v : FVec Ideal S40 .f32) (r : Fin 10000) (c : Fin 40) :
    broadcastInDim S10000x40 ![0, 1] bcast_S1x40_S10000x40_0_1 (broadcastInDim S1x40 ![1] bcast_S40_S1x40_1 v) (ix2 r c) = v (ix1 c) := by
  rw [broadcastInDim_oneRow_apply]
  exact broadcastInDim_apply ![1] bcast_S40_S1x40_1 v (ix2 (0 : Fin 1) c) (ix1 c) (by
    intro a
    match a with
    | ⟨0, _⟩ => rfl)

/-- `max x 0` at an entry. -/
theorem relu_apply (x : FVec Ideal S10000x128 .f32) (i : S10000x128.Idx) : relu x i = max (x i) Cert.Gin.zeroF := rfl

/-! ## The two matrix products at an entry -/

/-- The 10000 × 128 by 128 × 128 product at (r, k). -/
theorem dot128_apply (A : FVec Ideal S10000x128 .f32) (B : FVec Ideal S128x128 .f32) (r : Fin 10000) (k : Fin 128) :
    Host.dotGeneral (F := Ideal) dot_S10000x128_S128x128_S10000x128_1_0_0_1_n_n none A B (ix2 r k)
      = ∑ j : Fin 128, A (ix2 r j) * B (ix2 j k) := by
  have e : dot_S10000x128_S128x128_S10000x128_1_0_0_1_n_n = DotDims.plain 10000 128 128 := rfl
  rw [e]
  exact StackMember.dotGeneral_plain_apply none A B r k

/-- The 10000 × 128 by 128 × 40 product at (r, c). -/
theorem dot40_apply (A : FVec Ideal S10000x128 .f32) (B : FVec Ideal S128x40 .f32) (r : Fin 10000) (c : Fin 40) :
    Host.dotGeneral (F := Ideal) dot_S10000x128_S128x40_S10000x40_1_0_0_1_n_n none A B (ix2 r c)
      = ∑ j : Fin 128, A (ix2 r j) * B (ix2 j c) := by
  have e : dot_S10000x128_S128x40_S10000x40_1_0_0_1_n_n = DotDims.plain 10000 128 40 := rfl
  rw [e]
  exact StackMember.dotGeneral_plain_apply none A B r c

/-! ## The affine stage -/

theorem refLin_eq (a h : FVec Ideal S10000x128 .f32) (W : FVec Ideal S128x128 .f32) (b : FVec Ideal S128 .f32) :
    refLin a h W b = Cert.Gin.LIN a h W (Cert.Gin.rs128 b) := by
  funext i
  obtain ⟨r, k, rfl⟩ : ∃ (r : Fin 10000) (k : Fin 128), i = ix2 r k := ⟨i 0, i 1, eq_ix2 i⟩
  show Host.dotGeneral (F := Ideal) dot_S10000x128_S128x128_S10000x128_1_0_0_1_n_n none (addf a h) W (ix2 r k) + rows b (ix2 r k) = _
  rw [dot128_apply, rows_apply]
  rfl

/-! ## The normalise–rectify–affine–rectify stage -/

/-- One normalised, rectified entry of the reference. -/
theorem bn_apply (lin : FVec Ideal S10000x128 .f32) (mu var g be : FVec Ideal S128 .f32) (r : Fin 10000) (j : Fin 128) :
    relu (addf (mulf (mulf (subf lin (rows mu))
        (rows (Host.rsqrt (addf var (broadcastInDim S128 ![] bcast_S_S128 (constant S_ .f32 0x3727C5AC#32))))))
        (rows g)) (rows be)) (ix2 r j)
      = Cert.Gin.bnAt lin (Cert.Gin.rs128 mu) (Cert.Gin.rs128 var) (Cert.Gin.rs128 g) (Cert.Gin.rs128 be) r j := by
  rw [relu_apply, addf_apply, mulf_apply, mulf_apply, subf_apply, rows_apply, rows_apply, rows_apply, rows_apply]
  rfl

theorem refBN_eq (lin : FVec Ideal S10000x128 .f32) (mu var g be : FVec Ideal S128 .f32) (Wb : FVec Ideal S128x128 .f32)
    (bb : FVec Ideal S128 .f32) :
    refBN lin mu var g be Wb bb
      = Cert.Gin.GB lin (Cert.Gin.rs128 mu) (Cert.Gin.rs128 var) (Cert.Gin.rs128 g) (Cert.Gin.rs128 be) Wb (Cert.Gin.rs128 bb) := by
  funext i
  obtain ⟨r, k, rfl⟩ : ∃ (r : Fin 10000) (k : Fin 128), i = ix2 r k := ⟨i 0, i 1, eq_ix2 i⟩
  unfold refBN
  rw [relu_apply, addf_apply, dot128_apply, rows_apply]
  refine congrArg (fun s => max (s + bb (ix1 k)) Cert.Gin.zeroF) (Finset.sum_congr rfl fun j _ => ?_)
  rw [bn_apply]

/-! ## The head -/

/-- A one-column array laid along every row of 40, at (r, c), is its entry (r, 0). -/
theorem col_apply {α : Type} (y : S10000x1.Idx → α) (r : Fin 10000) (c : Fin 40) :
    broadcastInDim S10000x40 ![0, 1] bcast_S10000x1_S10000x40_0_1 y (ix2 r c) = y (ix2 r (0 : Fin 1)) :=
  broadcastInDim_apply ![0, 1] bcast_S10000x1_S10000x40_0_1 y (ix2 r c) (ix2 r (0 : Fin 1)) (by
    intro a
    match a with
    | ⟨0, _⟩ => rfl
    | ⟨1, _⟩ => rfl)

/-- A length-10000 vector as one column, at (r, 0), is its entry r. -/
theorem asCol_apply {α : Type} (v : S10000.Idx → α) (r : Fin 10000) :
    broadcastInDim S10000x1 ![0] bcast_S10000_S10000x1_0 v (ix2 r (0 : Fin 1)) = v (ix1 r) :=
  broadcastInDim_apply ![0] bcast_S10000_S10000x1_0 v (ix2 r (0 : Fin 1)) (ix1 r) (by
    intro a
    match a with
    | ⟨0, _⟩ => rfl)

/-- The witness that names the coordinate put back on the dropped second axis. -/
theorem reduces_d1 : S10000x40.Reduces [1] S10000 := by decide

/-- Row r with column c put back is (r, c). -/
theorem lift_d1 (r : Fin 10000) (c : Fin (S10000x40.size 1)) :
    reduces_d1.lift (ix1 r) c = ix2 r (⟨c.val, c.isLt⟩ : Fin 40) := by
  funext a; apply Fin.ext
  match a with
  | ⟨0, _⟩ => rfl
  | ⟨1, _⟩ => rfl

/-- A row's largest entry, taken from minus infinity and then once more against minus infinity. -/
theorem rowMax_apply (x : FVec Ideal S10000x40 .f32) (r : Fin 10000) :
    maximumf (broadcastInDim S10000 ![] bcast_S_S10000 (constant S_ .f32 0xFF800000#32))
        (Host.reduce FloatOps.maximumf x (constant S_ .f32 0xFF800000#32) reducesTo_S10000x40_S10000_d1 h_S_) (ix1 r)
      = (Finset.univ : Finset (Fin 40)).fold max Cert.Gin.negInfF (fun c => x (ix2 r c)) := by
  rw [maximumf_apply, Host.reduce_eq_fold_single FloatOps.maximumf x _ reducesTo_S10000x40_S10000_d1 reduces_d1 h_S_]
  have hf : (x ∘ reduces_d1.lift (ix1 r)) = fun c : Fin 40 => x (ix2 r c) := funext fun c => congrArg x (lift_d1 r c)
  have e : (Finset.univ : Finset (Fin (S10000x40.size 1))).fold FloatOps.maximumf
        (constant (F := Ideal) S_ .f32 0xFF800000#32 (Shape.Idx.first h_S_)) (x ∘ reduces_d1.lift (ix1 r))
      = (Finset.univ : Finset (Fin 40)).fold max Cert.Gin.negInfF (fun c => x (ix2 r c)) :=
    congrArg (fun f => Finset.fold max Cert.Gin.negInfF f (Finset.univ : Finset (Fin 40))) hf
  rw [e]
  exact max_eq_right ((Finset.le_fold_max _).mpr (Or.inl le_rfl))

/-- A row's sum from zero. -/
theorem rowSum_apply (x : FVec Ideal S10000x40 .f32) (r : Fin 10000) :
    Host.reduceAdd x (constant S_ .f32 0x00000000#32) reducesTo_S10000x40_S10000_d1 h_S_ (ix1 r) = ∑ c : Fin 40, x (ix2 r c) := by
  rw [hostReduceAdd_apply, Ideal.hostReduceAdd_single reducesTo_S10000x40_S10000_d1 reduces_d1, constant_apply, Ideal.ofBits_zero_f32, zero_add]
  exact Finset.sum_congr rfl fun c _ => congrArg x (lift_d1 r c)

/-- The class scores. -/
def refLogits (h : FVec Ideal S10000x128 .f32) (Wfc : FVec Ideal S128x40 .f32) (bfc : FVec Ideal S40 .f32) : FVec Ideal S10000x40 .f32 :=
  addf (Host.dotGeneral dot_S10000x128_S128x40_S10000x40_1_0_0_1_n_n none h Wfc)
    (broadcastInDim S10000x40 ![0, 1] bcast_S1x40_S10000x40_0_1 (broadcastInDim S1x40 ![1] bcast_S40_S1x40_1 bfc))

theorem refLogits_apply (h : FVec Ideal S10000x128 .f32) (Wfc : FVec Ideal S128x40 .f32) (bfc : FVec Ideal S40 .f32)
    (r : Fin 10000) (c : Fin 40) : refLogits h Wfc bfc (ix2 r c) = Cert.Gin.logitAt h Wfc (Cert.Gin.rs40 bfc) r c := by
  unfold refLogits
  rw [addf_apply, dot40_apply, rows40_apply]
  rfl

/-- The class scores less their row's largest. -/
def refShifted (h : FVec Ideal S10000x128 .f32) (Wfc : FVec Ideal S128x40 .f32) (bfc : FVec Ideal S40 .f32) : FVec Ideal S10000x40 .f32 :=
  subf (refLogits h Wfc bfc) (broadcastInDim S10000x40 ![0, 1] bcast_S10000x1_S10000x40_0_1 (broadcastInDim S10000x1 ![0] bcast_S10000_S10000x1_0
    (maximumf (broadcastInDim S10000 ![] bcast_S_S10000 (constant S_ .f32 0xFF800000#32))
      (Host.reduce FloatOps.maximumf (refLogits h Wfc bfc) (constant S_ .f32 0xFF800000#32) reducesTo_S10000x40_S10000_d1 h_S_))))

theorem refShifted_apply (h : FVec Ideal S10000x128 .f32) (Wfc : FVec Ideal S128x40 .f32) (bfc : FVec Ideal S40 .f32)
    (r : Fin 10000) (c : Fin 40) :
    refShifted h Wfc bfc (ix2 r c)
      = Cert.Gin.logitAt h Wfc (Cert.Gin.rs40 bfc) r c - Cert.Gin.rowMax h Wfc (Cert.Gin.rs40 bfc) r := by
  unfold refShifted
  rw [subf_apply, col_apply, asCol_apply, rowMax_apply, refLogits_apply]
  simp only [refLogits_apply]
  rfl

theorem refFin_eq (h : FVec Ideal S10000x128 .f32) (Wfc : FVec Ideal S128x40 .f32) (bfc : FVec Ideal S40 .f32) :
    refFin h Wfc bfc = Cert.Gin.GC h Wfc (Cert.Gin.rs40 bfc) := by
  funext i
  obtain ⟨r, c, rfl⟩ : ∃ (r : Fin 10000) (c : Fin 40), i = ix2 r c := ⟨i 0, i 1, eq_ix2 i⟩
  show subf (refShifted h Wfc bfc) (broadcastInDim S10000x40 ![0, 1] bcast_S10000x1_S10000x40_0_1
    (Host.log (broadcastInDim S10000x1 ![0] bcast_S10000_S10000x1_0
      (Host.reduceAdd (Host.exp (refShifted h Wfc bfc)) (constant S_ .f32 0x00000000#32) reducesTo_S10000x40_S10000_d1 h_S_)))) (ix2 r c) = _
  rw [subf_apply, col_apply]
  show refShifted h Wfc bfc (ix2 r c) - Ideal.log (broadcastInDim S10000x1 ![0] bcast_S10000_S10000x1_0
      (Host.reduceAdd (Host.exp (refShifted h Wfc bfc)) (constant S_ .f32 0x00000000#32) reducesTo_S10000x40_S10000_d1 h_S_) (ix2 r (0 : Fin 1))) = _
  rw [asCol_apply, rowSum_apply, refShifted_apply]
  have hx : ∀ c' : Fin 40, Host.exp (refShifted h Wfc bfc) (ix2 r c')
      = Ideal.exp (Cert.Gin.logitAt h Wfc (Cert.Gin.rs40 bfc) r c' - Cert.Gin.rowMax h Wfc (Cert.Gin.rs40 bfc) r) := fun c' => by
    show Ideal.exp (refShifted h Wfc bfc (ix2 r c')) = _
    rw [refShifted_apply]
  simp only [hx]
  rfl

end Cert.ReferenceIdeal.RV

end
-- ==== Proof.AggR.lean ====
/-
  The neighbour sum on the reference's side.  The reference gathers the rows of the features named by the sources
  and adds them onto the rows of a zero array named by the destinations.  When every endpoint is a node number the
  wrap of a negative index and the clamp of a start index change nothing, an update lands on row `dst e` at its own
  column, and the array that results is, row by row and column by column, the sum over the edges ending at the row
  of the source's feature in that column.
-/
import proofs.«423809_j45028437131840_1_alg».proof.Proof.RefTerms
import proofs.«423809_j45028437131840_1_alg».proof.Proof.Spec
import proofs.«423809_j45028437131840_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RV

open Cert.ReferenceIdeal Cert.ReferenceIdeal.Facts₀ Cert.ReferenceIdeal.Facts Idealize.ShloMosaic Idealize.ShloMosaic.ValueIdx

/-- The gather's dimension numbers. -/
local notation "gD" => gather_S10000x128_S640000x1_S640000x128_1_0_n_n_0_1_1128
/-- The scatter's dimension numbers. -/
local notation "sD" => scatter_S10000x128_S640000x1_S640000x128_1_0_0_1

namespace AggR

/-- Row 0 of the edge list read at an edge. -/
theorem srcRow_apply (ei : IVec S2x640000 32) (e : Fin 640000) : srcRow ei (ix1 e) = ei (ix2 (0 : Fin 2) e) := by
  unfold srcRow
  rw [shapeCast_dropUnit_apply]
  unfold extractStridedSlice
  congr 1
  funext a
  match a with
  | ⟨0, _⟩ => rfl
  | ⟨1, _⟩ => exact Fin.ext (Nat.zero_add _)

/-- Row 1 of the edge list read at an edge. -/
theorem dstRow_apply (ei : IVec S2x640000 32) (e : Fin 640000) : dstRow ei (ix1 e) = ei (ix2 (1 : Fin 2) e) := by
  unfold dstRow
  rw [shapeCast_dropUnit_apply]
  unfold extractStridedSlice
  congr 1
  funext a
  match a with
  | ⟨0, _⟩ => rfl
  | ⟨1, _⟩ => exact Fin.ext (Nat.zero_add _)

/-- A word that is not negative is left as it is. -/
theorem wrap_apply (v : IVec S640000 32) (i : S640000.Idx) (h0 : 0 ≤ (v i).toInt) : wrap v i = v i := by
  unfold wrap
  rw [select_apply]
  have hc : cmpi .slt v (broadcastInDim S640000 ![] bcast_S_S640000 (constantI S_ 32 0#32)) i = 0#1 := by
    show IntOp.cmpi .slt (v i) 0#32 = 0#1
    unfold IntOp.cmpi
    have h00 : (0#32 : BitVec 32).toInt = 0 := by decide
    have : ¬ ((v i).toInt < 0) := by omega
    simp only [BitVec.slt, h00, this, decide_false]
    rfl
  rw [hc, select_zero]

/-- A vector kept as a column reads, at row `e`, the vector at `e`. -/
theorem col_apply (v : IVec S640000 32) (e : Fin 640000) :
    broadcastInDim S640000x1 ![0] bcast_S640000_S640000x1_0 v (ix2 e (0 : Fin 1)) = v (ix1 e) := by
  simp only [broadcastInDim]
  congr 1
  funext a
  obtain rfl : a = 0 := Subsingleton.elim _ _
  rw [dif_neg (by decide)]
  rfl

/-- Where the gather reads the start index of result element `(e, k)`: row `e` of the column of indices. -/
theorem gather_siIdx (e : Fin 640000) (k : Fin 128) (c : Fin (gD).startIndexMap.length) :
    (gD).siIdx (ix2 e k) c = ix2 e (0 : Fin 1) := by
  funext b
  match b with
  | ⟨0, _⟩ =>
    unfold GatherDims.siIdx
    rw [dif_neg (by exact Nat.zero_ne_one)]
    unfold GatherDims.siCoord
    apply Fin.ext
    simp only [Fin.val_cast]
    rfl
  | ⟨1, _⟩ =>
    apply Fin.ext
    have hc : c.val < 1 := c.isLt
    show c.val = 0
    omega

/-- When the start index at row `e` is a row number `n`, result element `(e, k)` of the gather reads operand element `(n, k)`. -/
theorem gather_operandIdx (idx : IVec S640000x1 32) (e : Fin 640000) (k : Fin 128) (n : Nat) (hn : n < 10000)
    (hidx : (idx (ix2 e (0 : Fin 1))).toInt = (n : Int)) :
    (gD).operandIdx (ix2 e k) idx = ix2 (⟨n, hn⟩ : Fin 10000) k := by
  funext a
  match a with
  | ⟨0, _⟩ =>
    apply Fin.ext
    show (gD).start (ix2 e k) idx 0 + (gD).batchCoord (ix2 e k) 0 + (gD).offCoord (ix2 e k) 0 = n
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gD).startIndexMap from List.mem_singleton.mpr rfl), gather_siIdx, hidx]
    show min (n : Int).toNat (10000 - 1) = n
    rw [Int.toNat_natCast]
    omega
  | ⟨1, _⟩ =>
    apply Fin.ext
    show (gD).start (ix2 e k) idx 1 + (gD).batchCoord (ix2 e k) 1 + (gD).offCoord (ix2 e k) 1 = k.val
    rw [GatherDims.batchCoord_eq_zero _ _ _ List.not_mem_nil]
    unfold GatherDims.start
    rw [dif_neg (show (1 : Fin 2) ∉ (gD).startIndexMap from by decide)]
    unfold GatherDims.offCoord
    rw [dif_pos (show (1 : Fin 2) ∈ (gD).sKept from by decide)]
    simp only [Nat.add_zero, Nat.zero_add]
    rfl

/-- Where the scatter reads the start index of update element `(e, k)`: row `e` of the column of indices. -/
theorem scatter_siIdx (e : Fin 640000) (k : Fin 128) (c : Fin (sD).scatterDimsToOperandDims.length) :
    (sD).siIdx (ix2 e k) c = ix2 e (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    apply Fin.ext
    have hc : c.val < 1 := c.isLt
    show c.val = 0
    omega

theorem scatter_start0 (idx : IVec S640000x1 32) (e : Fin 640000) (k : Fin 128) :
    (sD).start (ix2 e k) idx 0 = (idx (ix2 e (0 : Fin 1))).toInt := by
  unfold ScatterDims.start
  rw [dif_pos (show (0 : Fin 2) ∈ (sD).scatterDimsToOperandDims from List.mem_singleton.mpr rfl), scatter_siIdx]

theorem scatter_start1 (idx : IVec S640000x1 32) (e : Fin 640000) (k : Fin 128) :
    (sD).start (ix2 e k) idx 1 = 0 := by
  unfold ScatterDims.start
  rw [dif_neg (show (1 : Fin 2) ∉ (sD).scatterDimsToOperandDims from by decide)]

theorem scatter_window0 (e : Fin 640000) (k : Fin 128) : (sD).window (ix2 e k) 0 = 0 := by
  unfold ScatterDims.window
  rw [dif_neg (show (0 : Fin 2) ∉ (sD).sKept from by decide)]

theorem scatter_window1 (e : Fin 640000) (k : Fin 128) : (sD).window (ix2 e k) 1 = k.val := by
  unfold ScatterDims.window
  rw [dif_pos (show (1 : Fin 2) ∈ (sD).sKept from by decide)]
  rfl

/-- When the start index at row `e` is a row number `n`, update element `(e, k)` of the scatter lands on operand element `(n, k)`. -/
theorem scatter_resultIdx (idx : IVec S640000x1 32) (e : Fin 640000) (k : Fin 128) (n : Nat) (hn : n < 10000)
    (hidx : (idx (ix2 e (0 : Fin 1))).toInt = (n : Int)) :
    (sD).resultIdx? (ix2 e k) idx = some (ix2 (⟨n, hn⟩ : Fin 10000) k) := by
  have hk : k.val < 128 := k.isLt
  have h : ∀ a, 0 ≤ (sD).start (ix2 e k) idx a + (sD).window (ix2 e k) a
      ∧ (sD).start (ix2 e k) idx a + (sD).window (ix2 e k) a < S10000x128.size a := by
    rw [Fin.forall_fin_two]
    rw [scatter_start0, scatter_start1, scatter_window0, scatter_window1, hidx]
    refine ⟨⟨by omega, ?_⟩, ⟨by omega, ?_⟩⟩
    · show (n : Int) + ((0 : Nat) : Int) < ((10000 : Nat) : Int)
      omega
    · show (0 : Int) + ((k.val : Nat) : Int) < ((128 : Nat) : Int)
      omega
  unfold ScatterDims.resultIdx?
  rw [dif_pos h]
  congr 1
  funext a
  match a with
  | ⟨0, _⟩ =>
    apply Fin.ext
    show ((sD).start (ix2 e k) idx 0 + (sD).window (ix2 e k) 0).toNat = n
    rw [scatter_start0, scatter_window0, hidx]
    omega
  | ⟨1, _⟩ =>
    apply Fin.ext
    show ((sD).start (ix2 e k) idx 1 + (sD).window (ix2 e k) 1).toNat = k.val
    rw [scatter_start1, scatter_window1]
    omega

/-- A word that is not negative as a signed integer is its unsigned reading. -/
theorem toInt_eq_toNat_of_nonneg (a : BitVec 32) (h : 0 ≤ a.toInt) : a.toInt = (a.toNat : Int) := by
  have hlt := a.isLt
  rw [BitVec.toInt_eq_toNat_cond] at h ⊢
  split_ifs at h ⊢ <;> omega

/-- The column of source indices at edge `e`, every endpoint a node number: the source of `e`. -/
theorem srcCol_apply (ei : IVec S2x640000 32) (hr : Cert.Gin.InRange ei) (e : Fin 640000) :
    (broadcastInDim S640000x1 ![0] bcast_S640000_S640000x1_0 (wrap (srcRow ei)) (ix2 e (0 : Fin 1))).toInt
      = (Cert.Gin.srcN ei e : Int) := by
  have h0 := (hr (ix2 (0 : Fin 2) e)).1
  rw [col_apply, wrap_apply _ _ (by rw [srcRow_apply]; exact h0), srcRow_apply]
  exact toInt_eq_toNat_of_nonneg _ h0

/-- The column of destination indices at edge `e`, every endpoint a node number: the destination of `e`. -/
theorem dstCol_apply (ei : IVec S2x640000 32) (hr : Cert.Gin.InRange ei) (e : Fin 640000) :
    (broadcastInDim S640000x1 ![0] bcast_S640000_S640000x1_0 (dstRow ei) (ix2 e (0 : Fin 1))).toInt
      = (Cert.Gin.dstN ei e : Int) := by
  have h0 := (hr (ix2 (1 : Fin 2) e)).1
  rw [col_apply, dstRow_apply]
  exact toInt_eq_toNat_of_nonneg _ h0

theorem srcN_lt (ei : IVec S2x640000 32) (hr : Cert.Gin.InRange ei) (e : Fin 640000) : Cert.Gin.srcN ei e < 10000 := by
  have h0 := hr (ix2 (0 : Fin 2) e)
  have := toInt_eq_toNat_of_nonneg _ h0.1
  unfold Cert.Gin.srcN
  omega

theorem dstN_lt (ei : IVec S2x640000 32) (hr : Cert.Gin.InRange ei) (e : Fin 640000) : Cert.Gin.dstN ei e < 10000 := by
  have h0 := hr (ix2 (1 : Fin 2) e)
  have := toInt_eq_toNat_of_nonneg _ h0.1
  unfold Cert.Gin.dstN
  omega

/-- Two rank-2 indices given by coordinates are equal exactly when the coordinates are. -/
theorem ix2_eq_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- The accumulating scatter read at an index: the operand's element plus the sum of the updates that land on it
    (stated at any shapes, so that nothing of a shape's extent is ever evaluated). -/
theorem scatterAdd_apply {s si su : Shape} (d : ScatterDims s si su) {w : Nat} (x : FVec Ideal s .f32) (idx : IVec si w)
    (upd : FVec Ideal su .f32) (i : s.Idx) :
    Host.scatterAdd d x idx upd i = x i + ∑ j ∈ Finset.univ.filter (fun j => d.resultIdx? j idx = some i), upd j := rfl

end AggR

open AggR

/-- The neighbour sum of the reference at row `r`, column `c`. -/
theorem refAgg_at (ei : IVec S2x640000 32) (hr : Cert.Gin.InRange ei) (h : FVec Ideal S10000x128 .f32)
    (r : Fin 10000) (c : Fin 128) : refAgg ei h (ix2 r c) = Cert.Gin.aggAt ei h r c := by
  unfold refAgg
  rw [scatterAdd_apply]
  have hz : (broadcastInDim S10000x128 ![] bcast_S_S10000x128 (constant S_ .f32 0x00000000#32) : FVec Ideal S10000x128 .f32) (ix2 r c)
      = (0 : EReal) := Ideal.ofBits_zero_f32
  rw [hz, zero_add, Finset.sum_filter, sum_idx2]
  unfold Cert.Gin.aggAt
  refine Finset.sum_congr rfl fun e _ => ?_
  have hs := srcN_lt ei hr e
  have hd := dstN_lt ei hr e
  rw [dif_pos hs]
  have hterm : ∀ k' : Fin 128,
      (if (sD).resultIdx? (ix2 e k') (broadcastInDim S640000x1 ![0] bcast_S640000_S640000x1_0 (dstRow ei)) = some (ix2 r c)
        then Host.gather (gD) h (broadcastInDim S640000x1 ![0] bcast_S640000_S640000x1_0 (wrap (srcRow ei))) (ix2 e k') else 0)
      = if k' = c then (if Cert.Gin.dstN ei e = r.val then h (ix2 (⟨Cert.Gin.srcN ei e, hs⟩ : Fin 10000) c) else 0) else 0 := by
    intro k'
    rw [scatter_resultIdx _ e k' _ hd (dstCol_apply ei hr e)]
    unfold Host.gather
    rw [gather_operandIdx _ e k' _ hs (srcCol_apply ei hr e)]
    by_cases hk : k' = c
    · subst hk
      rw [if_pos rfl]
      by_cases hdr : Cert.Gin.dstN ei e = r.val
      · rw [if_pos hdr, if_pos (by rw [Option.some.injEq, ix2_eq_iff]; exact ⟨Fin.ext hdr, rfl⟩)]
      · rw [if_neg hdr, if_neg (by rw [Option.some.injEq, ix2_eq_iff]; exact fun hh => hdr (congrArg Fin.val hh.1))]
    · rw [if_neg hk, if_neg (by rw [Option.some.injEq, ix2_eq_iff]; exact fun hh => hk hh.2)]
  rw [Finset.sum_congr rfl fun k' _ => hterm k', Finset.sum_ite_eq' Finset.univ c, if_pos (Finset.mem_univ c)]

/-- THE NEIGHBOUR SUM: every endpoint a node number, the reference's gather-then-scatter-add is, index by index, the
    sum over the edges ending at the row of the source's feature. -/
theorem refAgg_eq (ei : IVec S2x640000 32) (hr : Cert.Gin.InRange ei) (h : FVec Ideal S10000x128 .f32) :
    refAgg ei h = Cert.Gin.agg ei h := by
  funext i
  obtain ⟨r, c, rfl⟩ : ∃ (r : Fin 10000) (c : Fin 128), i = ix2 r c := ⟨i 0, i 1, eq_ix2 i⟩
  exact refAgg_at ei hr h r c

end Cert.ReferenceIdeal.RV

end
-- ==== Proof.RValue.lean ====
/-
  The reference's result as the network function: its run ends with the result buffer at the composed stage terms,
  each stage is the index-level function of the same name, and under "every edge endpoint is a node number" the
  gather-then-scatter neighbour sum is the per-edge sum.
-/
import proofs.«423809_j45028437131840_1_alg».proof.Proof.RefRead
import proofs.«423809_j45028437131840_1_alg».proof.Proof.RefStages
import proofs.«423809_j45028437131840_1_alg».proof.Proof.AggR

noncomputable section

namespace Cert.ReferenceIdeal.RV

open Cert.ReferenceIdeal Idealize.ShloMosaic Idealize.ShloMosaic.TcCoe Idealize.SL.Sem Idealize.ShloMosaic.StableHlo

/-- The composed stage terms are the network function of the arguments. -/
theorem refOut_eq (ei : IVec S2x640000 32) (hr : Cert.Gin.InRange ei) (x : FVec Ideal S10000x128 .f32)
    (W1a : FVec Ideal S128x128 .f32) (b1a g1 be1 : FVec Ideal S128 .f32) (W1b : FVec Ideal S128x128 .f32) (b1b : FVec Ideal S128 .f32)
    (W2a : FVec Ideal S128x128 .f32) (b2a g2 be2 : FVec Ideal S128 .f32) (W2b : FVec Ideal S128x128 .f32) (b2b : FVec Ideal S128 .f32)
    (Wfc : FVec Ideal S128x40 .f32) (bfc : FVec Ideal S40 .f32) :
    refOut ei x W1a b1a g1 be1 W1b b1b W2a b2a g2 be2 W2b b2b Wfc bfc
      = Cert.Gin.OUT MUr VARr ei x W1a b1a g1 be1 W1b b1b W2a b2a g2 be2 W2b b2b Wfc bfc := by
  unfold refOut refLayer Cert.Gin.OUT Cert.Gin.layer
  simp only [refFin_eq, refBN_eq, refLin_eq, refAgg_eq _ hr]

end Cert.ReferenceIdeal.RV

end
-- ==== Proof.PreRange.lean ====
/-
  The precondition decoded: its last conjunct says every endpoint of every edge is a node number.

  The precondition is a conjunction of one-bit words; the outermost one joins the fifteen statements about the
  floating-point arguments with an "and" over both axes of the edge list of
  `(0 ≤ edge) and (edge < 10000)`, the words compared as signed integers.  Only that last conjunct is read here.
-/
import proofs.«423809_j45028437131840_1_alg».proof.Pre_finite_inputs
import proofs.«423809_j45028437131840_1_alg».proof.Proof.Gen.Pre_finite_inputs
import proofs.«423809_j45028437131840_1_alg».proof.Proof.Spec
import Idealize.ShloMosaic.Lib.ReduceAll
import Idealize.ShloMosaic.Lib.ValueIdx

namespace Cert.Proof.PreRange

open Idealize.ShloMosaic Cert.Pre_finite_inputs

/-- The shape with no axes has one index. -/
instance : Subsingleton S_.Idx := ⟨fun a b => funext fun d => d.elim0⟩

/-- Under the precondition every entry of the edge list, read as a signed integer, lies in `[0, 10000)`. -/
theorem inRange_of_pre (a0 : FVec Ideal S10000x128 .f32) (a1 : IVec S2x640000 32) (a2 : FVec Ideal S128x128 .f32) (a3 a4 a5 : FVec Ideal S128 .f32) (a6 : FVec Ideal S128x128 .f32) (a7 : FVec Ideal S128 .f32) (a8 : FVec Ideal S128x128 .f32) (a9 a10 a11 : FVec Ideal S128 .f32) (a12 : FVec Ideal S128x128 .f32) (a13 : FVec Ideal S128 .f32) (a14 : FVec Ideal S128x40 .f32) (a15 : FVec Ideal S40 .f32)
    (h : Cert.Pre_finite_inputs.fn (F := Ideal) a0 a1 a2 a3 a4 a5 a6 a7 a8 a9 a10 a11 a12 a13 a14 a15 = fun _ => 1#1) : Cert.Gin.InRange a1 := by
  have h0 := congrFun h ValueIdx.ix0
  dsimp only [fn, fn_part1, fn_part2, fn_part3, fn_part4] at h0
  -- the outermost conjunction: keep its right operand only
  obtain ⟨-, h2⟩ := IntOp.andi_eq_one.1 h0
  intro i
  -- an "and" over both axes that is 1 has a 1 at every index
  have h3 := Host.reduce_andi_all _ _ _ _ _ h2 i
  obtain ⟨h4, h5⟩ := IntOp.andi_eq_one.1 h3
  have h6 := IntOp.cmpi_sge.1 h4
  have h7 := IntOp.cmpi_slt.1 h5
  exact ⟨h6, h7⟩

end Cert.Proof.PreRange
-- ==== Proof.lean ====
/-
  The certificate of a two-layer graph network (neighbour sums, two affine maps with batch normalisation and
  rectifiers per layer, a 40-class head with a row-wise log-softmax) computed by five pallas_calls against its
  reference, over the extended reals, under "every float input is finite and every edge endpoint is a node number
  in [0, 10000)".

  The kernel program sums neighbours by a product with the 10000 × 10000 matrix of edge multiplicities, which it builds
  by a scatter of ones; the reference gathers the sources' rows and scatters them with addition onto the destinations'.
  Both are the same sum over edges (Proof/AggK.lean, Proof/AggR.lean) once no index is out of range: outside that range
  the two programs treat negative and too large indices differently, which is why the range is assumed.  Everything
  after the neighbour sum is the same arithmetic in the same order on both sides, tile by tile in the kernels and on
  the whole arrays in the reference; the column mean and variance between the calls are the same host operations in
  both programs (`MU_eq`, `VAR_eq`).  Both results are the one function `Cert.Gin.OUT` of the arguments
  (Proof/KValue.lean, Proof/RValue.lean).  No law of the extended reals beyond commutativity and associativity of
  finite sums and the distribution of a product over a sum of non-negative terms is used, so the finiteness of the
  float inputs is never opened.
-/
import proofs.«423809_j45028437131840_1_alg».proof.Defs
import proofs.«423809_j45028437131840_1_alg».proof.Proof.Gen.Kernel.Frame
import proofs.«423809_j45028437131840_1_alg».proof.Proof.Gen.Pre_finite_inputs
import proofs.«423809_j45028437131840_1_alg».proof.Proof.KValue
import proofs.«423809_j45028437131840_1_alg».proof.Proof.RValue
import proofs.«423809_j45028437131840_1_alg».proof.Proof.PreRange

noncomputable section

namespace Cert.Proof

open Idealize.ShloMosaic Idealize.ShloMosaic.TcCoe Idealize.SL.Sem Idealize.ShloMosaic.StableHlo

/-- The column mean is the same host term in both programs. -/
theorem MU_eq : (Cert.ReferenceIdeal.RV.MUr : (Cert.Gin.SND.Idx → EReal) → Cert.Gin.SD.Idx → EReal) = Cert.KernelIdeal.KV.MUk := rfl
/-- The column variance is the same host term in both programs. -/
theorem VAR_eq : (Cert.ReferenceIdeal.RV.VARr : (Cert.Gin.SND.Idx → EReal) → Cert.Gin.SD.Idx → EReal) = Cert.KernelIdeal.KV.VARk := rfl

theorem frame_k : Cert.frame_Kernel := fun m ρ _ => Cert.Kernel.Gen.frame m ρ
theorem frame_ki : Cert.frame_KernelIdeal := fun m ρ _ => Cert.KernelIdeal.Gen.frame m ρ

/-- The reference's run with everything but "the arguments end unchanged" dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.RV.arg0_eq _),
     (h c Cert.ReferenceIdeal.main_arg1).trans (Cert.ReferenceIdeal.RV.arg1_eq _),
     (h c Cert.ReferenceIdeal.main_arg2).trans (Cert.ReferenceIdeal.RV.arg2_eq _),
     (h c Cert.ReferenceIdeal.main_arg3).trans (Cert.ReferenceIdeal.RV.arg3_eq _),
     (h c Cert.ReferenceIdeal.main_arg4).trans (Cert.ReferenceIdeal.RV.arg4_eq _),
     (h c Cert.ReferenceIdeal.main_arg5).trans (Cert.ReferenceIdeal.RV.arg5_eq _),
     (h c Cert.ReferenceIdeal.main_arg6).trans (Cert.ReferenceIdeal.RV.arg6_eq _),
     (h c Cert.ReferenceIdeal.main_arg7).trans (Cert.ReferenceIdeal.RV.arg7_eq _),
     (h c Cert.ReferenceIdeal.main_arg8).trans (Cert.ReferenceIdeal.RV.arg8_eq _),
     (h c Cert.ReferenceIdeal.main_arg9).trans (Cert.ReferenceIdeal.RV.arg9_eq _),
     (h c Cert.ReferenceIdeal.main_arg10).trans (Cert.ReferenceIdeal.RV.arg10_eq _),
     (h c Cert.ReferenceIdeal.main_arg11).trans (Cert.ReferenceIdeal.RV.arg11_eq _),
     (h c Cert.ReferenceIdeal.main_arg12).trans (Cert.ReferenceIdeal.RV.arg12_eq _),
     (h c Cert.ReferenceIdeal.main_arg13).trans (Cert.ReferenceIdeal.RV.arg13_eq _),
     (h c Cert.ReferenceIdeal.main_arg14).trans (Cert.ReferenceIdeal.RV.arg14_eq _),
     (h c Cert.ReferenceIdeal.main_arg15).trans (Cert.ReferenceIdeal.RV.arg15_eq _)⟩)
    (Cert.ReferenceIdeal.RV.run_main (F := Ideal) m ρ)

theorem preserves : Cert.preserves_Kernel_KernelIdeal := trivial

/-- Both programs end with the network function of the (agreeing) arguments in their result buffers. -/
theorem algebraic : Cert.algebraic_KernelIdeal_ReferenceIdeal := by
  intro m ρ m' ρ' hpre hagree
  have hr : ∀ c : Dev Cert.KernelIdeal.nD, Cert.Gin.InRange (m ((c.tc : Thread Cert.KernelIdeal.nD Cert.KernelIdeal.τ).loc Cert.KernelIdeal.main_arg1)) :=
    fun c => Cert.Proof.PreRange.inRange_of_pre _ _ _ _ _ _ _ _ _ _ _ _ _ _ _ _ (hpre c)
  refine ⟨fun c => Cert.Gin.OUT Cert.KernelIdeal.KV.MUk Cert.KernelIdeal.KV.VARk (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Gen.kvalue m ρ c (hr c)), (h c).2⟩)
      (Cert.KernelIdeal.Gen.krun (F := Ideal) m ρ)
  · refine (θ_run Cert.ReferenceIdeal.defs _ _).mono (fun r h c => ⟨?_,
      (h c Cert.ReferenceIdeal.main_arg0).trans (Cert.ReferenceIdeal.RV.arg0_eq _),
      (h c Cert.ReferenceIdeal.main_arg1).trans (Cert.ReferenceIdeal.RV.arg1_eq _),
      (h c Cert.ReferenceIdeal.main_arg2).trans (Cert.ReferenceIdeal.RV.arg2_eq _),
      (h c Cert.ReferenceIdeal.main_arg3).trans (Cert.ReferenceIdeal.RV.arg3_eq _),
      (h c Cert.ReferenceIdeal.main_arg4).trans (Cert.ReferenceIdeal.RV.arg4_eq _),
      (h c Cert.ReferenceIdeal.main_arg5).trans (Cert.ReferenceIdeal.RV.arg5_eq _),
      (h c Cert.ReferenceIdeal.main_arg6).trans (Cert.ReferenceIdeal.RV.arg6_eq _),
      (h c Cert.ReferenceIdeal.main_arg7).trans (Cert.ReferenceIdeal.RV.arg7_eq _),
      (h c Cert.ReferenceIdeal.main_arg8).trans (Cert.ReferenceIdeal.RV.arg8_eq _),
      (h c Cert.ReferenceIdeal.main_arg9).trans (Cert.ReferenceIdeal.RV.arg9_eq _),
      (h c Cert.ReferenceIdeal.main_arg10).trans (Cert.ReferenceIdeal.RV.arg10_eq _),
      (h c Cert.ReferenceIdeal.main_arg11).trans (Cert.ReferenceIdeal.RV.arg11_eq _),
      (h c Cert.ReferenceIdeal.main_arg12).trans (Cert.ReferenceIdeal.RV.arg12_eq _),
      (h c Cert.ReferenceIdeal.main_arg13).trans (Cert.ReferenceIdeal.RV.arg13_eq _),
      (h c Cert.ReferenceIdeal.main_arg14).trans (Cert.ReferenceIdeal.RV.arg14_eq _),
      (h c Cert.ReferenceIdeal.main_arg15).trans (Cert.ReferenceIdeal.RV.arg15_eq _)⟩)
      (Cert.ReferenceIdeal.RV.run_main (F := Ideal) m' ρ')
    obtain ⟨e0, e1, e2, e3, e4, e5, e6, e7, e8, e9, e10, e11, e12, e13, e14, e15⟩ := hagree c
    have hr' : Cert.Gin.InRange (m' ((c.tc : Thread Cert.ReferenceIdeal.nD Cert.ReferenceIdeal.τ).loc Cert.ReferenceIdeal.main_arg1)) := by rw [e1]; exact hr c
    refine (h c Cert.ReferenceIdeal.main_v92).trans ((Cert.ReferenceIdeal.RV.out_eq _).trans ?_)
    show Cert.ReferenceIdeal.RV.refOut (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
    rw [Cert.ReferenceIdeal.RV.refOut_eq _ hr', MU_eq, VAR_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
